-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x64 : Shape := ⟨2, ![64, 64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x64 .f32) (main_arg3 : FVec F S64 .f32) (main_arg4 : FVec F S64x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x256 : Shape := ⟨2, ![5000, 256]⟩
abbrev S5000x64 : Shape := ⟨2, ![5000, 64]⟩
abbrev S1700000x64 : Shape := ⟨2, ![1700000, 64]⟩
abbrev S8192x64 : Shape := ⟨2, ![8192, 64]⟩
abbrev S8192 : Shape := ⟨1, ![8192]⟩
abbrev S8192x1 : Shape := ⟨2, ![8192, 1]⟩
abbrev S1x64 : Shape := ⟨2, ![1, 64]⟩

abbrev nBuf : Space → Nat
  | .hbm => 78
  | .vmem => 32
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x64, .f32⟩
  | .hbm, ⟨72, _⟩ => ⟨S1700000x64, .f32⟩
  | .hbm, ⟨73, _⟩ => ⟨S_, .f32⟩
  | .hbm, ⟨74, _⟩ => ⟨S100000x64, .f32⟩
  | .hbm, ⟨75, _⟩ => ⟨S1700000x1, .i32⟩
  | .hbm, ⟨76, _⟩ => ⟨S100000x64, .f32⟩
  | .hbm, ⟨77, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S8192x64, .f32⟩
  | .local _ .vmem, ⟨6, _⟩ => ⟨S8192x64, .f32⟩
  | .local _ .vmem, ⟨7, _⟩ => ⟨S8192, .f32⟩
  | .local _ .vmem, ⟨8, _⟩ => ⟨S8192, .f32⟩
  | .local _ .vmem, ⟨9, _⟩ => ⟨S8192x64, .f32⟩
  | .local _ .vmem, ⟨10, _⟩ => ⟨S8192x64, .f32⟩
  | .local _ .vmem, ⟨11, _⟩ => ⟨S5000x64, .f32⟩
  | .local _ .vmem, ⟨12, _⟩ => ⟨S5000x64, .f32⟩
  | .local _ .vmem, ⟨13, _⟩ => ⟨S64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S5000x64, .f32⟩
  | .local _ .vmem, ⟨20, _⟩ => ⟨S5000x64, .f32⟩
  | .local _ .vmem, ⟨21, _⟩ => ⟨S8192x64, .f32⟩
  | .local _ .vmem, ⟨22, _⟩ => ⟨S8192x64, .f32⟩
  | .local _ .vmem, ⟨23, _⟩ => ⟨S8192, .f32⟩
  | .local _ .vmem, ⟨24, _⟩ => ⟨S8192, .f32⟩
  | .local _ .vmem, ⟨25, _⟩ => ⟨S8192x64, .f32⟩
  | .local _ .vmem, ⟨26, _⟩ => ⟨S8192x64, .f32⟩
  | .local _ .vmem, ⟨27, _⟩ => ⟨S5000x64, .f32⟩
  | .local _ .vmem, ⟨28, _⟩ => ⟨S5000x64, .f32⟩
  | .local _ .vmem, ⟨29, _⟩ => ⟨S64, .f32⟩
  | .local _ .vmem, ⟨30, _⟩ => ⟨S5000x64, .f32⟩
  | .local _ .vmem, ⟨31, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_9 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![208], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![208], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  ![arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  inb_S8192_S8192_0 : ∀ a, (![0] : Fin 1 → Nat) a + S8192.size a ≤ S8192.size a
  h_S8192 : 0 < S8192.numel
  shapeCasts_S8192_S8192 : S8192.ShapeCasts S8192
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  shapeCasts_S8192_S8192x1 : S8192.ShapeCasts S8192x1
  broadcasts_S8192x1_S8192x64 : S8192x1.Broadcasts S8192x64
  bcast_S_S100000x64 : S_.BroadcastsInDim S100000x64 (![] : Fin 0 → Fin S100000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x64_S5000x64_1_0_0_1_n_n_wf : DotDims.WF S5000x256 S256x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S8192x64.size a < S1700000x64.size a
  hwx1_0 : ∀ i : grid1.Coords, EltTy.bits .f32 = 32 ∨ (Rect.unit (s := S1700000x64) (fun a => cc1_transform_0 i a * S8192x64.size a) (fun a => (Pipeline.Clip.of (cc1_transform_0 i a) (S8192x64.size a) (S1700000x64.size a)).extent (S8192x64.size a)) fun a => Pipeline.Clip.inb (Pipeline.Clip.ok_of (hstart1_0 i a))).WholeWords (EltTy.packing .f32)
  hwxs1_0 : ∀ i : grid1.Coords, EltTy.bits .f32 = 32 ∨ (Rect.unit (s := S8192x64) (fun _ => 0) (fun a => (Pipeline.Clip.of (cc1_transform_0 i a) (S8192x64.size a) (S1700000x64.size a)).extent (S8192x64.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S8192.size a < S1700000.size a
  hwx1_1 : ∀ i : grid1.Coords, EltTy.bits .f32 = 32 ∨ (Rect.unit (s := S1700000) (fun a => cc1_transform_1 i a * S8192.size a) (fun a => (Pipeline.Clip.of (cc1_transform_1 i a) (S8192.size a) (S1700000.size a)).extent (S8192.size a)) fun a => Pipeline.Clip.inb (Pipeline.Clip.ok_of (hstart1_1 i a))).WholeWords (EltTy.packing .f32)
  hwxs1_1 : ∀ i : grid1.Coords, EltTy.bits .f32 = 32 ∨ (Rect.unit (s := S8192) (fun _ => 0) (fun a => (Pipeline.Clip.of (cc1_transform_1 i a) (S8192.size a) (S1700000.size a)).extent (S8192.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S8192x64.size a < S1700000x64.size a
  hwx1_2 : ∀ i : grid1.Coords, EltTy.bits .f32 = 32 ∨ (Rect.unit (s := S1700000x64) (fun a => cc1_transform_2 i a * S8192x64.size a) (fun a => (Pipeline.Clip.of (cc1_transform_2 i a) (S8192x64.size a) (S1700000x64.size a)).extent (S8192x64.size a)) fun a => Pipeline.Clip.inb (Pipeline.Clip.ok_of (hstart1_2 i a))).WholeWords (EltTy.packing .f32)
  hwxs1_2 : ∀ i : grid1.Coords, EltTy.bits .f32 = 32 ∨ (Rect.unit (s := S8192x64) (fun _ => 0) (fun a => (Pipeline.Clip.of (cc1_transform_2 i a) (S8192x64.size a) (S1700000x64.size a)).extent (S8192x64.size a)) fun a => (Nat.zero_add _).trans_le (Pipeline.Clip.extent_le (Pipeline.Clip.ok_of (hstart1_2 i a)))).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hstart4_0 : ∀ (i : grid4.Coords) a, cc4_transform_0 i a * S8192x64.size a < S1700000x64.size a
  hwx4_0 : ∀ i : grid4.Coords, EltTy.bits .f32 = 32 ∨ (Rect.unit (s := S1700000x64) (fun a => cc4_transform_0 i a * S8192x64.size a) (fun a => (Pipeline.Clip.of (cc4_transform_0 i a) (S8192x64.size a) (S1700000x64.size a)).extent (S8192x64.size a)) fun a => Pipeline.Clip.inb (Pipeline.Clip.ok_of (hstart4_0 i a))).WholeWords (EltTy.packing .f32)
  hwxs4_0 : ∀ i : grid4.Coords, EltTy.bits .f32 = 32 ∨ (Rect.unit (s := S8192x64) (fun _ => 0) (fun a => (Pipeline.Clip.of (cc4_transform_0 i a) (S8192x64.size a) (S1700000x64.size a)).extent (S8192x64.size a)) fun a => (Nat.zero_add _).trans_le (Pipeline.Clip.extent_le (Pipeline.Clip.ok_of (hstart4_0 i a)))).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hstart4_1 : ∀ (i : grid4.Coords) a, cc4_transform_1 i a * S8192.size a < S1700000.size a
  hwx4_1 : ∀ i : grid4.Coords, EltTy.bits .f32 = 32 ∨ (Rect.unit (s := S1700000) (fun a => cc4_transform_1 i a * S8192.size a) (fun a => (Pipeline.Clip.of (cc4_transform_1 i a) (S8192.size a) (S1700000.size a)).extent (S8192.size a)) fun a => Pipeline.Clip.inb (Pipeline.Clip.ok_of (hstart4_1 i a))).WholeWords (EltTy.packing .f32)
  hwxs4_1 : ∀ i : grid4.Coords, EltTy.bits .f32 = 32 ∨ (Rect.unit (s := S8192) (fun _ => 0) (fun a => (Pipeline.Clip.of (cc4_transform_1 i a) (S8192.size a) (S1700000.size a)).extent (S8192.size a)) fun a => (Nat.zero_add _).trans_le (Pipeline.Clip.extent_le (Pipeline.Clip.ok_of (hstart4_1 i a)))).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hstart4_2 : ∀ (i : grid4.Coords) a, cc4_transform_2 i a * S8192x64.size a < S1700000x64.size a
  hwx4_2 : ∀ i : grid4.Coords, EltTy.bits .f32 = 32 ∨ (Rect.unit (s := S1700000x64) (fun a => cc4_transform_2 i a * S8192x64.size a) (fun a => (Pipeline.Clip.of (cc4_transform_2 i a) (S8192x64.size a) (S1700000x64.size a)).extent (S8192x64.size a)) fun a => Pipeline.Clip.inb (Pipeline.Clip.ok_of (hstart4_2 i a))).WholeWords (EltTy.packing .f32)
  hwxs4_2 : ∀ i : grid4.Coords, EltTy.bits .f32 = 32 ∨ (Rect.unit (s := S8192x64) (fun _ => 0) (fun a => (Pipeline.Clip.of (cc4_transform_2 i a) (S8192x64.size a) (S1700000x64.size a)).extent (S8192x64.size a)) fun a => (Nat.zero_add _).trans_le (Pipeline.Clip.extent_le (Pipeline.Clip.ok_of (hstart4_2 i a)))).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64.size a ≤ S64.size a
  hwx5_1 : ∀ i : grid5.Coords, EltTy.bits .f32 = 32 ∨ (Rect.block (s := S64) S64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpecClip (Memref.whole main_v37) S8192x64.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v29) S8192.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v38) S8192x64.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v41) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v42) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpecClip (Memref.whole main_v50) S8192x64.size cc4_transform_0 reads4_0 false false 2 stage4_0 sem4_0
    hrank4 hreads4_0 hstart4_0 nbuf4_0 (Memref.isWhole_whole _) hwx4_0 hwxs4_0 hstage4_0

abbrev win4_1 : Pipeline.Window sig grid4 :=
  Pipeline.Window.ofSpecClip (Memref.whole main_v29) S8192.size cc4_transform_1 reads4_1 false false 2 stage4_1 sem4_1
    hrank4 hreads4_1 hstart4_1 nbuf4_1 (Memref.isWhole_whole _) hwx4_1 hwxs4_1 hstage4_1

abbrev win4_2 : Pipeline.Window sig grid4 :=
  Pipeline.Window.ofSpecClip (Memref.whole main_v51) S8192x64.size cc4_transform_2 reads4_2 true false 2 stage4_2 sem4_2
    hrank4 hreads4_2 hstart4_2 nbuf4_2 (Memref.isWhole_whole _) hwx4_2 hwxs4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v54) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg5) S64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v55) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S1700000, .f32⟩
  | .hbm, ⟨71, _⟩ => ⟨S_, .f32⟩
  | .hbm, ⟨72, _⟩ => ⟨S100000, .f32⟩
  | .hbm, ⟨73, _⟩ => ⟨S1700000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .i1⟩
  | .hbm, ⟨78, _⟩ => ⟨S100000, .f32⟩
  | .hbm, ⟨79, _⟩ => ⟨S_, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000, .f32⟩
  | .hbm, ⟨101, _⟩ => ⟨S1700000, .f32⟩
  | .hbm, ⟨102, _⟩ => ⟨S100000x64, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x64, .f32⟩
  | .hbm, ⟨112, _⟩ => ⟨S1700000x1, .f32⟩
  | .hbm, ⟨113, _⟩ => ⟨S1700000x64, .f32⟩
  | .hbm, ⟨114, _⟩ => ⟨S1700000x64, .f32⟩
  | .hbm, ⟨115, _⟩ => ⟨S_, .f32⟩
  | .hbm, ⟨116, _⟩ => ⟨S100000x64, .f32⟩
  | .hbm, ⟨117, _⟩ => ⟨S1700000x1, .i32⟩
  | .hbm, ⟨118, _⟩ => ⟨S100000x64, .f32⟩
  | .hbm, ⟨119, _⟩ => ⟨S1x64, .f32⟩
  | .hbm, ⟨120, _⟩ => ⟨S100000x64, .f32⟩
  | .hbm, ⟨121, _⟩ => ⟨S100000x64, .f32⟩
  | .hbm, ⟨122, _⟩ => ⟨S_, .f32⟩
  | .hbm, ⟨123, _⟩ => ⟨S100000x64, .f32⟩
  | .hbm, ⟨124, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_call2_v0 : Ref sig .tc := ⟨.hbm, 80, rfl⟩
abbrev main_call2_v1 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_v88 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x64_S100000x64_1_0_0_1_n_n_wf : DotDims.WF S100000x256 S256x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.K.D0.lean ====
/-
  Region 0 of @main (x · W1 on 5,000-row blocks of x, the weights staged once): the proof data of its pipeline at the contents `V` the region is entered with.
  Window 0 and window 1 are inputs whose blocks tile their arrays, window 2 is the output, stored whole at every
  grid point: after the body each input's staging buffer holds its block and the output's holds the body's one store
  of the payload `k0_pay1` of the two input blocks.
-/
import proofs.«173455_j62955630624873_1_alg».proof.Proof.Gen.Kernel.Launch
import proofs.«173455_j62955630624873_1_alg».proof.Proof.Gen.Kernel.Skeleton
import proofs.«173455_j62955630624873_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x256 := Rect.unit (s := S5000x256) ![0, 0] S5000x256.size inb_S5000x256_S5000x256_0_0
abbrev r0_1 : Rect S256x64 := Rect.unit (s := S256x64) ![0, 0] S256x64.size inb_S256x64_S256x64_0_0
abbrev r0_2 : Rect S5000x64 := Rect.unit (s := S5000x64) ![0, 0] S5000x64.size inb_S5000x64_S5000x64_0_0

/-- The output's staging buffer after the body, from the two input blocks: its one whole store. -/
def out0_2 (x0 : Vec F S5000x256 .f32) (x1 : Vec F S256x64 .f32) : Vec F S5000x64 .f32 :=
  View.canon [⟨r0_2, k0_pay1 (View.ld x0 r0_0) (View.ld x1 r0_1)⟩]

/-- The one store covers the buffer. -/
theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

end Cert.Kernel.Hand

end
-- ==== Proof.K.D1.lean ====
/-
  Region 1 of @main (the per-edge scaling): the proof data of its pipeline at the contents `V` the region is
  entered with. The 1,700,000 edge rows are staged 8,192 at a time on 208 grid points, and the last block holds only
  4,256 rows of the arrays: every window is cut there, and the staging rows past the arrays' end hold words nothing
  names. After the body each staging buffer is stated on the rows inside the array only (the library's loose form): an
  input's buffer is its block filled out with the zero word, and the output's is the body's one store of the payload
  `k1_pay1` of the two filled-out blocks, which on the rows inside the array does not depend on the filler (the
  payload is a row-by-row product).
-/
import proofs.«173455_j62955630624873_1_alg».proof.Proof.Gen.Kernel.Launch
import proofs.«173455_j62955630624873_1_alg».proof.Proof.Gen.Kernel.Skeleton
import proofs.«173455_j62955630624873_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t` as the fetch reads it: its part inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The word the proof data fill a staging buffer out with past the array's end (nothing reads it). -/
abbrev zfill1 (w : Fin cfg1.W) : (cfg1.win w).block.Idx → Elt F (cfg1.win w).elt :=
  match w with
  | ⟨0, _⟩ => fun _ => Scalar.ofBits .f32 0#32
  | ⟨1, _⟩ => fun _ => Scalar.ofBits .f32 0#32
  | ⟨2, _⟩ => fun _ => Scalar.ofBits .f32 0#32

/-- Input window `w`'s block at point `t` filled out to the whole staging buffer with `d`. -/
def fblk1 (c : Dev nD) (w : Fin cfg1.W) (t : Fin cfg1.N) (d : (cfg1.win w).block.Idx → Elt F (cfg1.win w).elt) :
    (cfg1.win w).block.Idx → Elt F (cfg1.win w).elt :=
  (cfg1.win w).fill (cfg1.grid.coords t) d (iblk1 V c w t)

abbrev r1_0 : Rect S8192x64 := Rect.unit (s := S8192x64) ![0, 0] S8192x64.size inb_S8192x64_S8192x64_0_0
abbrev r1_1 : Rect S8192 := Rect.unit (s := S8192) ![0] S8192.size inb_S8192_S8192_0
abbrev r1_2 : Rect S8192x64 := Rect.unit (s := S8192x64) ![0, 0] S8192x64.size inb_S8192x64_S8192x64_0_0

/-- The output's staging buffer after the body, from the two input buffers' contents (`x0` the gathered rows,
    `x1` the per-edge factors): its one whole store. -/
def out1_2 (x0 : Vec F S8192x64 .f32) (x1 : Vec F S8192 .f32) : Vec F S8192x64 .f32 :=
  View.canon [⟨r1_2, k1_pay1 (View.ld x1 r1_1) (View.ld x0 r1_0)⟩]

/-- The one store covers the buffer. -/
theorem cover1_2 (p0 : Vec F S8192x64 .f32) (y : S8192x64.Idx) :
    ∃ pc ∈ ([⟨r1_2, p0⟩] : List (View.Piece (Elt F) S8192x64 .f32)), y ∈ pc.1.set :=
  View.cover_of_tiled [⟨r1_2, p0⟩] S8192x64.size (by rfl) y

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => fblk1 V c 0 t (zfill1 0)
    | ⟨1, _⟩ => fblk1 V c 1 t (zfill1 1)
    | ⟨2, _⟩ => out1_2 (fblk1 V c 0 t (zfill1 0)) (fblk1 V c 1 t (zfill1 1))
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = fblk1 V c 0 t (zfill1 0) := by dsimp only [dat1]
theorem after1_1 (c : Dev nD) (t : Fin cfg1.N) : (dat1 V c).after 1 t = fblk1 V c 1 t (zfill1 1) := by dsimp only [dat1]
theorem after1_2 (c : Dev nD) (t : Fin cfg1.N) :
    (dat1 V c).after 2 t = out1_2 (fblk1 V c 0 t (zfill1 0)) (fblk1 V c 1 t (zfill1 1)) := by dsimp only [dat1]

end Cert.Kernel.Hand

end
-- ==== Proof.K.D2.lean ====
/-
  Region 2 of @main (bias and ReLU on 5,000-row blocks, the bias staged once): the proof data of its pipeline at the contents `V` the region is entered with.
  Window 0 and window 1 are inputs whose blocks tile their arrays, window 2 is the output, stored whole at every
  grid point: after the body each input's staging buffer holds its block and the output's holds the body's one store
  of the payload `k2_pay1` of the two input blocks.
-/
import proofs.«173455_j62955630624873_1_alg».proof.Proof.Gen.Kernel.Launch
import proofs.«173455_j62955630624873_1_alg».proof.Proof.Gen.Kernel.Skeleton
import proofs.«173455_j62955630624873_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x64 := Rect.unit (s := S5000x64) ![0, 0] S5000x64.size inb_S5000x64_S5000x64_0_0
abbrev r2_1 : Rect S64 := Rect.unit (s := S64) ![0] S64.size inb_S64_S64_0
abbrev r2_2 : Rect S5000x64 := Rect.unit (s := S5000x64) ![0, 0] S5000x64.size inb_S5000x64_S5000x64_0_0

/-- The output's staging buffer after the body, from the two input blocks: its one whole store. -/
def out2_2 (x0 : Vec F S5000x64 .f32) (x1 : Vec F S64 .f32) : Vec F S5000x64 .f32 :=
  View.canon [⟨r2_2, k2_pay1 (View.ld x0 r2_0) (View.ld x1 r2_1)⟩]

/-- The one store covers the buffer. -/
theorem cover2_2 (p0 : Vec F S5000x64 .f32) (y : S5000x64.Idx) :
    ∃ pc ∈ ([⟨r2_2, p0⟩] : List (View.Piece (Elt F) S5000x64 .f32)), y ∈ pc.1.set :=
  View.cover_of_tiled [⟨r2_2, p0⟩] S5000x64.size (by rfl) y

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

end Cert.Kernel.Hand

end
-- ==== Proof.K.D3.lean ====
/-
  Region 3 of @main (h · W2 on 5,000-row blocks of h, the weights staged once): the proof data of its pipeline at the contents `V` the region is entered with.
  Window 0 and window 1 are inputs whose blocks tile their arrays, window 2 is the output, stored whole at every
  grid point: after the body each input's staging buffer holds its block and the output's holds the body's one store
  of the payload `k3_pay1` of the two input blocks.
-/
import proofs.«173455_j62955630624873_1_alg».proof.Proof.Gen.Kernel.Launch
import proofs.«173455_j62955630624873_1_alg».proof.Proof.Gen.Kernel.Skeleton
import proofs.«173455_j62955630624873_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x64 := Rect.unit (s := S5000x64) ![0, 0] S5000x64.size inb_S5000x64_S5000x64_0_0
abbrev r3_1 : Rect S64x64 := Rect.unit (s := S64x64) ![0, 0] S64x64.size inb_S64x64_S64x64_0_0
abbrev r3_2 : Rect S5000x64 := Rect.unit (s := S5000x64) ![0, 0] S5000x64.size inb_S5000x64_S5000x64_0_0

/-- The output's staging buffer after the body, from the two input blocks: its one whole store. -/
def out3_2 (x0 : Vec F S5000x64 .f32) (x1 : Vec F S64x64 .f32) : Vec F S5000x64 .f32 :=
  View.canon [⟨r3_2, k3_pay1 (View.ld x0 r3_0) (View.ld x1 r3_1)⟩]

/-- The one store covers the buffer. -/
theorem cover3_2 (p0 : Vec F S5000x64 .f32) (y : S5000x64.Idx) :
    ∃ pc ∈ ([⟨r3_2, p0⟩] : List (View.Piece (Elt F) S5000x64 .f32)), y ∈ pc.1.set :=
  View.cover_of_tiled [⟨r3_2, p0⟩] S5000x64.size (by rfl) y

/-- The proof data of pipeline 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

end Cert.Kernel.Hand

end
-- ==== Proof.K.D4.lean ====
/-
  Region 4 of @main (the per-edge scaling): the proof data of its pipeline at the contents `V` the region is
  entered with. The 1,700,000 edge rows are staged 8,192 at a time on 208 grid points, and the last block holds only
  4,256 rows of the arrays: every window is cut there, and the staging rows past the arrays' end hold words nothing
  names. After the body each staging buffer is stated on the rows inside the array only (the library's loose form): an
  input's buffer is its block filled out with the zero word, and the output's is the body's one store of the payload
  `k4_pay1` of the two filled-out blocks, which on the rows inside the array does not depend on the filler (the
  payload is a row-by-row product).
-/
import proofs.«173455_j62955630624873_1_alg».proof.Proof.Gen.Kernel.Launch
import proofs.«173455_j62955630624873_1_alg».proof.Proof.Gen.Kernel.Skeleton
import proofs.«173455_j62955630624873_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t` as the fetch reads it: its part inside the array. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The word the proof data fill a staging buffer out with past the array's end (nothing reads it). -/
abbrev zfill4 (w : Fin cfg4.W) : (cfg4.win w).block.Idx → Elt F (cfg4.win w).elt :=
  match w with
  | ⟨0, _⟩ => fun _ => Scalar.ofBits .f32 0#32
  | ⟨1, _⟩ => fun _ => Scalar.ofBits .f32 0#32
  | ⟨2, _⟩ => fun _ => Scalar.ofBits .f32 0#32

/-- Input window `w`'s block at point `t` filled out to the whole staging buffer with `d`. -/
def fblk4 (c : Dev nD) (w : Fin cfg4.W) (t : Fin cfg4.N) (d : (cfg4.win w).block.Idx → Elt F (cfg4.win w).elt) :
    (cfg4.win w).block.Idx → Elt F (cfg4.win w).elt :=
  (cfg4.win w).fill (cfg4.grid.coords t) d (iblk4 V c w t)

abbrev r4_0 : Rect S8192x64 := Rect.unit (s := S8192x64) ![0, 0] S8192x64.size inb_S8192x64_S8192x64_0_0
abbrev r4_1 : Rect S8192 := Rect.unit (s := S8192) ![0] S8192.size inb_S8192_S8192_0
abbrev r4_2 : Rect S8192x64 := Rect.unit (s := S8192x64) ![0, 0] S8192x64.size inb_S8192x64_S8192x64_0_0

/-- The output's staging buffer after the body, from the two input buffers' contents (`x0` the gathered rows,
    `x1` the per-edge factors): its one whole store. -/
def out4_2 (x0 : Vec F S8192x64 .f32) (x1 : Vec F S8192 .f32) : Vec F S8192x64 .f32 :=
  View.canon [⟨r4_2, k4_pay1 (View.ld x1 r4_1) (View.ld x0 r4_0)⟩]

/-- The one store covers the buffer. -/
theorem cover4_2 (p0 : Vec F S8192x64 .f32) (y : S8192x64.Idx) :
    ∃ pc ∈ ([⟨r4_2, p0⟩] : List (View.Piece (Elt F) S8192x64 .f32)), y ∈ pc.1.set :=
  View.cover_of_tiled [⟨r4_2, p0⟩] S8192x64.size (by rfl) y

/-- The proof data of pipeline 4 on core `c`. -/
def dat4 (c : Dev nD) : Dat τ (Elt F) Unit ℕ (UR sig nD τ) ℕ cfg4 c where
  A w := V c (Pipeline.arrRef spec4 w)
  after w t := match w with
    | ⟨0, _⟩ => fblk4 V c 0 t (zfill4 0)
    | ⟨1, _⟩ => fblk4 V c 1 t (zfill4 1)
    | ⟨2, _⟩ => out4_2 (fblk4 V c 0 t (zfill4 0)) (fblk4 V c 1 t (zfill4 1))
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = fblk4 V c 0 t (zfill4 0) := by dsimp only [dat4]
theorem after4_1 (c : Dev nD) (t : Fin cfg4.N) : (dat4 V c).after 1 t = fblk4 V c 1 t (zfill4 1) := by dsimp only [dat4]
theorem after4_2 (c : Dev nD) (t : Fin cfg4.N) :
    (dat4 V c).after 2 t = out4_2 (fblk4 V c 0 t (zfill4 0)) (fblk4 V c 1 t (zfill4 1)) := by dsimp only [dat4]

end Cert.Kernel.Hand

end
-- ==== Proof.K.D5.lean ====
/-
  Region 5 of @main (bias and ReLU on 5,000-row blocks, the bias staged once): the proof data of its pipeline at the contents `V` the region is entered with.
  Window 0 and window 1 are inputs whose blocks tile their arrays, window 2 is the output, stored whole at every
  grid point: after the body each input's staging buffer holds its block and the output's holds the body's one store
  of the payload `k5_pay1` of the two input blocks.
-/
import proofs.«173455_j62955630624873_1_alg».proof.Proof.Gen.Kernel.Launch
import proofs.«173455_j62955630624873_1_alg».proof.Proof.Gen.Kernel.Skeleton
import proofs.«173455_j62955630624873_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S5000x64 := Rect.unit (s := S5000x64) ![0, 0] S5000x64.size inb_S5000x64_S5000x64_0_0
abbrev r5_1 : Rect S64 := Rect.unit (s := S64) ![0] S64.size inb_S64_S64_0
abbrev r5_2 : Rect S5000x64 := Rect.unit (s := S5000x64) ![0, 0] S5000x64.size inb_S5000x64_S5000x64_0_0

/-- The output's staging buffer after the body, from the two input blocks: its one whole store. -/
def out5_2 (x0 : Vec F S5000x64 .f32) (x1 : Vec F S64 .f32) : Vec F S5000x64 .f32 :=
  View.canon [⟨r5_2, k5_pay1 (View.ld x0 r5_0) (View.ld x1 r5_1)⟩]

/-- The one store covers the buffer. -/
theorem cover5_2 (p0 : Vec F S5000x64 .f32) (y : S5000x64.Idx) :
    ∃ pc ∈ ([⟨r5_2, p0⟩] : List (View.Piece (Elt F) S5000x64 .f32)), y ∈ pc.1.set :=
  View.cover_of_tiled [⟨r5_2, p0⟩] S5000x64.size (by rfl) y

/-- The proof data of pipeline 5 on core `c`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

end Cert.Kernel.Hand

end
-- ==== Proof.K.Fold.lean ====
/-
  The contents of core `c`'s buffers at each boundary between two items of @main, as a fold from the launch memory:
  a stretch of host operations applies them (`StableHlo.after`); a kernel region leaves its three arrays at what its
  pipeline's write-backs leave (`Dat.arrAt … N`) and every other buffer as it found it (`Pipeline.withArrays`).
  `WJ` is the contents after item J−1 (items: three host stretches, region 0, a stretch, region 1, a stretch,
  regions 2 and 3, a stretch, region 4, a stretch, region 5), `VJ` the same read at the TensorCore's references.
-/
import proofs.«173455_j62955630624873_1_alg».proof.Proof.K.D0
import proofs.«173455_j62955630624873_1_alg».proof.Proof.K.D1
import proofs.«173455_j62955630624873_1_alg».proof.Proof.K.D2
import proofs.«173455_j62955630624873_1_alg».proof.Proof.K.D3
import proofs.«173455_j62955630624873_1_alg».proof.Proof.K.D4
import proofs.«173455_j62955630624873_1_alg».proof.Proof.K.D5

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- After the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At region 0's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the host stretch `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At region 1's exit: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the host stretch `hostOps2`. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
/-- At region 2's exit: its arrays at what the pipeline leaves, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- At region 3's exit: its arrays at what the pipeline leaves, every other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)
/-- After the host stretch `hostOps4`. -/
abbrev W10 : Dev nD → Valuation τ sig (Elt F) := fun c => StableHlo.after hostOps4 (W9 m ρ c)
abbrev V10 : (c : Dev nD) → (b : Ref sig .tc) → Buf (Elt F) ((c : Thread nD τ).loc b) := fun c b => W10 m ρ c b
/-- At region 4's exit: its arrays at what the pipeline leaves, every other buffer as entered. -/
def W11 (c : Dev nD) : Valuation τ sig (Elt F) :=
  Pipeline.withArrays spec4 c (W10 m ρ c) fun w => (dat4 (V10 m ρ) c).arrAt w cfg4.N
theorem W11_arr (c : Dev nD) (w : Fin cfg4.W) :
    W11 m ρ c (Proc.devRef .tc (Pipeline.arrRef spec4 w)) = (dat4 (V10 m ρ) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m ρ c (Proc.devRef .tc b) = W10 m ρ c (Proc.devRef .tc b) := by
  unfold W11; exact Pipeline.withArrays_of_ne spec4 c _ _ b hb
abbrev V11 : (c : Dev nD) → (b : Ref sig .tc) → Buf (Elt F) ((c : Thread nD τ).loc b) := fun c b => W11 m ρ c b
theorem hF4 (c : Dev nD) (w : Fin cfg4.W) : (dat4 (V10 m ρ) c).arrAt w cfg4.N = V11 m ρ c (Pipeline.arrRef spec4 w) :=
  (W11_arr m ρ c w).symm
theorem hrest4 (c : Dev nD) : ∀ b, b ∉ Finset.univ.image (Pipeline.arrRef spec4) → V11 m ρ c b = V10 m ρ c b :=
  fun b hb => W11_of_ne m ρ c b fun w e => hb (Finset.mem_image.mpr ⟨w, Finset.mem_univ _, e⟩)
/-- After the host stretch `hostOps5`. -/
abbrev W12 : Dev nD → Valuation τ sig (Elt F) := fun c => StableHlo.after hostOps5 (W11 m ρ c)
abbrev V12 : (c : Dev nD) → (b : Ref sig .tc) → Buf (Elt F) ((c : Thread nD τ).loc b) := fun c b => W12 m ρ c b
/-- At region 5's exit: its arrays at what the pipeline leaves, every other buffer as entered. -/
def W13 (c : Dev nD) : Valuation τ sig (Elt F) :=
  Pipeline.withArrays spec5 c (W12 m ρ c) fun w => (dat5 (V12 m ρ) c).arrAt w cfg5.N
theorem W13_arr (c : Dev nD) (w : Fin cfg5.W) :
    W13 m ρ c (Proc.devRef .tc (Pipeline.arrRef spec5 w)) = (dat5 (V12 m ρ) c).arrAt w cfg5.N := by
  unfold W13; exact Pipeline.withArrays_arr spec5 launch5.win.arr_inj c _ _ w
theorem W13_of_ne (c : Dev nD) (b : Ref sig .tc) (hb : ∀ w, Pipeline.arrRef spec5 w ≠ b) :
    W13 m ρ c (Proc.devRef .tc b) = W12 m ρ c (Proc.devRef .tc b) := by
  unfold W13; exact Pipeline.withArrays_of_ne spec5 c _ _ b hb
abbrev V13 : (c : Dev nD) → (b : Ref sig .tc) → Buf (Elt F) ((c : Thread nD τ).loc b) := fun c b => W13 m ρ c b
theorem hF5 (c : Dev nD) (w : Fin cfg5.W) : (dat5 (V12 m ρ) c).arrAt w cfg5.N = V13 m ρ c (Pipeline.arrRef spec5 w) :=
  (W13_arr m ρ c w).symm
theorem hrest5 (c : Dev nD) : ∀ b, b ∉ Finset.univ.image (Pipeline.arrRef spec5) → V13 m ρ c b = V12 m ρ c b :=
  fun b hb => W13_of_ne m ρ c b fun w e => hb (Finset.mem_image.mpr ⟨w, Finset.mem_univ _, e⟩)

end Cert.Kernel.Hand

end
-- ==== Proof.K.B0.lean ====
/-
  Region 0 of @main (x · W1 on 5,000-row blocks of x, the weights staged once): the body obligation of its pipeline at the contents `V` the region is entered with.
  Each input window's current staging buffer holds its block at every grid point, whether or not the window is
  fetched there (an unfetched window's block index has not moved); on whole staging buffers the kernel body reads the
  two input blocks, reads the output's buffer without using what it read, and stores the payload over the whole output
  buffer, which the one store covers; so the body takes the pipeline's precondition at a point to its postcondition there.
-/
import proofs.«173455_j62955630624873_1_alg».proof.Proof.K.D0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Input window 0's current staging buffer holds its block at every point, fetched there or not, for any proof
    data whose array is `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1, which is fetched at the first point only: where it is not fetched its block index
    has not moved, so its buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

set_option maxHeartbeats 1000000 in
/-- The kernel body on whole staging buffers, the inputs' at read contents `x0`, `x1` and the output's at anything,
    runs to the continuation holding the inputs' as they were and the output's at `out0_2 x0 x1`: two loads, a load of
    the output's buffer whose value is not used, and one store of the payload over the whole output buffer. -/
theorem sound_kernel0 (c : Dev nD) (E : Set ℕ) (i : grid0.Coords)
    (arg1 : Memref sig .tc .vmem S5000x256 .f32) (harg1 : arg1.IsWhole)
    (arg2 : Memref sig .tc .vmem S256x64 .f32) (harg2 : arg2.IsWhole)
    (arg3 : Memref sig .tc .vmem S5000x64 .f32) (harg3 : arg3.IsWhole)
    (x0 : Vec F S5000x256 .f32) (x1 : Vec F S256x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, the output's holds something, so the kernel's triple
    applies; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.B1.lean ====
/-
  Region 1 of @main (the per-edge scaling): the body obligation of its pipeline, in the library's loose form, at the
  contents `V` the region is entered with. Every window is cut at the arrays' end and fetched or written back at
  every grid point, so the body finds each input's staging buffer holding its block on the rows inside the array and
  an unnamed filler past it, and the output's holding anything. The body loads the factors, loads the gathered rows,
  and stores their row-by-row product whole; row `r` of the product reads row `r` of the gathered block and factor
  `r` only, and the three windows cut alike, so on the rows the output's write-back moves the product does not
  depend on the fillers: that is all the loose obligation states of the output's buffer.
-/
import proofs.«173455_j62955630624873_1_alg».proof.Proof.K.D1
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The zero offsets of a whole access, as a constant function. -/
theorem r1_zeros2 : (![0, 0] : Fin 2 → Nat) = fun _ => 0 := funext fun a => by fin_cases a <;> rfl
theorem r1_zeros1 : (![0] : Fin 1 → Nat) = fun _ => 0 := funext fun a => by fin_cases a; rfl

/-- The payload at row `r`, column `j`: the gathered word times the row's factor. -/
theorem k1_pay1_apply (n : Vec F S8192 .f32) (g : Vec F S8192x64 .f32) (y : S8192x64.Idx) (k : S8192.Idx)
    (hk : (k 0).val = (y 0).val) : k1_pay1 n g y = FloatOps.mulf (g y) (n k) := by
  unfold k1_pay1
  simp only [shapeCast_self]
  show FloatOps.mulf (g y) (broadcastTo S8192x64 (shapeCast S8192x1 n shapeCasts_S8192_S8192x1) broadcasts_S8192x1_S8192x64 y) = _
  congr 1
  let k' : S8192x1.Idx := fun a => match a with
    | ⟨0, _⟩ => (⟨(y 0).val, (y 0).isLt⟩ : Fin 8192)
    | ⟨1, _⟩ => (⟨0, Nat.one_pos⟩ : Fin 1)
  refine (broadcastTo_apply _ broadcasts_S8192x1_S8192x64 y k' fun a => ?_).trans ?_
  · match a with
    | ⟨0, _⟩ => rfl
    | ⟨1, _⟩ => rfl
  · refine shapeCast_apply n shapeCasts_S8192_S8192x1 k' k ?_
    rw [Shape.rowMajor_val_one, Shape.rowMajor_val_two]
    show (k 0).val = (y 0).val * 1 + 0
    omega

/-- The output's buffer after the body is the payload of the two input buffers' contents. -/
theorem out1_2_eq (x0 : Vec F S8192x64 .f32) (x1 : Vec F S8192 .f32) : out1_2 x0 x1 = k1_pay1 x1 x0 := by
  unfold out1_2
  rw [View.canon_unit_zero r1_zeros2, View.ld_unit_zero r1_zeros1, View.ld_unit_zero r1_zeros2]

/-- At row `r`, column `j` it holds the gathered word there times factor `r`. -/
theorem out1_2_apply (x0 : Vec F S8192x64 .f32) (x1 : Vec F S8192 .f32) (y : S8192x64.Idx) (k : S8192.Idx)
    (hk : (k 0).val = (y 0).val) : out1_2 x0 x1 y = FloatOps.mulf (x0 y) (x1 k) := by
  rw [out1_2_eq]; exact k1_pay1_apply x1 x0 y k hk

/-- The three windows cut alike: one index map on the row axis, one block height, one array height (by unfolding). -/
theorem win1_xsize_0 (i : grid1.Coords) (a : Fin 2) : (cfg1.win 0).xsize i a = (cfg1.win 2).xsize i a := rfl
theorem win1_xsize_1 (i : grid1.Coords) : (cfg1.win 1).xsize i 0 = (cfg1.win 2).xsize i 0 := rfl

set_option maxHeartbeats 1000000 in
/-- The kernel body on whole staging memrefs, the inputs' at contents `x0` (the gathered rows) and `x1` (the
    factors) and the output's at anything: the load of the factors, the load of the rows, a load of the output's
    buffer nothing reads, and the one whole store of the payload; the inputs' buffers are left as they were and the
    output's holds `out1_2 x0 x1`. -/
theorem sound_kernel1 (c : Dev nD) (E : Set ℕ) (i : grid1.Coords)
    (arg1 : Memref sig .tc .vmem S8192x64 .f32) (harg1 : arg1.IsWhole)
    (arg2 : Memref sig .tc .vmem S8192 .f32) (harg2 : arg2.IsWhole)
    (arg3 : Memref sig .tc .vmem S8192x64 .f32) (harg3 : arg3.IsWhole)
    (x0 : Vec F S8192x64 .f32) (x1 : Vec F S8192 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
              ∗ owns (c : Thread nD τ) arg3 fullShare (out1_2 x0 x1)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

-- the TensorCore's buffer contents when the region is entered
variable (V : (c : Dev nD) → (b : Ref sig .tc) → Buf (Elt F) ((c : Thread nD τ).loc b))

/-- On an index the transfer moves, a filled-out block is the block whatever filled it out. -/
theorem win1_fill_of_moved {α : Type} (w : Window sig grid1) (i : grid1.Coords) (d d' : w.block.Idx → α)
    (g : (w.xblock i).Idx → α) {j : w.block.Idx} (h : w.moved i j = true) : w.fill i d g j = w.fill i d' g j := by
  unfold Window.fill; rw [dif_pos h, dif_pos h]

/-- On the rows inside the array the output's buffer after the body does not depend on what
    filled the input buffers out past the arrays' end — row `r` of the payload reads row `r` of the gathered
    block and factor `r`, and a row the output's transfer moves is one both inputs' transfers moved. -/
theorem out1_2_agree (c : Dev nD) (t : Fin cfg1.N)
    (d0 d0' : (cfg1.win 0).block.Idx → Elt F (cfg1.win 0).elt) (d1 d1' : (cfg1.win 1).block.Idx → Elt F (cfg1.win 1).elt) :
    (cfg1.win 2).cut (cfg1.grid.coords t) (out1_2 (fblk1 V c 0 t d0) (fblk1 V c 1 t d1))
      = (cfg1.win 2).cut (cfg1.grid.coords t) (out1_2 (fblk1 V c 0 t d0') (fblk1 V c 1 t d1')) := by
  funext j
  let y : S8192x64.Idx := (cfg1.win 2).xinj (cfg1.grid.coords t) j
  let k : S8192.Idx := fun a => match a with | ⟨0, _⟩ => (⟨(y 0).val, (y 0).isLt⟩ : Fin 8192)
  show out1_2 (fblk1 V c 0 t d0) (fblk1 V c 1 t d1) y = out1_2 (fblk1 V c 0 t d0') (fblk1 V c 1 t d1') y
  rw [out1_2_apply _ _ y k rfl, out1_2_apply _ _ y k rfl]
  have m0 : (cfg1.win 0).moved (cfg1.grid.coords t) y = true :=
    ((cfg1.win 0).moved_iff _ _).mpr fun a => by rw [win1_xsize_0]; exact (j a).isLt
  have m1 : (cfg1.win 1).moved (cfg1.grid.coords t) k = true :=
    ((cfg1.win 1).moved_iff _ _).mpr fun a => by
      match a with
      | ⟨0, _⟩ => exact (win1_xsize_1 (cfg1.grid.coords t)) ▸ (j 0).isLt
  unfold fblk1
  rw [win1_fill_of_moved (cfg1.win 0) _ d0 d0' _ m0, win1_fill_of_moved (cfg1.win 1) _ d1 d1' _ m1]

/-- What the body finds in the inputs' buffers: each just fetched, the block on the rows inside the array and `d`
    past it. -/
theorem before1_0 (c : Dev nD) (t : Fin cfg1.N) (d) : (dat1 V c).before 0 t d = fblk1 V c 0 t d := by
  unfold Dat.before; rw [if_pos (fetch1_0 t)]; rfl
theorem before1_1 (c : Dev nD) (t : Fin cfg1.N) (d) : (dat1 V c).before 1 t d = fblk1 V c 1 t d := by
  unfold Dat.before; rw [if_pos (fetch1_1 t)]; rfl

/-- The library's body obligation in its loose form, at every point: the inputs' buffers arrive holding their blocks
    filled out with some `d` past the arrays' end, the output's holding anything; the body leaves the inputs' as
    they were and the output's at the payload of the two, which on the rows inside the array is what the proof data
    name (`out1_2_agree`). -/
theorem body_obligation1 (c : Dev nD) : BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩⟩
  rw [before1_0 V c t d0, before1_1 V c t d1]
  iapply (sound_kernel1 (F := F) c Set.univ (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (fblk1 V c 0 t d0) (fblk1 V c 1 t d1) _)
  isplitl [H0]; · iexact H0
  isplitl [H1]; · iexact H1
  isplitl [H2]; · iexists _; iexact H2
  iintro ⟨H0, H1, H2⟩
  isplitl [HΦ]; · iexact HΦ
  isplitl [Ho]; · iexact Ho
  have h0 : (cfg1.win 0).fill (cfg1.grid.coords t) d0 ((cfg1.win 0).cut (cfg1.grid.coords t) ((dat1 V c).after 0 t)) = fblk1 V c 0 t d0 := by
    rw [after1_0]; unfold fblk1; rw [Window.cut_fill]
  have h1 : (cfg1.win 1).fill (cfg1.grid.coords t) d1 ((cfg1.win 1).cut (cfg1.grid.coords t) ((dat1 V c).after 1 t)) = fblk1 V c 1 t d1 := by
    rw [after1_1]; unfold fblk1; rw [Window.cut_fill]
  have h2 : (cfg1.win 2).fill (cfg1.grid.coords t) (out1_2 (fblk1 V c 0 t d0) (fblk1 V c 1 t d1))
      ((cfg1.win 2).cut (cfg1.grid.coords t) ((dat1 V c).after 2 t)) = out1_2 (fblk1 V c 0 t d0) (fblk1 V c 1 t d1) := by
    rw [after1_2]; exact (cfg1.win 2).fill_congr_cut _ (out1_2_agree V c t d0 _ d1 _)
  isplitl [H0]
  · iexists d0
    change _ ⊢ owns (c : Thread nD τ) (st1_0 t) fullShare ((cfg1.win 0).fill (cfg1.grid.coords t) d0 ((cfg1.win 0).cut (cfg1.grid.coords t) ((dat1 V c).after 0 t)))
    rw [h0]; try iexact H0
  isplitl [H1]
  · iexists d1
    change _ ⊢ owns (c : Thread nD τ) (st1_1 t) fullShare ((cfg1.win 1).fill (cfg1.grid.coords t) d1 ((cfg1.win 1).cut (cfg1.grid.coords t) ((dat1 V c).after 1 t)))
    rw [h1]; try iexact H1
  · iexists out1_2 (fblk1 V c 0 t d0) (fblk1 V c 1 t d1)
    change _ ⊢ owns (c : Thread nD τ) (st1_2 t) fullShare ((cfg1.win 2).fill (cfg1.grid.coords t) (out1_2 (fblk1 V c 0 t d0) (fblk1 V c 1 t d1)) ((cfg1.win 2).cut (cfg1.grid.coords t) ((dat1 V c).after 2 t)))
    rw [h2]; try iexact H2

end Cert.Kernel.Hand

end
-- ==== Proof.K.B2.lean ====
/-
  Region 2 of @main (bias and ReLU on 5,000-row blocks): the body obligation of its pipeline at the contents `V`
  the region is entered with. Each input window's current staging buffer holds that window's block at every grid
  point, whether or not the window is fetched there (the bias is fetched at the first point only and its block index
  never moves); the body reads the two input buffers, reads the output buffer without using what it read, and stores
  the payload of the two input blocks over the whole output buffer.
-/
import proofs.«173455_j62955630624873_1_alg».proof.Proof.K.D2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in each input window's buffer -/

/-- Input window 0's current staging buffer holds its block at every point, fetched there or not, for any proof
    data whose array is `V`'s and whose body leaves the block in place: the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point: it is fetched at the first point only,
    and where it is not fetched its block index has not moved, so the buffer still holds the block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d

theorem before2_1 (c : Dev nD) (t : Fin cfg2.N) (d) : (dat2 V c).before 1 t d = iblk2 V c 1 t :=
  before2_1_of V (dat2 V c) (A_eq2 V c 1) (after2_1 V c) t d

/-! ## The body's triple -/

set_option maxHeartbeats 1000000 in
/-- The kernel body on whole staging memrefs, the inputs' at read contents `x0`, `x1` and the output's at anything,
    runs to the continuation holding the inputs' as they were and the output's at `out2_2 x0 x1`: the value the
    body loads from the output buffer is not used, and its one store covers the buffer. -/
theorem sound_kernel2 (c : Dev nD) (E : Set ℕ) (i : grid2.Coords)
    (arg1 : Memref sig .tc .vmem S5000x64 .f32) (harg1 : arg1.IsWhole)
    (arg2 : Memref sig .tc .vmem S64 .f32) (harg2 : arg2.IsWhole)
    (arg3 : Memref sig .tc .vmem S5000x64 .f32) (harg3 : arg3.IsWhole)
    (x0 : Vec F S5000x64 .f32) (x1 : Vec F S64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__bias_relu_kernel i arg1 harg1 arg2 harg2 arg3 harg3) K := by
  simp only [cc2__bias_relu_kernel_eq_skeleton]; unfold cc2__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.B3.lean ====
/-
  Region 3 of @main (h · W2 on 5,000-row blocks of h, the weights staged once): the body obligation of its pipeline at the contents `V` the region is entered with.
  Each input window's current staging buffer holds its block at every grid point, whether or not the window is
  fetched there (an unfetched window's block index has not moved); on whole staging buffers the kernel body reads the
  two input blocks, reads the output's buffer without using what it read, and stores the payload over the whole output
  buffer, which the one store covers; so the body takes the pipeline's precondition at a point to its postcondition there.
-/
import proofs.«173455_j62955630624873_1_alg».proof.Proof.K.D3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Input window 0's current staging buffer holds its block at every point, fetched there or not, for any proof
    data whose array is `V`'s and whose body leaves the block in place: the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same of input window 1, which is fetched at the first point only: where it is not fetched its block index
    has not moved, so its buffer still holds the block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

set_option maxHeartbeats 1000000 in
/-- The kernel body on whole staging buffers, the inputs' at read contents `x0`, `x1` and the output's at anything,
    runs to the continuation holding the inputs' as they were and the output's at `out3_2 x0 x1`: two loads, a load of
    the output's buffer whose value is not used, and one store of the payload over the whole output buffer. -/
theorem sound_kernel3 (c : Dev nD) (E : Set ℕ) (i : grid3.Coords)
    (arg1 : Memref sig .tc .vmem S5000x64 .f32) (harg1 : arg1.IsWhole)
    (arg2 : Memref sig .tc .vmem S64x64 .f32) (harg2 : arg2.IsWhole)
    (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, the output's holds something, so the kernel's triple
    applies; the invariant and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.B4.lean ====
/-
  Region 4 of @main (the per-edge scaling): the body obligation of its pipeline, in the library's loose form, at the
  contents `V` the region is entered with. Every window is cut at the arrays' end and fetched or written back at
  every grid point, so the body finds each input's staging buffer holding its block on the rows inside the array and
  an unnamed filler past it, and the output's holding anything. The body loads the factors, loads the gathered rows,
  and stores their row-by-row product whole; row `r` of the product reads row `r` of the gathered block and factor
  `r` only, and the three windows cut alike, so on the rows the output's write-back moves the product does not
  depend on the fillers: that is all the loose obligation states of the output's buffer.
-/
import proofs.«173455_j62955630624873_1_alg».proof.Proof.K.D4
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The zero offsets of a whole access, as a constant function. -/
theorem r4_zeros2 : (![0, 0] : Fin 2 → Nat) = fun _ => 0 := funext fun a => by fin_cases a <;> rfl
theorem r4_zeros1 : (![0] : Fin 1 → Nat) = fun _ => 0 := funext fun a => by fin_cases a; rfl

/-- The payload at row `r`, column `j`: the gathered word times the row's factor. -/
theorem k4_pay1_apply (n : Vec F S8192 .f32) (g : Vec F S8192x64 .f32) (y : S8192x64.Idx) (k : S8192.Idx)
    (hk : (k 0).val = (y 0).val) : k4_pay1 n g y = FloatOps.mulf (g y) (n k) := by
  unfold k4_pay1
  simp only [shapeCast_self]
  show FloatOps.mulf (g y) (broadcastTo S8192x64 (shapeCast S8192x1 n shapeCasts_S8192_S8192x1) broadcasts_S8192x1_S8192x64 y) = _
  congr 1
  let k' : S8192x1.Idx := fun a => match a with
    | ⟨0, _⟩ => (⟨(y 0).val, (y 0).isLt⟩ : Fin 8192)
    | ⟨1, _⟩ => (⟨0, Nat.one_pos⟩ : Fin 1)
  refine (broadcastTo_apply _ broadcasts_S8192x1_S8192x64 y k' fun a => ?_).trans ?_
  · match a with
    | ⟨0, _⟩ => rfl
    | ⟨1, _⟩ => rfl
  · refine shapeCast_apply n shapeCasts_S8192_S8192x1 k' k ?_
    rw [Shape.rowMajor_val_one, Shape.rowMajor_val_two]
    show (k 0).val = (y 0).val * 1 + 0
    omega

/-- The output's buffer after the body is the payload of the two input buffers' contents. -/
theorem out4_2_eq (x0 : Vec F S8192x64 .f32) (x1 : Vec F S8192 .f32) : out4_2 x0 x1 = k4_pay1 x1 x0 := by
  unfold out4_2
  rw [View.canon_unit_zero r4_zeros2, View.ld_unit_zero r4_zeros1, View.ld_unit_zero r4_zeros2]

/-- At row `r`, column `j` it holds the gathered word there times factor `r`. -/
theorem out4_2_apply (x0 : Vec F S8192x64 .f32) (x1 : Vec F S8192 .f32) (y : S8192x64.Idx) (k : S8192.Idx)
    (hk : (k 0).val = (y 0).val) : out4_2 x0 x1 y = FloatOps.mulf (x0 y) (x1 k) := by
  rw [out4_2_eq]; exact k4_pay1_apply x1 x0 y k hk

/-- The three windows cut alike: one index map on the row axis, one block height, one array height (by unfolding). -/
theorem win4_xsize_0 (i : grid4.Coords) (a : Fin 2) : (cfg4.win 0).xsize i a = (cfg4.win 2).xsize i a := rfl
theorem win4_xsize_1 (i : grid4.Coords) : (cfg4.win 1).xsize i 0 = (cfg4.win 2).xsize i 0 := rfl

set_option maxHeartbeats 1000000 in
/-- The kernel body on whole staging memrefs, the inputs' at contents `x0` (the gathered rows) and `x1` (the
    factors) and the output's at anything: the load of the factors, the load of the rows, a load of the output's
    buffer nothing reads, and the one whole store of the payload; the inputs' buffers are left as they were and the
    output's holds `out4_2 x0 x1`. -/
theorem sound_kernel4 (c : Dev nD) (E : Set ℕ) (i : grid4.Coords)
    (arg1 : Memref sig .tc .vmem S8192x64 .f32) (harg1 : arg1.IsWhole)
    (arg2 : Memref sig .tc .vmem S8192 .f32) (harg2 : arg2.IsWhole)
    (arg3 : Memref sig .tc .vmem S8192x64 .f32) (harg3 : arg3.IsWhole)
    (x0 : Vec F S8192x64 .f32) (x1 : Vec F S8192 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
              ∗ owns (c : Thread nD τ) arg3 fullShare (out4_2 x0 x1)) -∗ K ⟨⟩))
      ⊢ wp frame (wpE (defs₀ (F := F)) Variants.none c none) E (cc4__scale_kernel i arg1 harg1 arg2 harg2 arg3 harg3) K := by
  simp only [cc4__scale_kernel_eq_skeleton]; unfold cc4__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

-- the TensorCore's buffer contents when the region is entered
variable (V : (c : Dev nD) → (b : Ref sig .tc) → Buf (Elt F) ((c : Thread nD τ).loc b))

/-- On an index the transfer moves, a filled-out block is the block whatever filled it out. -/
theorem win4_fill_of_moved {α : Type} (w : Window sig grid4) (i : grid4.Coords) (d d' : w.block.Idx → α)
    (g : (w.xblock i).Idx → α) {j : w.block.Idx} (h : w.moved i j = true) : w.fill i d g j = w.fill i d' g j := by
  unfold Window.fill; rw [dif_pos h, dif_pos h]

/-- On the rows inside the array the output's buffer after the body does not depend on what
    filled the input buffers out past the arrays' end — row `r` of the payload reads row `r` of the gathered
    block and factor `r`, and a row the output's transfer moves is one both inputs' transfers moved. -/
theorem out4_2_agree (c : Dev nD) (t : Fin cfg4.N)
    (d0 d0' : (cfg4.win 0).block.Idx → Elt F (cfg4.win 0).elt) (d1 d1' : (cfg4.win 1).block.Idx → Elt F (cfg4.win 1).elt) :
    (cfg4.win 2).cut (cfg4.grid.coords t) (out4_2 (fblk4 V c 0 t d0) (fblk4 V c 1 t d1))
      = (cfg4.win 2).cut (cfg4.grid.coords t) (out4_2 (fblk4 V c 0 t d0') (fblk4 V c 1 t d1')) := by
  funext j
  let y : S8192x64.Idx := (cfg4.win 2).xinj (cfg4.grid.coords t) j
  let k : S8192.Idx := fun a => match a with | ⟨0, _⟩ => (⟨(y 0).val, (y 0).isLt⟩ : Fin 8192)
  show out4_2 (fblk4 V c 0 t d0) (fblk4 V c 1 t d1) y = out4_2 (fblk4 V c 0 t d0') (fblk4 V c 1 t d1') y
  rw [out4_2_apply _ _ y k rfl, out4_2_apply _ _ y k rfl]
  have m0 : (cfg4.win 0).moved (cfg4.grid.coords t) y = true :=
    ((cfg4.win 0).moved_iff _ _).mpr fun a => by rw [win4_xsize_0]; exact (j a).isLt
  have m1 : (cfg4.win 1).moved (cfg4.grid.coords t) k = true :=
    ((cfg4.win 1).moved_iff _ _).mpr fun a => by
      match a with
      | ⟨0, _⟩ => exact (win4_xsize_1 (cfg4.grid.coords t)) ▸ (j 0).isLt
  unfold fblk4
  rw [win4_fill_of_moved (cfg4.win 0) _ d0 d0' _ m0, win4_fill_of_moved (cfg4.win 1) _ d1 d1' _ m1]

/-- What the body finds in the inputs' buffers: each just fetched, the block on the rows inside the array and `d`
    past it. -/
theorem before4_0 (c : Dev nD) (t : Fin cfg4.N) (d) : (dat4 V c).before 0 t d = fblk4 V c 0 t d := by
  unfold Dat.before; rw [if_pos (fetch4_0 t)]; rfl
theorem before4_1 (c : Dev nD) (t : Fin cfg4.N) (d) : (dat4 V c).before 1 t d = fblk4 V c 1 t d := by
  unfold Dat.before; rw [if_pos (fetch4_1 t)]; rfl

/-- The library's body obligation in its loose form, at every point: the inputs' buffers arrive holding their blocks
    filled out with some `d` past the arrays' end, the output's holding anything; the body leaves the inputs' as
    they were and the output's at the payload of the two, which on the rows inside the array is what the proof data
    name (`out4_2_agree`). -/
theorem body_obligation4 (c : Dev nD) : BodyObligationLoose (dat4 (F := F) V c) (defs₀ (F := F)) Variants.none () Set.univ := fun t => by
  rw [bigSep_W4, bigSep_W4]
  simp only
  rw [show (dat4 V c).Φ t.succ = (dat4 V c).Φ t.castSucc from rfl,
    show (dat4 V c).owesAt () t.succ = (dat4 V c).owesAt () t.castSucc from rfl]
  iintro ⟨HΦ, Ho, ⟨%d0, H0⟩, ⟨%d1, H1⟩, ⟨%d2, H2⟩⟩
  rw [before4_0 V c t d0, before4_1 V c t d1]
  iapply (sound_kernel4 (F := F) c Set.univ (grid4.coords t) (win4_0.stage (cfg4.slots t 0)) (hstage4_0 ((cfg4.slots t 0).cast nbuf4_0))
    (win4_1.stage (cfg4.slots t 1)) (hstage4_1 ((cfg4.slots t 1).cast nbuf4_1)) (win4_2.stage (cfg4.slots t 2)) (hstage4_2 ((cfg4.slots t 2).cast nbuf4_2))
    (fblk4 V c 0 t d0) (fblk4 V c 1 t d1) _)
  isplitl [H0]; · iexact H0
  isplitl [H1]; · iexact H1
  isplitl [H2]; · iexists _; iexact H2
  iintro ⟨H0, H1, H2⟩
  isplitl [HΦ]; · iexact HΦ
  isplitl [Ho]; · iexact Ho
  have h0 : (cfg4.win 0).fill (cfg4.grid.coords t) d0 ((cfg4.win 0).cut (cfg4.grid.coords t) ((dat4 V c).after 0 t)) = fblk4 V c 0 t d0 := by
    rw [after4_0]; unfold fblk4; rw [Window.cut_fill]
  have h1 : (cfg4.win 1).fill (cfg4.grid.coords t) d1 ((cfg4.win 1).cut (cfg4.grid.coords t) ((dat4 V c).after 1 t)) = fblk4 V c 1 t d1 := by
    rw [after4_1]; unfold fblk4; rw [Window.cut_fill]
  have h2 : (cfg4.win 2).fill (cfg4.grid.coords t) (out4_2 (fblk4 V c 0 t d0) (fblk4 V c 1 t d1))
      ((cfg4.win 2).cut (cfg4.grid.coords t) ((dat4 V c).after 2 t)) = out4_2 (fblk4 V c 0 t d0) (fblk4 V c 1 t d1) := by
    rw [after4_2]; exact (cfg4.win 2).fill_congr_cut _ (out4_2_agree V c t d0 _ d1 _)
  isplitl [H0]
  · iexists d0
    change _ ⊢ owns (c : Thread nD τ) (st4_0 t) fullShare ((cfg4.win 0).fill (cfg4.grid.coords t) d0 ((cfg4.win 0).cut (cfg4.grid.coords t) ((dat4 V c).after 0 t)))
    rw [h0]; try iexact H0
  isplitl [H1]
  · iexists d1
    change _ ⊢ owns (c : Thread nD τ) (st4_1 t) fullShare ((cfg4.win 1).fill (cfg4.grid.coords t) d1 ((cfg4.win 1).cut (cfg4.grid.coords t) ((dat4 V c).after 1 t)))
    rw [h1]; try iexact H1
  · iexists out4_2 (fblk4 V c 0 t d0) (fblk4 V c 1 t d1)
    change _ ⊢ owns (c : Thread nD τ) (st4_2 t) fullShare ((cfg4.win 2).fill (cfg4.grid.coords t) (out4_2 (fblk4 V c 0 t d0) (fblk4 V c 1 t d1)) ((cfg4.win 2).cut (cfg4.grid.coords t) ((dat4 V c).after 2 t)))
    rw [h2]; try iexact H2

end Cert.Kernel.Hand

end
-- ==== Proof.K.B5.lean ====
/-
  Region 5 of @main (bias and ReLU on 5,000-row blocks): the body obligation of its pipeline at the contents `V`
  the region is entered with. Each input window's current staging buffer holds that window's block at every grid
  point, whether or not the window is fetched there (the bias is fetched at the first point only and its block index
  never moves); the body reads the two input buffers, reads the output buffer without using what it read, and stores
  the payload of the two input blocks over the whole output buffer.
-/
import proofs.«173455_j62955630624873_1_alg».proof.Proof.K.D5

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in each input window's buffer -/

/-- Input window 0's current staging buffer holds its block at every point, fetched there or not, for any proof
    data whose array is `V`'s and whose body leaves the block in place: the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point: it is fetched at the first point only,
    and where it is not fetched its block index has not moved, so the buffer still holds the block. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_0 (c : Dev nD) (t : Fin cfg5.N) (d) : (dat5 V c).before 0 t d = iblk5 V c 0 t :=
  before5_0_of V (dat5 V c) (A_eq5 V c 0) (after5_0 V c) t d

theorem before5_1 (c : Dev nD) (t : Fin cfg5.N) (d) : (dat5 V c).before 1 t d = iblk5 V c 1 t :=
  before5_1_of V (dat5 V c) (A_eq5 V c 1) (after5_1 V c) t d

/-! ## The body's triple -/

set_option maxHeartbeats 1000000 in
/-- The kernel body on whole staging memrefs, the inputs' at read contents `x0`, `x1` and the output's at anything,
    runs to the continuation holding the inputs' as they were and the output's at `out5_2 x0 x1`: the value the
    body loads from the output buffer is not used, and its one store covers the buffer. -/
theorem sound_kernel5 (c : Dev nD) (E : Set ℕ) (i : grid5.Coords)
    (arg1 : Memref sig .tc .vmem S5000x64 .f32) (harg1 : arg1.IsWhole)
    (arg2 : Memref sig .tc .vmem S64 .f32) (harg2 : arg2.IsWhole)
    (arg3 : Memref sig .tc .vmem S5000x64 .f32) (harg3 : arg3.IsWhole)
    (x0 : Vec F S5000x64 .f32) (x1 : Vec F S64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__bias_relu_kernel i arg1 harg1 arg2 harg2 arg3 harg3) K := by
  simp only [cc5__bias_relu_kernel_eq_skeleton]; unfold cc5__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so the body's triple applies; the invariant and
    the core's obligations pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Run.lean ====
/-
  The run of @main, at any float family: its thirteen items (three host stretches, region 0, a stretch, region 1, a
  stretch, regions 2 and 3, a stretch, region 4, a stretch, region 5) as segments over the thread state "every
  unscoped buffer at the boundary's contents, the generator register at some state, nothing owed", each region a
  segment record built on its pipeline's proof data at the region's entry contents and its body obligation; the launch
  over the segments; then the final state read against the last boundary's contents: each argument array holds its
  launch contents (the frame), and the result array holds the last boundary's contents there (the result).
-/
import proofs.«173455_j62955630624873_1_alg».proof.Proof.K.Fold
import proofs.«173455_j62955630624873_1_alg».proof.Proof.K.B0
import proofs.«173455_j62955630624873_1_alg».proof.Proof.K.B1
import proofs.«173455_j62955630624873_1_alg».proof.Proof.K.B2
import proofs.«173455_j62955630624873_1_alg».proof.Proof.K.B3
import proofs.«173455_j62955630624873_1_alg».proof.Proof.K.B4
import proofs.«173455_j62955630624873_1_alg».proof.Proof.K.B5
import proofs.«173455_j62955630624873_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 6) → (pcfgs (F := F) p).Adm := fun p => (cfgs p).toPCfg_adm
/-- Every pipeline's proof data, each at its region's entry contents: a literal match, so that the pinned
    configuration at a numeral reduces to the printed one. -/
def pdats : (p : Fin 6) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V8 m ρ) c
  | ⟨4, _⟩ => fun c => dat4 (V10 m ρ) c
  | ⟨5, _⟩ => fun c => dat5 (V12 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it is left with
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W13`, the generator
    register at some state. -/
abbrev Tₙ (c : Dev nD) : sProp 𝕄 := iprop(StableHlo.held (c : Thread nD τ) (Pipeline.ucRefs τ sig) (W13 m ρ c) ∗ ∃ r, prngReg c r)

/-! ## The regions as segments -/

set_option backward.isDefEq.respectTransparency.types false in
/-- REGION 0 over the thread state: entered from every unscoped buffer at `W3`, left at `W4`. Its arrays are split
    out of the unscoped buffers at entry and put back at the exit contents; the generator register goes into the
    pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W5`, left at `W6`. Its arrays are split
    out of the unscoped buffers at entry and put back at the exit contents; the generator register goes into the
    pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (V5 m ρ) c
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W7`, left at `W8`. Its arrays are split
    out of the unscoped buffers at entry and put back at the exit contents; the generator register goes into the
    pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W8`, left at `W9`. Its arrays are split
    out of the unscoped buffers at entry and put back at the exit contents; the generator register goes into the
    pipeline's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W10`, left at `W11`. Its arrays are split
    out of the unscoped buffers at entry and put back at the exit contents; the generator register goes into the
    pipeline's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := body_obligation4 (V10 m ρ) c
  hwaits := Pipeline.hwaits_of_owed_zero _ _ _ _ L lv 4 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec4 c (V10 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V10 m ρ c) (V11 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W12`, left at `W13`. Its arrays are split
    out of the unscoped buffers at entry and put back at the exit contents; the generator register goes into the
    pipeline's invariant and comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V12 m ρ) c).loose
  hwaits := Pipeline.hwaits_of_owed_zero _ _ _ _ L lv 5 fun _ _ => rfl
  pre c := iprop(StableHlo.held (c : Thread nD τ) (Pipeline.ucRefs τ sig) (W12 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V12 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V12 m ρ c) (V13 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's thirteen segments in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .region (reg3 m ρ),
    .host (hseg hostOps4 hostOps4_sub hostOps4_fresh (W9 m ρ)),
    .region (reg4 m ρ),
    .host (hseg hostOps5 hostOps5_sub hostOps5_fresh (W11 m ρ)),
    .region (reg5 m ρ) ]
/-- @main is the run of the segments: it is the chain of its items, and the segments' run is that chain. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state holds each unscoped buffer at the last boundary's
    contents `W13`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun _ h => h)

/-! ## The arguments end as launched

No host operation and no region writes an argument (a region reads it through an input window or does not touch it), so
the fold at an argument's buffer walks back to the launch memory. -/

/-- A reference the stretch `hostOps0` does not write keeps its contents across it. -/
theorem W1_host (c : Dev nD) (r : Ref sig .tc) (h : r ∉ hostOps0_W) :
    W1 m ρ c (Proc.devRef .tc r) = W0 m ρ c (Proc.devRef .tc r) :=
  StableHlo.after_of_writes_sub hostOps0 _ hostOps0_writes h
/-- A reference the stretch `hostOps0_1` does not write keeps its contents across it. -/
theorem W2_host (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
/-- A reference the stretch `hostOps0_2` does not write keeps its contents across it. -/
theorem W3_host (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
/-- A reference the stretch `hostOps1` does not write keeps its contents across it. -/
theorem W5_host (c : Dev nD) (r : Ref sig .tc) (h : r ∉ hostOps1_W) :
    W5 m ρ c (Proc.devRef .tc r) = W4 m ρ c (Proc.devRef .tc r) :=
  StableHlo.after_of_writes_sub hostOps1 _ hostOps1_writes h
/-- A reference the stretch `hostOps2` does not write keeps its contents across it. -/
theorem W7_host (c : Dev nD) (r : Ref sig .tc) (h : r ∉ hostOps2_W) :
    W7 m ρ c (Proc.devRef .tc r) = W6 m ρ c (Proc.devRef .tc r) :=
  StableHlo.after_of_writes_sub hostOps2 _ hostOps2_writes h
/-- A reference the stretch `hostOps4` does not write keeps its contents across it. -/
theorem W10_host (c : Dev nD) (r : Ref sig .tc) (h : r ∉ hostOps4_W) :
    W10 m ρ c (Proc.devRef .tc r) = W9 m ρ c (Proc.devRef .tc r) :=
  StableHlo.after_of_writes_sub hostOps4 _ hostOps4_writes h
/-- A reference the stretch `hostOps5` does not write keeps its contents across it. -/
theorem W12_host (c : Dev nD) (r : Ref sig .tc) (h : r ∉ hostOps5_W) :
    W12 m ρ c (Proc.devRef .tc r) = W11 m ρ c (Proc.devRef .tc r) :=
  StableHlo.after_of_writes_sub hostOps5 _ hostOps5_writes h

/-- `main_arg0` ends as launched. -/
theorem W13_main_arg0 (c : Dev nD) : W13 m ρ c (Proc.devRef .tc main_arg0) = m ((c : Thread nD τ).loc main_arg0) :=
  calc W13 m ρ c (Proc.devRef .tc main_arg0)
    _ = W12 m ρ c (Proc.devRef .tc main_arg0) := W13_of_ne m ρ c main_arg0 (by decide)
    _ = W11 m ρ c (Proc.devRef .tc main_arg0) := W12_host m ρ c main_arg0 (by decide)
    _ = W10 m ρ c (Proc.devRef .tc main_arg0) := W11_of_ne m ρ c main_arg0 (by decide)
    _ = W9 m ρ c (Proc.devRef .tc main_arg0) := W10_host m ρ c main_arg0 (by decide)
    _ = W8 m ρ c (Proc.devRef .tc main_arg0) := W9_of_ne m ρ c main_arg0 (by decide)
    _ = W7 m ρ c (Proc.devRef .tc main_arg0) := W8_of_ne m ρ c main_arg0 (by decide)
    _ = W6 m ρ c (Proc.devRef .tc main_arg0) := W7_host m ρ c main_arg0 (by decide)
    _ = W5 m ρ c (Proc.devRef .tc main_arg0) := W6_of_ne m ρ c main_arg0 (by decide)
    _ = W4 m ρ c (Proc.devRef .tc main_arg0) := W5_host m ρ c main_arg0 (by decide)
    _ = W3 m ρ c (Proc.devRef .tc main_arg0) := (W4_arr m ρ c 0).trans (((dat0 (V3 m ρ) c).arrAt_in 0 rfl _).trans (A_eq0 (V3 m ρ) c 0))
    _ = W2 m ρ c (Proc.devRef .tc main_arg0) := W3_host m ρ c main_arg0 (by decide)
    _ = W1 m ρ c (Proc.devRef .tc main_arg0) := W2_host m ρ c main_arg0 (by decide)
    _ = W0 m ρ c (Proc.devRef .tc main_arg0) := W1_host m ρ c main_arg0 (by decide)
    _ = m ((c : Thread nD τ).loc main_arg0) := rfl

/-- `main_arg1` ends as launched. -/
theorem W13_main_arg1 (c : Dev nD) : W13 m ρ c (Proc.devRef .tc main_arg1) = m ((c : Thread nD τ).loc main_arg1) :=
  calc W13 m ρ c (Proc.devRef .tc main_arg1)
    _ = W12 m ρ c (Proc.devRef .tc main_arg1) := W13_of_ne m ρ c main_arg1 (by decide)
    _ = W11 m ρ c (Proc.devRef .tc main_arg1) := W12_host m ρ c main_arg1 (by decide)
    _ = W10 m ρ c (Proc.devRef .tc main_arg1) := W11_of_ne m ρ c main_arg1 (by decide)
    _ = W9 m ρ c (Proc.devRef .tc main_arg1) := W10_host m ρ c main_arg1 (by decide)
    _ = W8 m ρ c (Proc.devRef .tc main_arg1) := W9_of_ne m ρ c main_arg1 (by decide)
    _ = W7 m ρ c (Proc.devRef .tc main_arg1) := W8_of_ne m ρ c main_arg1 (by decide)
    _ = W6 m ρ c (Proc.devRef .tc main_arg1) := W7_host m ρ c main_arg1 (by decide)
    _ = W5 m ρ c (Proc.devRef .tc main_arg1) := W6_of_ne m ρ c main_arg1 (by decide)
    _ = W4 m ρ c (Proc.devRef .tc main_arg1) := W5_host m ρ c main_arg1 (by decide)
    _ = W3 m ρ c (Proc.devRef .tc main_arg1) := W4_of_ne m ρ c main_arg1 (by decide)
    _ = W2 m ρ c (Proc.devRef .tc main_arg1) := W3_host m ρ c main_arg1 (by decide)
    _ = W1 m ρ c (Proc.devRef .tc main_arg1) := W2_host m ρ c main_arg1 (by decide)
    _ = W0 m ρ c (Proc.devRef .tc main_arg1) := W1_host m ρ c main_arg1 (by decide)
    _ = m ((c : Thread nD τ).loc main_arg1) := rfl

/-- `main_arg2` ends as launched. -/
theorem W13_main_arg2 (c : Dev nD) : W13 m ρ c (Proc.devRef .tc main_arg2) = m ((c : Thread nD τ).loc main_arg2) :=
  calc W13 m ρ c (Proc.devRef .tc main_arg2)
    _ = W12 m ρ c (Proc.devRef .tc main_arg2) := W13_of_ne m ρ c main_arg2 (by decide)
    _ = W11 m ρ c (Proc.devRef .tc main_arg2) := W12_host m ρ c main_arg2 (by decide)
    _ = W10 m ρ c (Proc.devRef .tc main_arg2) := W11_of_ne m ρ c main_arg2 (by decide)
    _ = W9 m ρ c (Proc.devRef .tc main_arg2) := W10_host m ρ c main_arg2 (by decide)
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := W7_host m ρ c main_arg2 (by decide)
    _ = W5 m ρ c (Proc.devRef .tc main_arg2) := W6_of_ne m ρ c main_arg2 (by decide)
    _ = W4 m ρ c (Proc.devRef .tc main_arg2) := W5_host m ρ c main_arg2 (by decide)
    _ = W3 m ρ c (Proc.devRef .tc main_arg2) := (W4_arr m ρ c 1).trans (((dat0 (V3 m ρ) c).arrAt_in 1 rfl _).trans (A_eq0 (V3 m ρ) c 1))
    _ = W2 m ρ c (Proc.devRef .tc main_arg2) := W3_host m ρ c main_arg2 (by decide)
    _ = W1 m ρ c (Proc.devRef .tc main_arg2) := W2_host m ρ c main_arg2 (by decide)
    _ = W0 m ρ c (Proc.devRef .tc main_arg2) := W1_host m ρ c main_arg2 (by decide)
    _ = m ((c : Thread nD τ).loc main_arg2) := rfl

/-- `main_arg3` ends as launched. -/
theorem W13_main_arg3 (c : Dev nD) : W13 m ρ c (Proc.devRef .tc main_arg3) = m ((c : Thread nD τ).loc main_arg3) :=
  calc W13 m ρ c (Proc.devRef .tc main_arg3)
    _ = W12 m ρ c (Proc.devRef .tc main_arg3) := W13_of_ne m ρ c main_arg3 (by decide)
    _ = W11 m ρ c (Proc.devRef .tc main_arg3) := W12_host m ρ c main_arg3 (by decide)
    _ = W10 m ρ c (Proc.devRef .tc main_arg3) := W11_of_ne m ρ c main_arg3 (by decide)
    _ = W9 m ρ c (Proc.devRef .tc main_arg3) := W10_host m ρ c main_arg3 (by decide)
    _ = W8 m ρ c (Proc.devRef .tc main_arg3) := W9_of_ne m ρ c main_arg3 (by decide)
    _ = W7 m ρ c (Proc.devRef .tc main_arg3) := (W8_arr m ρ c 1).trans (((dat2 (V7 m ρ) c).arrAt_in 1 rfl _).trans (A_eq2 (V7 m ρ) c 1))
    _ = W6 m ρ c (Proc.devRef .tc main_arg3) := W7_host m ρ c main_arg3 (by decide)
    _ = W5 m ρ c (Proc.devRef .tc main_arg3) := W6_of_ne m ρ c main_arg3 (by decide)
    _ = W4 m ρ c (Proc.devRef .tc main_arg3) := W5_host m ρ c main_arg3 (by decide)
    _ = W3 m ρ c (Proc.devRef .tc main_arg3) := W4_of_ne m ρ c main_arg3 (by decide)
    _ = W2 m ρ c (Proc.devRef .tc main_arg3) := W3_host m ρ c main_arg3 (by decide)
    _ = W1 m ρ c (Proc.devRef .tc main_arg3) := W2_host m ρ c main_arg3 (by decide)
    _ = W0 m ρ c (Proc.devRef .tc main_arg3) := W1_host m ρ c main_arg3 (by decide)
    _ = m ((c : Thread nD τ).loc main_arg3) := rfl

/-- `main_arg4` ends as launched. -/
theorem W13_main_arg4 (c : Dev nD) : W13 m ρ c (Proc.devRef .tc main_arg4) = m ((c : Thread nD τ).loc main_arg4) :=
  calc W13 m ρ c (Proc.devRef .tc main_arg4)
    _ = W12 m ρ c (Proc.devRef .tc main_arg4) := W13_of_ne m ρ c main_arg4 (by decide)
    _ = W11 m ρ c (Proc.devRef .tc main_arg4) := W12_host m ρ c main_arg4 (by decide)
    _ = W10 m ρ c (Proc.devRef .tc main_arg4) := W11_of_ne m ρ c main_arg4 (by decide)
    _ = W9 m ρ c (Proc.devRef .tc main_arg4) := W10_host m ρ c main_arg4 (by decide)
    _ = W8 m ρ c (Proc.devRef .tc main_arg4) := (W9_arr m ρ c 1).trans (((dat3 (V8 m ρ) c).arrAt_in 1 rfl _).trans (A_eq3 (V8 m ρ) c 1))
    _ = W7 m ρ c (Proc.devRef .tc main_arg4) := W8_of_ne m ρ c main_arg4 (by decide)
    _ = W6 m ρ c (Proc.devRef .tc main_arg4) := W7_host m ρ c main_arg4 (by decide)
    _ = W5 m ρ c (Proc.devRef .tc main_arg4) := W6_of_ne m ρ c main_arg4 (by decide)
    _ = W4 m ρ c (Proc.devRef .tc main_arg4) := W5_host m ρ c main_arg4 (by decide)
    _ = W3 m ρ c (Proc.devRef .tc main_arg4) := W4_of_ne m ρ c main_arg4 (by decide)
    _ = W2 m ρ c (Proc.devRef .tc main_arg4) := W3_host m ρ c main_arg4 (by decide)
    _ = W1 m ρ c (Proc.devRef .tc main_arg4) := W2_host m ρ c main_arg4 (by decide)
    _ = W0 m ρ c (Proc.devRef .tc main_arg4) := W1_host m ρ c main_arg4 (by decide)
    _ = m ((c : Thread nD τ).loc main_arg4) := rfl

/-- `main_arg5` ends as launched. -/
theorem W13_main_arg5 (c : Dev nD) : W13 m ρ c (Proc.devRef .tc main_arg5) = m ((c : Thread nD τ).loc main_arg5) :=
  calc W13 m ρ c (Proc.devRef .tc main_arg5)
    _ = W12 m ρ c (Proc.devRef .tc main_arg5) := (W13_arr m ρ c 1).trans (((dat5 (V12 m ρ) c).arrAt_in 1 rfl _).trans (A_eq5 (V12 m ρ) c 1))
    _ = W11 m ρ c (Proc.devRef .tc main_arg5) := W12_host m ρ c main_arg5 (by decide)
    _ = W10 m ρ c (Proc.devRef .tc main_arg5) := W11_of_ne m ρ c main_arg5 (by decide)
    _ = W9 m ρ c (Proc.devRef .tc main_arg5) := W10_host m ρ c main_arg5 (by decide)
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := W7_host m ρ c main_arg5 (by decide)
    _ = W5 m ρ c (Proc.devRef .tc main_arg5) := W6_of_ne m ρ c main_arg5 (by decide)
    _ = W4 m ρ c (Proc.devRef .tc main_arg5) := W5_host m ρ c main_arg5 (by decide)
    _ = W3 m ρ c (Proc.devRef .tc main_arg5) := W4_of_ne m ρ c main_arg5 (by decide)
    _ = W2 m ρ c (Proc.devRef .tc main_arg5) := W3_host m ρ c main_arg5 (by decide)
    _ = W1 m ρ c (Proc.devRef .tc main_arg5) := W2_host m ρ c main_arg5 (by decide)
    _ = W0 m ρ c (Proc.devRef .tc main_arg5) := W1_host m ρ c main_arg5 (by decide)
    _ = m ((c : Thread nD τ).loc main_arg5) := rfl

/-- THE FRAME: every weakly fair execution of @main terminates, nothing faulting, and every final state has the six
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W13_main_arg0 m ρ c),
      (h c _ (mem_uc main_arg1 (by decide))).trans (W13_main_arg1 m ρ c),
      (h c _ (mem_uc main_arg2 (by decide))).trans (W13_main_arg2 m ρ c),
      (h c _ (mem_uc main_arg3 (by decide))).trans (W13_main_arg3 m ρ c),
      (h c _ (mem_uc main_arg4 (by decide))).trans (W13_main_arg4 m ρ c),
      (h c _ (mem_uc main_arg5 (by decide))).trans (W13_main_arg5 m ρ c)⟩) (run_all m ρ)

/-- THE RESULT: the same run, the final state read also at the result array `main_v55`, which holds the last
    boundary's contents there. -/
theorem result : θ_run defs (onTc (τ := τ) (main (F := F))) ⟨m, fun _ => 0, ρ⟩ (fun r => ∀ c : Dev nD,
      r.2.mem ((c.tc : Thread nD τ).loc main_v55) = W13 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v55 (by decide)),
      (h c _ (mem_uc main_arg0 (by decide))).trans (W13_main_arg0 m ρ c),
      (h c _ (mem_uc main_arg1 (by decide))).trans (W13_main_arg1 m ρ c),
      (h c _ (mem_uc main_arg2 (by decide))).trans (W13_main_arg2 m ρ c),
      (h c _ (mem_uc main_arg3 (by decide))).trans (W13_main_arg3 m ρ c),
      (h c _ (mem_uc main_arg4 (by decide))).trans (W13_main_arg4 m ρ c),
      (h c _ (mem_uc main_arg5 (by decide))).trans (W13_main_arg5 m ρ c)⟩) (run_all m ρ)

/-- info: 'Cert.Kernel.Hand.frame' depends on axioms: [propext, Classical.choice, Quot.sound] -/
#guard_msgs in #print axioms frame
/-- info: 'Cert.Kernel.Hand.result' depends on axioms: [propext, Classical.choice, Quot.sound] -/
#guard_msgs in #print axioms result

end Cert.Kernel.Hand

end
-- ==== Proof.KI.D0.lean ====
/-
  Region 0 of @main (x · W1 on 5,000-row blocks of x, the weights staged once): the proof data of its pipeline at the contents `V` the region is entered with.
  Window 0 and window 1 are inputs whose blocks tile their arrays, window 2 is the output, stored whole at every
  grid point: after the body each input's staging buffer holds its block and the output's holds the body's one store
  of the payload `k0_pay1` of the two input blocks.
-/
import proofs.«173455_j62955630624873_1_alg».proof.Proof.Gen.KernelIdeal.Launch
import proofs.«173455_j62955630624873_1_alg».proof.Proof.Gen.KernelIdeal.Skeleton
import proofs.«173455_j62955630624873_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x256 := Rect.unit (s := S5000x256) ![0, 0] S5000x256.size inb_S5000x256_S5000x256_0_0
abbrev r0_1 : Rect S256x64 := Rect.unit (s := S256x64) ![0, 0] S256x64.size inb_S256x64_S256x64_0_0
abbrev r0_2 : Rect S5000x64 := Rect.unit (s := S5000x64) ![0, 0] S5000x64.size inb_S5000x64_S5000x64_0_0

/-- The output's staging buffer after the body, from the two input blocks: its one whole store. -/
def out0_2 (x0 : Vec F S5000x256 .f32) (x1 : Vec F S256x64 .f32) : Vec F S5000x64 .f32 :=
  View.canon [⟨r0_2, k0_pay1 (View.ld x0 r0_0) (View.ld x1 r0_1)⟩]

/-- The one store covers the buffer. -/
theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

end Cert.KernelIdeal.Hand

end
-- ==== Proof.KI.D1.lean ====
/-
  Region 1 of @main (the per-edge scaling): the proof data of its pipeline at the contents `V` the region is
  entered with. The 1,700,000 edge rows are staged 8,192 at a time on 208 grid points, and the last block holds only
  4,256 rows of the arrays: every window is cut there, and the staging rows past the arrays' end hold words nothing
  names. After the body each staging buffer is stated on the rows inside the array only (the library's loose form): an
  input's buffer is its block filled out with the zero word, and the output's is the body's one store of the payload
  `k1_pay1` of the two filled-out blocks, which on the rows inside the array does not depend on the filler (the
  payload is a row-by-row product).
-/
import proofs.«173455_j62955630624873_1_alg».proof.Proof.Gen.KernelIdeal.Launch
import proofs.«173455_j62955630624873_1_alg».proof.Proof.Gen.KernelIdeal.Skeleton
import proofs.«173455_j62955630624873_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t` as the fetch reads it: its part inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The word the proof data fill a staging buffer out with past the array's end (nothing reads it). -/
abbrev zfill1 (w : Fin cfg1.W) : (cfg1.win w).block.Idx → Elt F (cfg1.win w).elt :=
  match w with
  | ⟨0, _⟩ => fun _ => Scalar.ofBits .f32 0#32
  | ⟨1, _⟩ => fun _ => Scalar.ofBits .f32 0#32
  | ⟨2, _⟩ => fun _ => Scalar.ofBits .f32 0#32

/-- Input window `w`'s block at point `t` filled out to the whole staging buffer with `d`. -/
def fblk1 (c : Dev nD) (w : Fin cfg1.W) (t : Fin cfg1.N) (d : (cfg1.win w).block.Idx → Elt F (cfg1.win w).elt) :
    (cfg1.win w).block.Idx → Elt F (cfg1.win w).elt :=
  (cfg1.win w).fill (cfg1.grid.coords t) d (iblk1 V c w t)

abbrev r1_0 : Rect S8192x64 := Rect.unit (s := S8192x64) ![0, 0] S8192x64.size inb_S8192x64_S8192x64_0_0
abbrev r1_1 : Rect S8192 := Rect.unit (s := S8192) ![0] S8192.size inb_S8192_S8192_0
abbrev r1_2 : Rect S8192x64 := Rect.unit (s := S8192x64) ![0, 0] S8192x64.size inb_S8192x64_S8192x64_0_0

/-- The output's staging buffer after the body, from the two input buffers' contents (`x0` the gathered rows,
    `x1` the per-edge factors): its one whole store. -/
def out1_2 (x0 : Vec F S8192x64 .f32) (x1 : Vec F S8192 .f32) : Vec F S8192x64 .f32 :=
  View.canon [⟨r1_2, k1_pay1 (View.ld x1 r1_1) (View.ld x0 r1_0)⟩]

/-- The one store covers the buffer. -/
theorem cover1_2 (p0 : Vec F S8192x64 .f32) (y : S8192x64.Idx) :
    ∃ pc ∈ ([⟨r1_2, p0⟩] : List (View.Piece (Elt F) S8192x64 .f32)), y ∈ pc.1.set :=
  View.cover_of_tiled [⟨r1_2, p0⟩] S8192x64.size (by rfl) y

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => fblk1 V c 0 t (zfill1 0)
    | ⟨1, _⟩ => fblk1 V c 1 t (zfill1 1)
    | ⟨2, _⟩ => out1_2 (fblk1 V c 0 t (zfill1 0)) (fblk1 V c 1 t (zfill1 1))
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = fblk1 V c 0 t (zfill1 0) := by dsimp only [dat1]
theorem after1_1 (c : Dev nD) (t : Fin cfg1.N) : (dat1 V c).after 1 t = fblk1 V c 1 t (zfill1 1) := by dsimp only [dat1]
theorem after1_2 (c : Dev nD) (t : Fin cfg1.N) :
    (dat1 V c).after 2 t = out1_2 (fblk1 V c 0 t (zfill1 0)) (fblk1 V c 1 t (zfill1 1)) := by dsimp only [dat1]

end Cert.KernelIdeal.Hand

end
-- ==== Proof.KI.D2.lean ====
/-
  Region 2 of @main (bias and ReLU on 5,000-row blocks, the bias staged once): the proof data of its pipeline at the contents `V` the region is entered with.
  Window 0 and window 1 are inputs whose blocks tile their arrays, window 2 is the output, stored whole at every
  grid point: after the body each input's staging buffer holds its block and the output's holds the body's one store
  of the payload `k2_pay1` of the two input blocks.
-/
import proofs.«173455_j62955630624873_1_alg».proof.Proof.Gen.KernelIdeal.Launch
import proofs.«173455_j62955630624873_1_alg».proof.Proof.Gen.KernelIdeal.Skeleton
import proofs.«173455_j62955630624873_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x64 := Rect.unit (s := S5000x64) ![0, 0] S5000x64.size inb_S5000x64_S5000x64_0_0
abbrev r2_1 : Rect S64 := Rect.unit (s := S64) ![0] S64.size inb_S64_S64_0
abbrev r2_2 : Rect S5000x64 := Rect.unit (s := S5000x64) ![0, 0] S5000x64.size inb_S5000x64_S5000x64_0_0

/-- The output's staging buffer after the body, from the two input blocks: its one whole store. -/
def out2_2 (x0 : Vec F S5000x64 .f32) (x1 : Vec F S64 .f32) : Vec F S5000x64 .f32 :=
  View.canon [⟨r2_2, k2_pay1 (View.ld x0 r2_0) (View.ld x1 r2_1)⟩]

/-- The one store covers the buffer. -/
theorem cover2_2 (p0 : Vec F S5000x64 .f32) (y : S5000x64.Idx) :
    ∃ pc ∈ ([⟨r2_2, p0⟩] : List (View.Piece (Elt F) S5000x64 .f32)), y ∈ pc.1.set :=
  View.cover_of_tiled [⟨r2_2, p0⟩] S5000x64.size (by rfl) y

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

end Cert.KernelIdeal.Hand

end
-- ==== Proof.KI.D3.lean ====
/-
  Region 3 of @main (h · W2 on 5,000-row blocks of h, the weights staged once): the proof data of its pipeline at the contents `V` the region is entered with.
  Window 0 and window 1 are inputs whose blocks tile their arrays, window 2 is the output, stored whole at every
  grid point: after the body each input's staging buffer holds its block and the output's holds the body's one store
  of the payload `k3_pay1` of the two input blocks.
-/
import proofs.«173455_j62955630624873_1_alg».proof.Proof.Gen.KernelIdeal.Launch
import proofs.«173455_j62955630624873_1_alg».proof.Proof.Gen.KernelIdeal.Skeleton
import proofs.«173455_j62955630624873_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x64 := Rect.unit (s := S5000x64) ![0, 0] S5000x64.size inb_S5000x64_S5000x64_0_0
abbrev r3_1 : Rect S64x64 := Rect.unit (s := S64x64) ![0, 0] S64x64.size inb_S64x64_S64x64_0_0
abbrev r3_2 : Rect S5000x64 := Rect.unit (s := S5000x64) ![0, 0] S5000x64.size inb_S5000x64_S5000x64_0_0

/-- The output's staging buffer after the body, from the two input blocks: its one whole store. -/
def out3_2 (x0 : Vec F S5000x64 .f32) (x1 : Vec F S64x64 .f32) : Vec F S5000x64 .f32 :=
  View.canon [⟨r3_2, k3_pay1 (View.ld x0 r3_0) (View.ld x1 r3_1)⟩]

/-- The one store covers the buffer. -/
theorem cover3_2 (p0 : Vec F S5000x64 .f32) (y : S5000x64.Idx) :
    ∃ pc ∈ ([⟨r3_2, p0⟩] : List (View.Piece (Elt F) S5000x64 .f32)), y ∈ pc.1.set :=
  View.cover_of_tiled [⟨r3_2, p0⟩] S5000x64.size (by rfl) y

/-- The proof data of pipeline 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

end Cert.KernelIdeal.Hand

end
-- ==== Proof.KI.D4.lean ====
/-
  Region 4 of @main (the per-edge scaling): the proof data of its pipeline at the contents `V` the region is
  entered with. The 1,700,000 edge rows are staged 8,192 at a time on 208 grid points, and the last block holds only
  4,256 rows of the arrays: every window is cut there, and the staging rows past the arrays' end hold words nothing
  names. After the body each staging buffer is stated on the rows inside the array only (the library's loose form): an
  input's buffer is its block filled out with the zero word, and the output's is the body's one store of the payload
  `k4_pay1` of the two filled-out blocks, which on the rows inside the array does not depend on the filler (the
  payload is a row-by-row product).
-/
import proofs.«173455_j62955630624873_1_alg».proof.Proof.Gen.KernelIdeal.Launch
import proofs.«173455_j62955630624873_1_alg».proof.Proof.Gen.KernelIdeal.Skeleton
import proofs.«173455_j62955630624873_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t` as the fetch reads it: its part inside the array. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The word the proof data fill a staging buffer out with past the array's end (nothing reads it). -/
abbrev zfill4 (w : Fin cfg4.W) : (cfg4.win w).block.Idx → Elt F (cfg4.win w).elt :=
  match w with
  | ⟨0, _⟩ => fun _ => Scalar.ofBits .f32 0#32
  | ⟨1, _⟩ => fun _ => Scalar.ofBits .f32 0#32
  | ⟨2, _⟩ => fun _ => Scalar.ofBits .f32 0#32

/-- Input window `w`'s block at point `t` filled out to the whole staging buffer with `d`. -/
def fblk4 (c : Dev nD) (w : Fin cfg4.W) (t : Fin cfg4.N) (d : (cfg4.win w).block.Idx → Elt F (cfg4.win w).elt) :
    (cfg4.win w).block.Idx → Elt F (cfg4.win w).elt :=
  (cfg4.win w).fill (cfg4.grid.coords t) d (iblk4 V c w t)

abbrev r4_0 : Rect S8192x64 := Rect.unit (s := S8192x64) ![0, 0] S8192x64.size inb_S8192x64_S8192x64_0_0
abbrev r4_1 : Rect S8192 := Rect.unit (s := S8192) ![0] S8192.size inb_S8192_S8192_0
abbrev r4_2 : Rect S8192x64 := Rect.unit (s := S8192x64) ![0, 0] S8192x64.size inb_S8192x64_S8192x64_0_0

/-- The output's staging buffer after the body, from the two input buffers' contents (`x0` the gathered rows,
    `x1` the per-edge factors): its one whole store. -/
def out4_2 (x0 : Vec F S8192x64 .f32) (x1 : Vec F S8192 .f32) : Vec F S8192x64 .f32 :=
  View.canon [⟨r4_2, k4_pay1 (View.ld x1 r4_1) (View.ld x0 r4_0)⟩]

/-- The one store covers the buffer. -/
theorem cover4_2 (p0 : Vec F S8192x64 .f32) (y : S8192x64.Idx) :
    ∃ pc ∈ ([⟨r4_2, p0⟩] : List (View.Piece (Elt F) S8192x64 .f32)), y ∈ pc.1.set :=
  View.cover_of_tiled [⟨r4_2, p0⟩] S8192x64.size (by rfl) y

/-- The proof data of pipeline 4 on core `c`. -/
def dat4 (c : Dev nD) : Dat τ (Elt F) Unit ℕ (UR sig nD τ) ℕ cfg4 c where
  A w := V c (Pipeline.arrRef spec4 w)
  after w t := match w with
    | ⟨0, _⟩ => fblk4 V c 0 t (zfill4 0)
    | ⟨1, _⟩ => fblk4 V c 1 t (zfill4 1)
    | ⟨2, _⟩ => out4_2 (fblk4 V c 0 t (zfill4 0)) (fblk4 V c 1 t (zfill4 1))
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = fblk4 V c 0 t (zfill4 0) := by dsimp only [dat4]
theorem after4_1 (c : Dev nD) (t : Fin cfg4.N) : (dat4 V c).after 1 t = fblk4 V c 1 t (zfill4 1) := by dsimp only [dat4]
theorem after4_2 (c : Dev nD) (t : Fin cfg4.N) :
    (dat4 V c).after 2 t = out4_2 (fblk4 V c 0 t (zfill4 0)) (fblk4 V c 1 t (zfill4 1)) := by dsimp only [dat4]

end Cert.KernelIdeal.Hand

end
-- ==== Proof.KI.D5.lean ====
/-
  Region 5 of @main (bias and ReLU on 5,000-row blocks, the bias staged once): the proof data of its pipeline at the contents `V` the region is entered with.
  Window 0 and window 1 are inputs whose blocks tile their arrays, window 2 is the output, stored whole at every
  grid point: after the body each input's staging buffer holds its block and the output's holds the body's one store
  of the payload `k5_pay1` of the two input blocks.
-/
import proofs.«173455_j62955630624873_1_alg».proof.Proof.Gen.KernelIdeal.Launch
import proofs.«173455_j62955630624873_1_alg».proof.Proof.Gen.KernelIdeal.Skeleton
import proofs.«173455_j62955630624873_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S5000x64 := Rect.unit (s := S5000x64) ![0, 0] S5000x64.size inb_S5000x64_S5000x64_0_0
abbrev r5_1 : Rect S64 := Rect.unit (s := S64) ![0] S64.size inb_S64_S64_0
abbrev r5_2 : Rect S5000x64 := Rect.unit (s := S5000x64) ![0, 0] S5000x64.size inb_S5000x64_S5000x64_0_0

/-- The output's staging buffer after the body, from the two input blocks: its one whole store. -/
def out5_2 (x0 : Vec F S5000x64 .f32) (x1 : Vec F S64 .f32) : Vec F S5000x64 .f32 :=
  View.canon [⟨r5_2, k5_pay1 (View.ld x0 r5_0) (View.ld x1 r5_1)⟩]

/-- The one store covers the buffer. -/
theorem cover5_2 (p0 : Vec F S5000x64 .f32) (y : S5000x64.Idx) :
    ∃ pc ∈ ([⟨r5_2, p0⟩] : List (View.Piece (Elt F) S5000x64 .f32)), y ∈ pc.1.set :=
  View.cover_of_tiled [⟨r5_2, p0⟩] S5000x64.size (by rfl) y

/-- The proof data of pipeline 5 on core `c`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

end Cert.KernelIdeal.Hand

end
-- ==== Proof.KI.Fold.lean ====
/-
  The contents of core `c`'s buffers at each boundary between two items of @main, as a fold from the launch memory:
  a stretch of host operations applies them (`StableHlo.after`); a kernel region leaves its three arrays at what its
  pipeline's write-backs leave (`Dat.arrAt … N`) and every other buffer as it found it (`Pipeline.withArrays`).
  `WJ` is the contents after item J−1 (items: three host stretches, region 0, a stretch, region 1, a stretch,
  regions 2 and 3, a stretch, region 4, a stretch, region 5), `VJ` the same read at the TensorCore's references.
-/
import proofs.«173455_j62955630624873_1_alg».proof.Proof.KI.D0
import proofs.«173455_j62955630624873_1_alg».proof.Proof.KI.D1
import proofs.«173455_j62955630624873_1_alg».proof.Proof.KI.D2
import proofs.«173455_j62955630624873_1_alg».proof.Proof.KI.D3
import proofs.«173455_j62955630624873_1_alg».proof.Proof.KI.D4
import proofs.«173455_j62955630624873_1_alg».proof.Proof.KI.D5

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- After the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At region 0's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the host stretch `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At region 1's exit: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the host stretch `hostOps2`. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
/-- At region 2's exit: its arrays at what the pipeline leaves, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- At region 3's exit: its arrays at what the pipeline leaves, every other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)
/-- After the host stretch `hostOps4`. -/
abbrev W10 : Dev nD → Valuation τ sig (Elt F) := fun c => StableHlo.after hostOps4 (W9 m ρ c)
abbrev V10 : (c : Dev nD) → (b : Ref sig .tc) → Buf (Elt F) ((c : Thread nD τ).loc b) := fun c b => W10 m ρ c b
/-- At region 4's exit: its arrays at what the pipeline leaves, every other buffer as entered. -/
def W11 (c : Dev nD) : Valuation τ sig (Elt F) :=
  Pipeline.withArrays spec4 c (W10 m ρ c) fun w => (dat4 (V10 m ρ) c).arrAt w cfg4.N
theorem W11_arr (c : Dev nD) (w : Fin cfg4.W) :
    W11 m ρ c (Proc.devRef .tc (Pipeline.arrRef spec4 w)) = (dat4 (V10 m ρ) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m ρ c (Proc.devRef .tc b) = W10 m ρ c (Proc.devRef .tc b) := by
  unfold W11; exact Pipeline.withArrays_of_ne spec4 c _ _ b hb
abbrev V11 : (c : Dev nD) → (b : Ref sig .tc) → Buf (Elt F) ((c : Thread nD τ).loc b) := fun c b => W11 m ρ c b
theorem hF4 (c : Dev nD) (w : Fin cfg4.W) : (dat4 (V10 m ρ) c).arrAt w cfg4.N = V11 m ρ c (Pipeline.arrRef spec4 w) :=
  (W11_arr m ρ c w).symm
theorem hrest4 (c : Dev nD) : ∀ b, b ∉ Finset.univ.image (Pipeline.arrRef spec4) → V11 m ρ c b = V10 m ρ c b :=
  fun b hb => W11_of_ne m ρ c b fun w e => hb (Finset.mem_image.mpr ⟨w, Finset.mem_univ _, e⟩)
/-- After the host stretch `hostOps5`. -/
abbrev W12 : Dev nD → Valuation τ sig (Elt F) := fun c => StableHlo.after hostOps5 (W11 m ρ c)
abbrev V12 : (c : Dev nD) → (b : Ref sig .tc) → Buf (Elt F) ((c : Thread nD τ).loc b) := fun c b => W12 m ρ c b
/-- At region 5's exit: its arrays at what the pipeline leaves, every other buffer as entered. -/
def W13 (c : Dev nD) : Valuation τ sig (Elt F) :=
  Pipeline.withArrays spec5 c (W12 m ρ c) fun w => (dat5 (V12 m ρ) c).arrAt w cfg5.N
theorem W13_arr (c : Dev nD) (w : Fin cfg5.W) :
    W13 m ρ c (Proc.devRef .tc (Pipeline.arrRef spec5 w)) = (dat5 (V12 m ρ) c).arrAt w cfg5.N := by
  unfold W13; exact Pipeline.withArrays_arr spec5 launch5.win.arr_inj c _ _ w
theorem W13_of_ne (c : Dev nD) (b : Ref sig .tc) (hb : ∀ w, Pipeline.arrRef spec5 w ≠ b) :
    W13 m ρ c (Proc.devRef .tc b) = W12 m ρ c (Proc.devRef .tc b) := by
  unfold W13; exact Pipeline.withArrays_of_ne spec5 c _ _ b hb
abbrev V13 : (c : Dev nD) → (b : Ref sig .tc) → Buf (Elt F) ((c : Thread nD τ).loc b) := fun c b => W13 m ρ c b
theorem hF5 (c : Dev nD) (w : Fin cfg5.W) : (dat5 (V12 m ρ) c).arrAt w cfg5.N = V13 m ρ c (Pipeline.arrRef spec5 w) :=
  (W13_arr m ρ c w).symm
theorem hrest5 (c : Dev nD) : ∀ b, b ∉ Finset.univ.image (Pipeline.arrRef spec5) → V13 m ρ c b = V12 m ρ c b :=
  fun b hb => W13_of_ne m ρ c b fun w e => hb (Finset.mem_image.mpr ⟨w, Finset.mem_univ _, e⟩)

end Cert.KernelIdeal.Hand

end
-- ==== Proof.KI.B0.lean ====
/-
  Region 0 of @main (x · W1 on 5,000-row blocks of x, the weights staged once): the body obligation of its pipeline at the contents `V` the region is entered with.
  Each input window's current staging buffer holds its block at every grid point, whether or not the window is
  fetched there (an unfetched window's block index has not moved); on whole staging buffers the kernel body reads the
  two input blocks, reads the output's buffer without using what it read, and stores the payload over the whole output
  buffer, which the one store covers; so the body takes the pipeline's precondition at a point to its postcondition there.
-/
import proofs.«173455_j62955630624873_1_alg».proof.Proof.KI.D0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Input window 0's current staging buffer holds its block at every point, fetched there or not, for any proof
    data whose array is `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1, which is fetched at the first point only: where it is not fetched its block index
    has not moved, so its buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

set_option maxHeartbeats 1000000 in
/-- The kernel body on whole staging buffers, the inputs' at read contents `x0`, `x1` and the output's at anything,
    runs to the continuation holding the inputs' as they were and the output's at `out0_2 x0 x1`: two loads, a load of
    the output's buffer whose value is not used, and one store of the payload over the whole output buffer. -/
theorem sound_kernel0 (c : Dev nD) (E : Set ℕ) (i : grid0.Coords)
    (arg1 : Memref sig .tc .vmem S5000x256 .f32) (harg1 : arg1.IsWhole)
    (arg2 : Memref sig .tc .vmem S256x64 .f32) (harg2 : arg2.IsWhole)
    (arg3 : Memref sig .tc .vmem S5000x64 .f32) (harg3 : arg3.IsWhole)
    (x0 : Vec F S5000x256 .f32) (x1 : Vec F S256x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, the output's holds something, so the kernel's triple
    applies; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.B1.lean ====
/-
  Region 1 of @main (the per-edge scaling): the body obligation of its pipeline, in the library's loose form, at the
  contents `V` the region is entered with. Every window is cut at the arrays' end and fetched or written back at
  every grid point, so the body finds each input's staging buffer holding its block on the rows inside the array and
  an unnamed filler past it, and the output's holding anything. The body loads the factors, loads the gathered rows,
  and stores their row-by-row product whole; row `r` of the product reads row `r` of the gathered block and factor
  `r` only, and the three windows cut alike, so on the rows the output's write-back moves the product does not
  depend on the fillers: that is all the loose obligation states of the output's buffer.
-/
import proofs.«173455_j62955630624873_1_alg».proof.Proof.KI.D1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The zero offsets of a whole access, as a constant function. -/
theorem r1_zeros2 : (![0, 0] : Fin 2 → Nat) = fun _ => 0 := funext fun a => by fin_cases a <;> rfl
theorem r1_zeros1 : (![0] : Fin 1 → Nat) = fun _ => 0 := funext fun a => by fin_cases a; rfl

/-- The payload at row `r`, column `j`: the gathered word times the row's factor. -/
theorem k1_pay1_apply (n : Vec F S8192 .f32) (g : Vec F S8192x64 .f32) (y : S8192x64.Idx) (k : S8192.Idx)
    (hk : (k 0).val = (y 0).val) : k1_pay1 n g y = FloatOps.mulf (g y) (n k) := by
  unfold k1_pay1
  simp only [shapeCast_self]
  show FloatOps.mulf (g y) (broadcastTo S8192x64 (shapeCast S8192x1 n shapeCasts_S8192_S8192x1) broadcasts_S8192x1_S8192x64 y) = _
  congr 1
  let k' : S8192x1.Idx := fun a => match a with
    | ⟨0, _⟩ => (⟨(y 0).val, (y 0).isLt⟩ : Fin 8192)
    | ⟨1, _⟩ => (⟨0, Nat.one_pos⟩ : Fin 1)
  refine (broadcastTo_apply _ broadcasts_S8192x1_S8192x64 y k' fun a => ?_).trans ?_
  · match a with
    | ⟨0, _⟩ => rfl
    | ⟨1, _⟩ => rfl
  · refine shapeCast_apply n shapeCasts_S8192_S8192x1 k' k ?_
    rw [Shape.rowMajor_val_one, Shape.rowMajor_val_two]
    show (k 0).val = (y 0).val * 1 + 0
    omega

/-- The output's buffer after the body is the payload of the two input buffers' contents. -/
theorem out1_2_eq (x0 : Vec F S8192x64 .f32) (x1 : Vec F S8192 .f32) : out1_2 x0 x1 = k1_pay1 x1 x0 := by
  unfold out1_2
  rw [View.canon_unit_zero r1_zeros2, View.ld_unit_zero r1_zeros1, View.ld_unit_zero r1_zeros2]

/-- At row `r`, column `j` it holds the gathered word there times factor `r`. -/
theorem out1_2_apply (x0 : Vec F S8192x64 .f32) (x1 : Vec F S8192 .f32) (y : S8192x64.Idx) (k : S8192.Idx)
    (hk : (k 0).val = (y 0).val) : out1_2 x0 x1 y = FloatOps.mulf (x0 y) (x1 k) := by
  rw [out1_2_eq]; exact k1_pay1_apply x1 x0 y k hk

/-- The three windows cut alike: one index map on the row axis, one block height, one array height (by unfolding). -/
theorem win1_xsize_0 (i : grid1.Coords) (a : Fin 2) : (cfg1.win 0).xsize i a = (cfg1.win 2).xsize i a := rfl
theorem win1_xsize_1 (i : grid1.Coords) : (cfg1.win 1).xsize i 0 = (cfg1.win 2).xsize i 0 := rfl

set_option maxHeartbeats 1000000 in
/-- The kernel body on whole staging memrefs, the inputs' at contents `x0` (the gathered rows) and `x1` (the
    factors) and the output's at anything: the load of the factors, the load of the rows, a load of the output's
    buffer nothing reads, and the one whole store of the payload; the inputs' buffers are left as they were and the
    output's holds `out1_2 x0 x1`. -/
theorem sound_kernel1 (c : Dev nD) (E : Set ℕ) (i : grid1.Coords)
    (arg1 : Memref sig .tc .vmem S8192x64 .f32) (harg1 : arg1.IsWhole)
    (arg2 : Memref sig .tc .vmem S8192 .f32) (harg2 : arg2.IsWhole)
    (arg3 : Memref sig .tc .vmem S8192x64 .f32) (harg3 : arg3.IsWhole)
    (x0 : Vec F S8192x64 .f32) (x1 : Vec F S8192 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
              ∗ owns (c : Thread nD τ) arg3 fullShare (out1_2 x0 x1)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

-- the TensorCore's buffer contents when the region is entered
variable (V : (c : Dev nD) → (b : Ref sig .tc) → Buf (Elt F) ((c : Thread nD τ).loc b))

/-- On an index the transfer moves, a filled-out block is the block whatever filled it out. -/
theorem win1_fill_of_moved {α : Type} (w : Window sig grid1) (i : grid1.Coords) (d d' : w.block.Idx → α)
    (g : (w.xblock i).Idx → α) {j : w.block.Idx} (h : w.moved i j = true) : w.fill i d g j = w.fill i d' g j := by
  unfold Window.fill; rw [dif_pos h, dif_pos h]

/-- On the rows inside the array the output's buffer after the body does not depend on what
    filled the input buffers out past the arrays' end — row `r` of the payload reads row `r` of the gathered
    block and factor `r`, and a row the output's transfer moves is one both inputs' transfers moved. -/
theorem out1_2_agree (c : Dev nD) (t : Fin cfg1.N)
    (d0 d0' : (cfg1.win 0).block.Idx → Elt F (cfg1.win 0).elt) (d1 d1' : (cfg1.win 1).block.Idx → Elt F (cfg1.win 1).elt) :
    (cfg1.win 2).cut (cfg1.grid.coords t) (out1_2 (fblk1 V c 0 t d0) (fblk1 V c 1 t d1))
      = (cfg1.win 2).cut (cfg1.grid.coords t) (out1_2 (fblk1 V c 0 t d0') (fblk1 V c 1 t d1')) := by
  funext j
  let y : S8192x64.Idx := (cfg1.win 2).xinj (cfg1.grid.coords t) j
  let k : S8192.Idx := fun a => match a with | ⟨0, _⟩ => (⟨(y 0).val, (y 0).isLt⟩ : Fin 8192)
  show out1_2 (fblk1 V c 0 t d0) (fblk1 V c 1 t d1) y = out1_2 (fblk1 V c 0 t d0') (fblk1 V c 1 t d1') y
  rw [out1_2_apply _ _ y k rfl, out1_2_apply _ _ y k rfl]
  have m0 : (cfg1.win 0).moved (cfg1.grid.coords t) y = true :=
    ((cfg1.win 0).moved_iff _ _).mpr fun a => by rw [win1_xsize_0]; exact (j a).isLt
  have m1 : (cfg1.win 1).moved (cfg1.grid.coords t) k = true :=
    ((cfg1.win 1).moved_iff _ _).mpr fun a => by
      match a with
      | ⟨0, _⟩ => exact (win1_xsize_1 (cfg1.grid.coords t)) ▸ (j 0).isLt
  unfold fblk1
  rw [win1_fill_of_moved (cfg1.win 0) _ d0 d0' _ m0, win1_fill_of_moved (cfg1.win 1) _ d1 d1' _ m1]

/-- What the body finds in the inputs' buffers: each just fetched, the block on the rows inside the array and `d`
    past it. -/
theorem before1_0 (c : Dev nD) (t : Fin cfg1.N) (d) : (dat1 V c).before 0 t d = fblk1 V c 0 t d := by
  unfold Dat.before; rw [if_pos (fetch1_0 t)]; rfl
theorem before1_1 (c : Dev nD) (t : Fin cfg1.N) (d) : (dat1 V c).before 1 t d = fblk1 V c 1 t d := by
  unfold Dat.before; rw [if_pos (fetch1_1 t)]; rfl

/-- The library's body obligation in its loose form, at every point: the inputs' buffers arrive holding their blocks
    filled out with some `d` past the arrays' end, the output's holding anything; the body leaves the inputs' as
    they were and the output's at the payload of the two, which on the rows inside the array is what the proof data
    name (`out1_2_agree`). -/
theorem body_obligation1 (c : Dev nD) : BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩⟩
  rw [before1_0 V c t d0, before1_1 V c t d1]
  iapply (sound_kernel1 (F := F) c Set.univ (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (fblk1 V c 0 t d0) (fblk1 V c 1 t d1) _)
  isplitl [H0]; · iexact H0
  isplitl [H1]; · iexact H1
  isplitl [H2]; · iexists _; iexact H2
  iintro ⟨H0, H1, H2⟩
  isplitl [HΦ]; · iexact HΦ
  isplitl [Ho]; · iexact Ho
  have h0 : (cfg1.win 0).fill (cfg1.grid.coords t) d0 ((cfg1.win 0).cut (cfg1.grid.coords t) ((dat1 V c).after 0 t)) = fblk1 V c 0 t d0 := by
    rw [after1_0]; unfold fblk1; rw [Window.cut_fill]
  have h1 : (cfg1.win 1).fill (cfg1.grid.coords t) d1 ((cfg1.win 1).cut (cfg1.grid.coords t) ((dat1 V c).after 1 t)) = fblk1 V c 1 t d1 := by
    rw [after1_1]; unfold fblk1; rw [Window.cut_fill]
  have h2 : (cfg1.win 2).fill (cfg1.grid.coords t) (out1_2 (fblk1 V c 0 t d0) (fblk1 V c 1 t d1))
      ((cfg1.win 2).cut (cfg1.grid.coords t) ((dat1 V c).after 2 t)) = out1_2 (fblk1 V c 0 t d0) (fblk1 V c 1 t d1) := by
    rw [after1_2]; exact (cfg1.win 2).fill_congr_cut _ (out1_2_agree V c t d0 _ d1 _)
  isplitl [H0]
  · iexists d0
    change _ ⊢ owns (c : Thread nD τ) (st1_0 t) fullShare ((cfg1.win 0).fill (cfg1.grid.coords t) d0 ((cfg1.win 0).cut (cfg1.grid.coords t) ((dat1 V c).after 0 t)))
    rw [h0]; try iexact H0
  isplitl [H1]
  · iexists d1
    change _ ⊢ owns (c : Thread nD τ) (st1_1 t) fullShare ((cfg1.win 1).fill (cfg1.grid.coords t) d1 ((cfg1.win 1).cut (cfg1.grid.coords t) ((dat1 V c).after 1 t)))
    rw [h1]; try iexact H1
  · iexists out1_2 (fblk1 V c 0 t d0) (fblk1 V c 1 t d1)
    change _ ⊢ owns (c : Thread nD τ) (st1_2 t) fullShare ((cfg1.win 2).fill (cfg1.grid.coords t) (out1_2 (fblk1 V c 0 t d0) (fblk1 V c 1 t d1)) ((cfg1.win 2).cut (cfg1.grid.coords t) ((dat1 V c).after 2 t)))
    rw [h2]; try iexact H2

end Cert.KernelIdeal.Hand

end
-- ==== Proof.KI.B2.lean ====
/-
  Region 2 of @main (bias and ReLU on 5,000-row blocks): the body obligation of its pipeline at the contents `V`
  the region is entered with. Each input window's current staging buffer holds that window's block at every grid
  point, whether or not the window is fetched there (the bias is fetched at the first point only and its block index
  never moves); the body reads the two input buffers, reads the output buffer without using what it read, and stores
  the payload of the two input blocks over the whole output buffer.
-/
import proofs.«173455_j62955630624873_1_alg».proof.Proof.KI.D2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in each input window's buffer -/

/-- Input window 0's current staging buffer holds its block at every point, fetched there or not, for any proof
    data whose array is `V`'s and whose body leaves the block in place: the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point: it is fetched at the first point only,
    and where it is not fetched its block index has not moved, so the buffer still holds the block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d

theorem before2_1 (c : Dev nD) (t : Fin cfg2.N) (d) : (dat2 V c).before 1 t d = iblk2 V c 1 t :=
  before2_1_of V (dat2 V c) (A_eq2 V c 1) (after2_1 V c) t d

/-! ## The body's triple -/

set_option maxHeartbeats 1000000 in
/-- The kernel body on whole staging memrefs, the inputs' at read contents `x0`, `x1` and the output's at anything,
    runs to the continuation holding the inputs' as they were and the output's at `out2_2 x0 x1`: the value the
    body loads from the output buffer is not used, and its one store covers the buffer. -/
theorem sound_kernel2 (c : Dev nD) (E : Set ℕ) (i : grid2.Coords)
    (arg1 : Memref sig .tc .vmem S5000x64 .f32) (harg1 : arg1.IsWhole)
    (arg2 : Memref sig .tc .vmem S64 .f32) (harg2 : arg2.IsWhole)
    (arg3 : Memref sig .tc .vmem S5000x64 .f32) (harg3 : arg3.IsWhole)
    (x0 : Vec F S5000x64 .f32) (x1 : Vec F S64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__bias_relu_kernel i arg1 harg1 arg2 harg2 arg3 harg3) K := by
  simp only [cc2__bias_relu_kernel_eq_skeleton]; unfold cc2__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.B3.lean ====
/-
  Region 3 of @main (h · W2 on 5,000-row blocks of h, the weights staged once): the body obligation of its pipeline at the contents `V` the region is entered with.
  Each input window's current staging buffer holds its block at every grid point, whether or not the window is
  fetched there (an unfetched window's block index has not moved); on whole staging buffers the kernel body reads the
  two input blocks, reads the output's buffer without using what it read, and stores the payload over the whole output
  buffer, which the one store covers; so the body takes the pipeline's precondition at a point to its postcondition there.
-/
import proofs.«173455_j62955630624873_1_alg».proof.Proof.KI.D3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Input window 0's current staging buffer holds its block at every point, fetched there or not, for any proof
    data whose array is `V`'s and whose body leaves the block in place: the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same of input window 1, which is fetched at the first point only: where it is not fetched its block index
    has not moved, so its buffer still holds the block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

set_option maxHeartbeats 1000000 in
/-- The kernel body on whole staging buffers, the inputs' at read contents `x0`, `x1` and the output's at anything,
    runs to the continuation holding the inputs' as they were and the output's at `out3_2 x0 x1`: two loads, a load of
    the output's buffer whose value is not used, and one store of the payload over the whole output buffer. -/
theorem sound_kernel3 (c : Dev nD) (E : Set ℕ) (i : grid3.Coords)
    (arg1 : Memref sig .tc .vmem S5000x64 .f32) (harg1 : arg1.IsWhole)
    (arg2 : Memref sig .tc .vmem S64x64 .f32) (harg2 : arg2.IsWhole)
    (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, the output's holds something, so the kernel's triple
    applies; the invariant and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.B4.lean ====
/-
  Region 4 of @main (the per-edge scaling): the body obligation of its pipeline, in the library's loose form, at the
  contents `V` the region is entered with. Every window is cut at the arrays' end and fetched or written back at
  every grid point, so the body finds each input's staging buffer holding its block on the rows inside the array and
  an unnamed filler past it, and the output's holding anything. The body loads the factors, loads the gathered rows,
  and stores their row-by-row product whole; row `r` of the product reads row `r` of the gathered block and factor
  `r` only, and the three windows cut alike, so on the rows the output's write-back moves the product does not
  depend on the fillers: that is all the loose obligation states of the output's buffer.
-/
import proofs.«173455_j62955630624873_1_alg».proof.Proof.KI.D4
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The zero offsets of a whole access, as a constant function. -/
theorem r4_zeros2 : (![0, 0] : Fin 2 → Nat) = fun _ => 0 := funext fun a => by fin_cases a <;> rfl
theorem r4_zeros1 : (![0] : Fin 1 → Nat) = fun _ => 0 := funext fun a => by fin_cases a; rfl

/-- The payload at row `r`, column `j`: the gathered word times the row's factor. -/
theorem k4_pay1_apply (n : Vec F S8192 .f32) (g : Vec F S8192x64 .f32) (y : S8192x64.Idx) (k : S8192.Idx)
    (hk : (k 0).val = (y 0).val) : k4_pay1 n g y = FloatOps.mulf (g y) (n k) := by
  unfold k4_pay1
  simp only [shapeCast_self]
  show FloatOps.mulf (g y) (broadcastTo S8192x64 (shapeCast S8192x1 n shapeCasts_S8192_S8192x1) broadcasts_S8192x1_S8192x64 y) = _
  congr 1
  let k' : S8192x1.Idx := fun a => match a with
    | ⟨0, _⟩ => (⟨(y 0).val, (y 0).isLt⟩ : Fin 8192)
    | ⟨1, _⟩ => (⟨0, Nat.one_pos⟩ : Fin 1)
  refine (broadcastTo_apply _ broadcasts_S8192x1_S8192x64 y k' fun a => ?_).trans ?_
  · match a with
    | ⟨0, _⟩ => rfl
    | ⟨1, _⟩ => rfl
  · refine shapeCast_apply n shapeCasts_S8192_S8192x1 k' k ?_
    rw [Shape.rowMajor_val_one, Shape.rowMajor_val_two]
    show (k 0).val = (y 0).val * 1 + 0
    omega

/-- The output's buffer after the body is the payload of the two input buffers' contents. -/
theorem out4_2_eq (x0 : Vec F S8192x64 .f32) (x1 : Vec F S8192 .f32) : out4_2 x0 x1 = k4_pay1 x1 x0 := by
  unfold out4_2
  rw [View.canon_unit_zero r4_zeros2, View.ld_unit_zero r4_zeros1, View.ld_unit_zero r4_zeros2]

/-- At row `r`, column `j` it holds the gathered word there times factor `r`. -/
theorem out4_2_apply (x0 : Vec F S8192x64 .f32) (x1 : Vec F S8192 .f32) (y : S8192x64.Idx) (k : S8192.Idx)
    (hk : (k 0).val = (y 0).val) : out4_2 x0 x1 y = FloatOps.mulf (x0 y) (x1 k) := by
  rw [out4_2_eq]; exact k4_pay1_apply x1 x0 y k hk

/-- The three windows cut alike: one index map on the row axis, one block height, one array height (by unfolding). -/
theorem win4_xsize_0 (i : grid4.Coords) (a : Fin 2) : (cfg4.win 0).xsize i a = (cfg4.win 2).xsize i a := rfl
theorem win4_xsize_1 (i : grid4.Coords) : (cfg4.win 1).xsize i 0 = (cfg4.win 2).xsize i 0 := rfl

set_option maxHeartbeats 1000000 in
/-- The kernel body on whole staging memrefs, the inputs' at contents `x0` (the gathered rows) and `x1` (the
    factors) and the output's at anything: the load of the factors, the load of the rows, a load of the output's
    buffer nothing reads, and the one whole store of the payload; the inputs' buffers are left as they were and the
    output's holds `out4_2 x0 x1`. -/
theorem sound_kernel4 (c : Dev nD) (E : Set ℕ) (i : grid4.Coords)
    (arg1 : Memref sig .tc .vmem S8192x64 .f32) (harg1 : arg1.IsWhole)
    (arg2 : Memref sig .tc .vmem S8192 .f32) (harg2 : arg2.IsWhole)
    (arg3 : Memref sig .tc .vmem S8192x64 .f32) (harg3 : arg3.IsWhole)
    (x0 : Vec F S8192x64 .f32) (x1 : Vec F S8192 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
              ∗ owns (c : Thread nD τ) arg3 fullShare (out4_2 x0 x1)) -∗ K ⟨⟩))
      ⊢ wp frame (wpE (defs₀ (F := F)) Variants.none c none) E (cc4__scale_kernel i arg1 harg1 arg2 harg2 arg3 harg3) K := by
  simp only [cc4__scale_kernel_eq_skeleton]; unfold cc4__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

-- the TensorCore's buffer contents when the region is entered
variable (V : (c : Dev nD) → (b : Ref sig .tc) → Buf (Elt F) ((c : Thread nD τ).loc b))

/-- On an index the transfer moves, a filled-out block is the block whatever filled it out. -/
theorem win4_fill_of_moved {α : Type} (w : Window sig grid4) (i : grid4.Coords) (d d' : w.block.Idx → α)
    (g : (w.xblock i).Idx → α) {j : w.block.Idx} (h : w.moved i j = true) : w.fill i d g j = w.fill i d' g j := by
  unfold Window.fill; rw [dif_pos h, dif_pos h]

/-- On the rows inside the array the output's buffer after the body does not depend on what
    filled the input buffers out past the arrays' end — row `r` of the payload reads row `r` of the gathered
    block and factor `r`, and a row the output's transfer moves is one both inputs' transfers moved. -/
theorem out4_2_agree (c : Dev nD) (t : Fin cfg4.N)
    (d0 d0' : (cfg4.win 0).block.Idx → Elt F (cfg4.win 0).elt) (d1 d1' : (cfg4.win 1).block.Idx → Elt F (cfg4.win 1).elt) :
    (cfg4.win 2).cut (cfg4.grid.coords t) (out4_2 (fblk4 V c 0 t d0) (fblk4 V c 1 t d1))
      = (cfg4.win 2).cut (cfg4.grid.coords t) (out4_2 (fblk4 V c 0 t d0') (fblk4 V c 1 t d1')) := by
  funext j
  let y : S8192x64.Idx := (cfg4.win 2).xinj (cfg4.grid.coords t) j
  let k : S8192.Idx := fun a => match a with | ⟨0, _⟩ => (⟨(y 0).val, (y 0).isLt⟩ : Fin 8192)
  show out4_2 (fblk4 V c 0 t d0) (fblk4 V c 1 t d1) y = out4_2 (fblk4 V c 0 t d0') (fblk4 V c 1 t d1') y
  rw [out4_2_apply _ _ y k rfl, out4_2_apply _ _ y k rfl]
  have m0 : (cfg4.win 0).moved (cfg4.grid.coords t) y = true :=
    ((cfg4.win 0).moved_iff _ _).mpr fun a => by rw [win4_xsize_0]; exact (j a).isLt
  have m1 : (cfg4.win 1).moved (cfg4.grid.coords t) k = true :=
    ((cfg4.win 1).moved_iff _ _).mpr fun a => by
      match a with
      | ⟨0, _⟩ => exact (win4_xsize_1 (cfg4.grid.coords t)) ▸ (j 0).isLt
  unfold fblk4
  rw [win4_fill_of_moved (cfg4.win 0) _ d0 d0' _ m0, win4_fill_of_moved (cfg4.win 1) _ d1 d1' _ m1]

/-- What the body finds in the inputs' buffers: each just fetched, the block on the rows inside the array and `d`
    past it. -/
theorem before4_0 (c : Dev nD) (t : Fin cfg4.N) (d) : (dat4 V c).before 0 t d = fblk4 V c 0 t d := by
  unfold Dat.before; rw [if_pos (fetch4_0 t)]; rfl
theorem before4_1 (c : Dev nD) (t : Fin cfg4.N) (d) : (dat4 V c).before 1 t d = fblk4 V c 1 t d := by
  unfold Dat.before; rw [if_pos (fetch4_1 t)]; rfl

/-- The library's body obligation in its loose form, at every point: the inputs' buffers arrive holding their blocks
    filled out with some `d` past the arrays' end, the output's holding anything; the body leaves the inputs' as
    they were and the output's at the payload of the two, which on the rows inside the array is what the proof data
    name (`out4_2_agree`). -/
theorem body_obligation4 (c : Dev nD) : BodyObligationLoose (dat4 (F := F) V c) (defs₀ (F := F)) Variants.none () Set.univ := fun t => by
  rw [bigSep_W4, bigSep_W4]
  simp only
  rw [show (dat4 V c).Φ t.succ = (dat4 V c).Φ t.castSucc from rfl,
    show (dat4 V c).owesAt () t.succ = (dat4 V c).owesAt () t.castSucc from rfl]
  iintro ⟨HΦ, Ho, ⟨%d0, H0⟩, ⟨%d1, H1⟩, ⟨%d2, H2⟩⟩
  rw [before4_0 V c t d0, before4_1 V c t d1]
  iapply (sound_kernel4 (F := F) c Set.univ (grid4.coords t) (win4_0.stage (cfg4.slots t 0)) (hstage4_0 ((cfg4.slots t 0).cast nbuf4_0))
    (win4_1.stage (cfg4.slots t 1)) (hstage4_1 ((cfg4.slots t 1).cast nbuf4_1)) (win4_2.stage (cfg4.slots t 2)) (hstage4_2 ((cfg4.slots t 2).cast nbuf4_2))
    (fblk4 V c 0 t d0) (fblk4 V c 1 t d1) _)
  isplitl [H0]; · iexact H0
  isplitl [H1]; · iexact H1
  isplitl [H2]; · iexists _; iexact H2
  iintro ⟨H0, H1, H2⟩
  isplitl [HΦ]; · iexact HΦ
  isplitl [Ho]; · iexact Ho
  have h0 : (cfg4.win 0).fill (cfg4.grid.coords t) d0 ((cfg4.win 0).cut (cfg4.grid.coords t) ((dat4 V c).after 0 t)) = fblk4 V c 0 t d0 := by
    rw [after4_0]; unfold fblk4; rw [Window.cut_fill]
  have h1 : (cfg4.win 1).fill (cfg4.grid.coords t) d1 ((cfg4.win 1).cut (cfg4.grid.coords t) ((dat4 V c).after 1 t)) = fblk4 V c 1 t d1 := by
    rw [after4_1]; unfold fblk4; rw [Window.cut_fill]
  have h2 : (cfg4.win 2).fill (cfg4.grid.coords t) (out4_2 (fblk4 V c 0 t d0) (fblk4 V c 1 t d1))
      ((cfg4.win 2).cut (cfg4.grid.coords t) ((dat4 V c).after 2 t)) = out4_2 (fblk4 V c 0 t d0) (fblk4 V c 1 t d1) := by
    rw [after4_2]; exact (cfg4.win 2).fill_congr_cut _ (out4_2_agree V c t d0 _ d1 _)
  isplitl [H0]
  · iexists d0
    change _ ⊢ owns (c : Thread nD τ) (st4_0 t) fullShare ((cfg4.win 0).fill (cfg4.grid.coords t) d0 ((cfg4.win 0).cut (cfg4.grid.coords t) ((dat4 V c).after 0 t)))
    rw [h0]; try iexact H0
  isplitl [H1]
  · iexists d1
    change _ ⊢ owns (c : Thread nD τ) (st4_1 t) fullShare ((cfg4.win 1).fill (cfg4.grid.coords t) d1 ((cfg4.win 1).cut (cfg4.grid.coords t) ((dat4 V c).after 1 t)))
    rw [h1]; try iexact H1
  · iexists out4_2 (fblk4 V c 0 t d0) (fblk4 V c 1 t d1)
    change _ ⊢ owns (c : Thread nD τ) (st4_2 t) fullShare ((cfg4.win 2).fill (cfg4.grid.coords t) (out4_2 (fblk4 V c 0 t d0) (fblk4 V c 1 t d1)) ((cfg4.win 2).cut (cfg4.grid.coords t) ((dat4 V c).after 2 t)))
    rw [h2]; try iexact H2

end Cert.KernelIdeal.Hand

end
-- ==== Proof.KI.B5.lean ====
/-
  Region 5 of @main (bias and ReLU on 5,000-row blocks): the body obligation of its pipeline at the contents `V`
  the region is entered with. Each input window's current staging buffer holds that window's block at every grid
  point, whether or not the window is fetched there (the bias is fetched at the first point only and its block index
  never moves); the body reads the two input buffers, reads the output buffer without using what it read, and stores
  the payload of the two input blocks over the whole output buffer.
-/
import proofs.«173455_j62955630624873_1_alg».proof.Proof.KI.D5

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in each input window's buffer -/

/-- Input window 0's current staging buffer holds its block at every point, fetched there or not, for any proof
    data whose array is `V`'s and whose body leaves the block in place: the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point: it is fetched at the first point only,
    and where it is not fetched its block index has not moved, so the buffer still holds the block. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_0 (c : Dev nD) (t : Fin cfg5.N) (d) : (dat5 V c).before 0 t d = iblk5 V c 0 t :=
  before5_0_of V (dat5 V c) (A_eq5 V c 0) (after5_0 V c) t d

theorem before5_1 (c : Dev nD) (t : Fin cfg5.N) (d) : (dat5 V c).before 1 t d = iblk5 V c 1 t :=
  before5_1_of V (dat5 V c) (A_eq5 V c 1) (after5_1 V c) t d

/-! ## The body's triple -/

set_option maxHeartbeats 1000000 in
/-- The kernel body on whole staging memrefs, the inputs' at read contents `x0`, `x1` and the output's at anything,
    runs to the continuation holding the inputs' as they were and the output's at `out5_2 x0 x1`: the value the
    body loads from the output buffer is not used, and its one store covers the buffer. -/
theorem sound_kernel5 (c : Dev nD) (E : Set ℕ) (i : grid5.Coords)
    (arg1 : Memref sig .tc .vmem S5000x64 .f32) (harg1 : arg1.IsWhole)
    (arg2 : Memref sig .tc .vmem S64 .f32) (harg2 : arg2.IsWhole)
    (arg3 : Memref sig .tc .vmem S5000x64 .f32) (harg3 : arg3.IsWhole)
    (x0 : Vec F S5000x64 .f32) (x1 : Vec F S64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__bias_relu_kernel i arg1 harg1 arg2 harg2 arg3 harg3) K := by
  simp only [cc5__bias_relu_kernel_eq_skeleton]; unfold cc5__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so the body's triple applies; the invariant and
    the core's obligations pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Run.lean ====
/-
  The run of @main, at any float family: its thirteen items (three host stretches, region 0, a stretch, region 1, a
  stretch, regions 2 and 3, a stretch, region 4, a stretch, region 5) as segments over the thread state "every
  unscoped buffer at the boundary's contents, the generator register at some state, nothing owed", each region a
  segment record built on its pipeline's proof data at the region's entry contents and its body obligation; the launch
  over the segments; then the final state read against the last boundary's contents: each argument array holds its
  launch contents (the frame), and the result array holds the last boundary's contents there (the result).
-/
import proofs.«173455_j62955630624873_1_alg».proof.Proof.KI.Fold
import proofs.«173455_j62955630624873_1_alg».proof.Proof.KI.B0
import proofs.«173455_j62955630624873_1_alg».proof.Proof.KI.B1
import proofs.«173455_j62955630624873_1_alg».proof.Proof.KI.B2
import proofs.«173455_j62955630624873_1_alg».proof.Proof.KI.B3
import proofs.«173455_j62955630624873_1_alg».proof.Proof.KI.B4
import proofs.«173455_j62955630624873_1_alg».proof.Proof.KI.B5
import proofs.«173455_j62955630624873_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 6) → (pcfgs (F := F) p).Adm := fun p => (cfgs p).toPCfg_adm
/-- Every pipeline's proof data, each at its region's entry contents: a literal match, so that the pinned
    configuration at a numeral reduces to the printed one. -/
def pdats : (p : Fin 6) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V8 m ρ) c
  | ⟨4, _⟩ => fun c => dat4 (V10 m ρ) c
  | ⟨5, _⟩ => fun c => dat5 (V12 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it is left with
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W13`, the generator
    register at some state. -/
abbrev Tₙ (c : Dev nD) : sProp 𝕄 := iprop(StableHlo.held (c : Thread nD τ) (Pipeline.ucRefs τ sig) (W13 m ρ c) ∗ ∃ r, prngReg c r)

/-! ## The regions as segments -/

set_option backward.isDefEq.respectTransparency.types false in
/-- REGION 0 over the thread state: entered from every unscoped buffer at `W3`, left at `W4`. Its arrays are split
    out of the unscoped buffers at entry and put back at the exit contents; the generator register goes into the
    pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W5`, left at `W6`. Its arrays are split
    out of the unscoped buffers at entry and put back at the exit contents; the generator register goes into the
    pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (V5 m ρ) c
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W7`, left at `W8`. Its arrays are split
    out of the unscoped buffers at entry and put back at the exit contents; the generator register goes into the
    pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W8`, left at `W9`. Its arrays are split
    out of the unscoped buffers at entry and put back at the exit contents; the generator register goes into the
    pipeline's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W10`, left at `W11`. Its arrays are split
    out of the unscoped buffers at entry and put back at the exit contents; the generator register goes into the
    pipeline's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := body_obligation4 (V10 m ρ) c
  hwaits := Pipeline.hwaits_of_owed_zero _ _ _ _ L lv 4 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec4 c (V10 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V10 m ρ c) (V11 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W12`, left at `W13`. Its arrays are split
    out of the unscoped buffers at entry and put back at the exit contents; the generator register goes into the
    pipeline's invariant and comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V12 m ρ) c).loose
  hwaits := Pipeline.hwaits_of_owed_zero _ _ _ _ L lv 5 fun _ _ => rfl
  pre c := iprop(StableHlo.held (c : Thread nD τ) (Pipeline.ucRefs τ sig) (W12 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V12 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V12 m ρ c) (V13 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's thirteen segments in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .region (reg3 m ρ),
    .host (hseg hostOps4 hostOps4_sub hostOps4_fresh (W9 m ρ)),
    .region (reg4 m ρ),
    .host (hseg hostOps5 hostOps5_sub hostOps5_fresh (W11 m ρ)),
    .region (reg5 m ρ) ]
/-- @main is the run of the segments: it is the chain of its items, and the segments' run is that chain. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state holds each unscoped buffer at the last boundary's
    contents `W13`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun _ h => h)

/-! ## The arguments end as launched

No host operation and no region writes an argument (a region reads it through an input window or does not touch it), so
the fold at an argument's buffer walks back to the launch memory. -/

/-- A reference the stretch `hostOps0` does not write keeps its contents across it. -/
theorem W1_host (c : Dev nD) (r : Ref sig .tc) (h : r ∉ hostOps0_W) :
    W1 m ρ c (Proc.devRef .tc r) = W0 m ρ c (Proc.devRef .tc r) :=
  StableHlo.after_of_writes_sub hostOps0 _ hostOps0_writes h
/-- A reference the stretch `hostOps0_1` does not write keeps its contents across it. -/
theorem W2_host (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
/-- A reference the stretch `hostOps0_2` does not write keeps its contents across it. -/
theorem W3_host (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
/-- A reference the stretch `hostOps1` does not write keeps its contents across it. -/
theorem W5_host (c : Dev nD) (r : Ref sig .tc) (h : r ∉ hostOps1_W) :
    W5 m ρ c (Proc.devRef .tc r) = W4 m ρ c (Proc.devRef .tc r) :=
  StableHlo.after_of_writes_sub hostOps1 _ hostOps1_writes h
/-- A reference the stretch `hostOps2` does not write keeps its contents across it. -/
theorem W7_host (c : Dev nD) (r : Ref sig .tc) (h : r ∉ hostOps2_W) :
    W7 m ρ c (Proc.devRef .tc r) = W6 m ρ c (Proc.devRef .tc r) :=
  StableHlo.after_of_writes_sub hostOps2 _ hostOps2_writes h
/-- A reference the stretch `hostOps4` does not write keeps its contents across it. -/
theorem W10_host (c : Dev nD) (r : Ref sig .tc) (h : r ∉ hostOps4_W) :
    W10 m ρ c (Proc.devRef .tc r) = W9 m ρ c (Proc.devRef .tc r) :=
  StableHlo.after_of_writes_sub hostOps4 _ hostOps4_writes h
/-- A reference the stretch `hostOps5` does not write keeps its contents across it. -/
theorem W12_host (c : Dev nD) (r : Ref sig .tc) (h : r ∉ hostOps5_W) :
    W12 m ρ c (Proc.devRef .tc r) = W11 m ρ c (Proc.devRef .tc r) :=
  StableHlo.after_of_writes_sub hostOps5 _ hostOps5_writes h

/-- `main_arg0` ends as launched. -/
theorem W13_main_arg0 (c : Dev nD) : W13 m ρ c (Proc.devRef .tc main_arg0) = m ((c : Thread nD τ).loc main_arg0) :=
  calc W13 m ρ c (Proc.devRef .tc main_arg0)
    _ = W12 m ρ c (Proc.devRef .tc main_arg0) := W13_of_ne m ρ c main_arg0 (by decide)
    _ = W11 m ρ c (Proc.devRef .tc main_arg0) := W12_host m ρ c main_arg0 (by decide)
    _ = W10 m ρ c (Proc.devRef .tc main_arg0) := W11_of_ne m ρ c main_arg0 (by decide)
    _ = W9 m ρ c (Proc.devRef .tc main_arg0) := W10_host m ρ c main_arg0 (by decide)
    _ = W8 m ρ c (Proc.devRef .tc main_arg0) := W9_of_ne m ρ c main_arg0 (by decide)
    _ = W7 m ρ c (Proc.devRef .tc main_arg0) := W8_of_ne m ρ c main_arg0 (by decide)
    _ = W6 m ρ c (Proc.devRef .tc main_arg0) := W7_host m ρ c main_arg0 (by decide)
    _ = W5 m ρ c (Proc.devRef .tc main_arg0) := W6_of_ne m ρ c main_arg0 (by decide)
    _ = W4 m ρ c (Proc.devRef .tc main_arg0) := W5_host m ρ c main_arg0 (by decide)
    _ = W3 m ρ c (Proc.devRef .tc main_arg0) := (W4_arr m ρ c 0).trans (((dat0 (V3 m ρ) c).arrAt_in 0 rfl _).trans (A_eq0 (V3 m ρ) c 0))
    _ = W2 m ρ c (Proc.devRef .tc main_arg0) := W3_host m ρ c main_arg0 (by decide)
    _ = W1 m ρ c (Proc.devRef .tc main_arg0) := W2_host m ρ c main_arg0 (by decide)
    _ = W0 m ρ c (Proc.devRef .tc main_arg0) := W1_host m ρ c main_arg0 (by decide)
    _ = m ((c : Thread nD τ).loc main_arg0) := rfl

/-- `main_arg1` ends as launched. -/
theorem W13_main_arg1 (c : Dev nD) : W13 m ρ c (Proc.devRef .tc main_arg1) = m ((c : Thread nD τ).loc main_arg1) :=
  calc W13 m ρ c (Proc.devRef .tc main_arg1)
    _ = W12 m ρ c (Proc.devRef .tc main_arg1) := W13_of_ne m ρ c main_arg1 (by decide)
    _ = W11 m ρ c (Proc.devRef .tc main_arg1) := W12_host m ρ c main_arg1 (by decide)
    _ = W10 m ρ c (Proc.devRef .tc main_arg1) := W11_of_ne m ρ c main_arg1 (by decide)
    _ = W9 m ρ c (Proc.devRef .tc main_arg1) := W10_host m ρ c main_arg1 (by decide)
    _ = W8 m ρ c (Proc.devRef .tc main_arg1) := W9_of_ne m ρ c main_arg1 (by decide)
    _ = W7 m ρ c (Proc.devRef .tc main_arg1) := W8_of_ne m ρ c main_arg1 (by decide)
    _ = W6 m ρ c (Proc.devRef .tc main_arg1) := W7_host m ρ c main_arg1 (by decide)
    _ = W5 m ρ c (Proc.devRef .tc main_arg1) := W6_of_ne m ρ c main_arg1 (by decide)
    _ = W4 m ρ c (Proc.devRef .tc main_arg1) := W5_host m ρ c main_arg1 (by decide)
    _ = W3 m ρ c (Proc.devRef .tc main_arg1) := W4_of_ne m ρ c main_arg1 (by decide)
    _ = W2 m ρ c (Proc.devRef .tc main_arg1) := W3_host m ρ c main_arg1 (by decide)
    _ = W1 m ρ c (Proc.devRef .tc main_arg1) := W2_host m ρ c main_arg1 (by decide)
    _ = W0 m ρ c (Proc.devRef .tc main_arg1) := W1_host m ρ c main_arg1 (by decide)
    _ = m ((c : Thread nD τ).loc main_arg1) := rfl

/-- `main_arg2` ends as launched. -/
theorem W13_main_arg2 (c : Dev nD) : W13 m ρ c (Proc.devRef .tc main_arg2) = m ((c : Thread nD τ).loc main_arg2) :=
  calc W13 m ρ c (Proc.devRef .tc main_arg2)
    _ = W12 m ρ c (Proc.devRef .tc main_arg2) := W13_of_ne m ρ c main_arg2 (by decide)
    _ = W11 m ρ c (Proc.devRef .tc main_arg2) := W12_host m ρ c main_arg2 (by decide)
    _ = W10 m ρ c (Proc.devRef .tc main_arg2) := W11_of_ne m ρ c main_arg2 (by decide)
    _ = W9 m ρ c (Proc.devRef .tc main_arg2) := W10_host m ρ c main_arg2 (by decide)
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := W7_host m ρ c main_arg2 (by decide)
    _ = W5 m ρ c (Proc.devRef .tc main_arg2) := W6_of_ne m ρ c main_arg2 (by decide)
    _ = W4 m ρ c (Proc.devRef .tc main_arg2) := W5_host m ρ c main_arg2 (by decide)
    _ = W3 m ρ c (Proc.devRef .tc main_arg2) := (W4_arr m ρ c 1).trans (((dat0 (V3 m ρ) c).arrAt_in 1 rfl _).trans (A_eq0 (V3 m ρ) c 1))
    _ = W2 m ρ c (Proc.devRef .tc main_arg2) := W3_host m ρ c main_arg2 (by decide)
    _ = W1 m ρ c (Proc.devRef .tc main_arg2) := W2_host m ρ c main_arg2 (by decide)
    _ = W0 m ρ c (Proc.devRef .tc main_arg2) := W1_host m ρ c main_arg2 (by decide)
    _ = m ((c : Thread nD τ).loc main_arg2) := rfl

/-- `main_arg3` ends as launched. -/
theorem W13_main_arg3 (c : Dev nD) : W13 m ρ c (Proc.devRef .tc main_arg3) = m ((c : Thread nD τ).loc main_arg3) :=
  calc W13 m ρ c (Proc.devRef .tc main_arg3)
    _ = W12 m ρ c (Proc.devRef .tc main_arg3) := W13_of_ne m ρ c main_arg3 (by decide)
    _ = W11 m ρ c (Proc.devRef .tc main_arg3) := W12_host m ρ c main_arg3 (by decide)
    _ = W10 m ρ c (Proc.devRef .tc main_arg3) := W11_of_ne m ρ c main_arg3 (by decide)
    _ = W9 m ρ c (Proc.devRef .tc main_arg3) := W10_host m ρ c main_arg3 (by decide)
    _ = W8 m ρ c (Proc.devRef .tc main_arg3) := W9_of_ne m ρ c main_arg3 (by decide)
    _ = W7 m ρ c (Proc.devRef .tc main_arg3) := (W8_arr m ρ c 1).trans (((dat2 (V7 m ρ) c).arrAt_in 1 rfl _).trans (A_eq2 (V7 m ρ) c 1))
    _ = W6 m ρ c (Proc.devRef .tc main_arg3) := W7_host m ρ c main_arg3 (by decide)
    _ = W5 m ρ c (Proc.devRef .tc main_arg3) := W6_of_ne m ρ c main_arg3 (by decide)
    _ = W4 m ρ c (Proc.devRef .tc main_arg3) := W5_host m ρ c main_arg3 (by decide)
    _ = W3 m ρ c (Proc.devRef .tc main_arg3) := W4_of_ne m ρ c main_arg3 (by decide)
    _ = W2 m ρ c (Proc.devRef .tc main_arg3) := W3_host m ρ c main_arg3 (by decide)
    _ = W1 m ρ c (Proc.devRef .tc main_arg3) := W2_host m ρ c main_arg3 (by decide)
    _ = W0 m ρ c (Proc.devRef .tc main_arg3) := W1_host m ρ c main_arg3 (by decide)
    _ = m ((c : Thread nD τ).loc main_arg3) := rfl

/-- `main_arg4` ends as launched. -/
theorem W13_main_arg4 (c : Dev nD) : W13 m ρ c (Proc.devRef .tc main_arg4) = m ((c : Thread nD τ).loc main_arg4) :=
  calc W13 m ρ c (Proc.devRef .tc main_arg4)
    _ = W12 m ρ c (Proc.devRef .tc main_arg4) := W13_of_ne m ρ c main_arg4 (by decide)
    _ = W11 m ρ c (Proc.devRef .tc main_arg4) := W12_host m ρ c main_arg4 (by decide)
    _ = W10 m ρ c (Proc.devRef .tc main_arg4) := W11_of_ne m ρ c main_arg4 (by decide)
    _ = W9 m ρ c (Proc.devRef .tc main_arg4) := W10_host m ρ c main_arg4 (by decide)
    _ = W8 m ρ c (Proc.devRef .tc main_arg4) := (W9_arr m ρ c 1).trans (((dat3 (V8 m ρ) c).arrAt_in 1 rfl _).trans (A_eq3 (V8 m ρ) c 1))
    _ = W7 m ρ c (Proc.devRef .tc main_arg4) := W8_of_ne m ρ c main_arg4 (by decide)
    _ = W6 m ρ c (Proc.devRef .tc main_arg4) := W7_host m ρ c main_arg4 (by decide)
    _ = W5 m ρ c (Proc.devRef .tc main_arg4) := W6_of_ne m ρ c main_arg4 (by decide)
    _ = W4 m ρ c (Proc.devRef .tc main_arg4) := W5_host m ρ c main_arg4 (by decide)
    _ = W3 m ρ c (Proc.devRef .tc main_arg4) := W4_of_ne m ρ c main_arg4 (by decide)
    _ = W2 m ρ c (Proc.devRef .tc main_arg4) := W3_host m ρ c main_arg4 (by decide)
    _ = W1 m ρ c (Proc.devRef .tc main_arg4) := W2_host m ρ c main_arg4 (by decide)
    _ = W0 m ρ c (Proc.devRef .tc main_arg4) := W1_host m ρ c main_arg4 (by decide)
    _ = m ((c : Thread nD τ).loc main_arg4) := rfl

/-- `main_arg5` ends as launched. -/
theorem W13_main_arg5 (c : Dev nD) : W13 m ρ c (Proc.devRef .tc main_arg5) = m ((c : Thread nD τ).loc main_arg5) :=
  calc W13 m ρ c (Proc.devRef .tc main_arg5)
    _ = W12 m ρ c (Proc.devRef .tc main_arg5) := (W13_arr m ρ c 1).trans (((dat5 (V12 m ρ) c).arrAt_in 1 rfl _).trans (A_eq5 (V12 m ρ) c 1))
    _ = W11 m ρ c (Proc.devRef .tc main_arg5) := W12_host m ρ c main_arg5 (by decide)
    _ = W10 m ρ c (Proc.devRef .tc main_arg5) := W11_of_ne m ρ c main_arg5 (by decide)
    _ = W9 m ρ c (Proc.devRef .tc main_arg5) := W10_host m ρ c main_arg5 (by decide)
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := W7_host m ρ c main_arg5 (by decide)
    _ = W5 m ρ c (Proc.devRef .tc main_arg5) := W6_of_ne m ρ c main_arg5 (by decide)
    _ = W4 m ρ c (Proc.devRef .tc main_arg5) := W5_host m ρ c main_arg5 (by decide)
    _ = W3 m ρ c (Proc.devRef .tc main_arg5) := W4_of_ne m ρ c main_arg5 (by decide)
    _ = W2 m ρ c (Proc.devRef .tc main_arg5) := W3_host m ρ c main_arg5 (by decide)
    _ = W1 m ρ c (Proc.devRef .tc main_arg5) := W2_host m ρ c main_arg5 (by decide)
    _ = W0 m ρ c (Proc.devRef .tc main_arg5) := W1_host m ρ c main_arg5 (by decide)
    _ = m ((c : Thread nD τ).loc main_arg5) := rfl

/-- THE FRAME: every weakly fair execution of @main terminates, nothing faulting, and every final state has the six
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W13_main_arg0 m ρ c),
      (h c _ (mem_uc main_arg1 (by decide))).trans (W13_main_arg1 m ρ c),
      (h c _ (mem_uc main_arg2 (by decide))).trans (W13_main_arg2 m ρ c),
      (h c _ (mem_uc main_arg3 (by decide))).trans (W13_main_arg3 m ρ c),
      (h c _ (mem_uc main_arg4 (by decide))).trans (W13_main_arg4 m ρ c),
      (h c _ (mem_uc main_arg5 (by decide))).trans (W13_main_arg5 m ρ c)⟩) (run_all m ρ)

/-- THE RESULT: the same run, the final state read also at the result array `main_v55`, which holds the last
    boundary's contents there. -/
theorem result : θ_run defs (onTc (τ := τ) (main (F := F))) ⟨m, fun _ => 0, ρ⟩ (fun r => ∀ c : Dev nD,
      r.2.mem ((c.tc : Thread nD τ).loc main_v55) = W13 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v55 (by decide)),
      (h c _ (mem_uc main_arg0 (by decide))).trans (W13_main_arg0 m ρ c),
      (h c _ (mem_uc main_arg1 (by decide))).trans (W13_main_arg1 m ρ c),
      (h c _ (mem_uc main_arg2 (by decide))).trans (W13_main_arg2 m ρ c),
      (h c _ (mem_uc main_arg3 (by decide))).trans (W13_main_arg3 m ρ c),
      (h c _ (mem_uc main_arg4 (by decide))).trans (W13_main_arg4 m ρ c),
      (h c _ (mem_uc main_arg5 (by decide))).trans (W13_main_arg5 m ρ c)⟩) (run_all m ρ)

/-- info: 'Cert.KernelIdeal.Hand.frame' depends on axioms: [propext, Classical.choice, Quot.sound] -/
#guard_msgs in #print axioms frame
/-- info: 'Cert.KernelIdeal.Hand.result' depends on axioms: [propext, Classical.choice, Quot.sound] -/
#guard_msgs in #print axioms result

end Cert.KernelIdeal.Hand

end
-- ==== Proof.KI.Carry.lean ====
/-
  Buffers carried unchanged across items of @main. A stretch of host operations leaves every buffer that none of its
  operations writes as it found it; a kernel region leaves every buffer that is not one of its three arrays as it found
  it, and an array it only reads through an input window too (an input's array is never written back). Chained from
  item to item: the index vectors `main_v3`, `main_v6` and the edge weights `main_v29` hold after the later items what
  they held after the third host stretch, and each argument array holds its launch contents where it is read.
-/
import proofs.«173455_j62955630624873_1_alg».proof.Proof.KI.Fold
import proofs.«173455_j62955630624873_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One item: a host stretch leaves what it does not write -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
theorem W5_of (c : Dev nD) (r : Ref sig .tc) (h : r ∉ hostOps1_W) :
    W5 m ρ c (Proc.devRef .tc r) = W4 m ρ c (Proc.devRef .tc r) :=
  StableHlo.after_of_writes_sub hostOps1 _ hostOps1_writes h
theorem W7_of (c : Dev nD) (r : Ref sig .tc) (h : r ∉ hostOps2_W) :
    W7 m ρ c (Proc.devRef .tc r) = W6 m ρ c (Proc.devRef .tc r) :=
  StableHlo.after_of_writes_sub hostOps2 _ hostOps2_writes h
theorem W10_of (c : Dev nD) (r : Ref sig .tc) (h : r ∉ hostOps4_W) :
    W10 m ρ c (Proc.devRef .tc r) = W9 m ρ c (Proc.devRef .tc r) :=
  StableHlo.after_of_writes_sub hostOps4 _ hostOps4_writes h
theorem W12_of (c : Dev nD) (r : Ref sig .tc) (h : r ∉ hostOps5_W) :
    W12 m ρ c (Proc.devRef .tc r) = W11 m ρ c (Proc.devRef .tc r) :=
  StableHlo.after_of_writes_sub hostOps5 _ hostOps5_writes h

/-! ## One item: a region leaves the array of an input window as it found it -/

/-- Region 1 reads the edge weights through window 1. -/
theorem W6_v29 (c : Dev nD) : W6 m ρ c (Proc.devRef .tc main_v29) = W5 m ρ c (Proc.devRef .tc main_v29) :=
  (W6_arr m ρ c 1).trans (((dat1 (V5 m ρ) c).arrAt_in 1 rfl _).trans (A_eq1 (V5 m ρ) c 1))
/-- Region 4 reads the edge weights through window 1. -/
theorem W11_v29 (c : Dev nD) : W11 m ρ c (Proc.devRef .tc main_v29) = W10 m ρ c (Proc.devRef .tc main_v29) :=
  (W11_arr m ρ c 1).trans (((dat4 (V10 m ρ) c).arrAt_in 1 rfl _).trans (A_eq4 (V10 m ρ) c 1))
/-- Region 2 reads the first bias through window 1. -/
theorem W8_arg3 (c : Dev nD) : W8 m ρ c (Proc.devRef .tc main_arg3) = W7 m ρ c (Proc.devRef .tc main_arg3) :=
  (W8_arr m ρ c 1).trans (((dat2 (V7 m ρ) c).arrAt_in 1 rfl _).trans (A_eq2 (V7 m ρ) c 1))
/-- Region 3 reads the second weights through window 1. -/
theorem W9_arg4 (c : Dev nD) : W9 m ρ c (Proc.devRef .tc main_arg4) = W8 m ρ c (Proc.devRef .tc main_arg4) :=
  (W9_arr m ρ c 1).trans (((dat3 (V8 m ρ) c).arrAt_in 1 rfl _).trans (A_eq3 (V8 m ρ) c 1))

/-! ## The index vector `main_v3`: written by the first host stretch, read by the gathers before regions 1 and 4 -/

theorem carry_v3_W4 (c : Dev nD) : W4 m ρ c (Proc.devRef .tc main_v3) = W3 m ρ c (Proc.devRef .tc main_v3) :=
  W4_of_ne m ρ c main_v3 (by decide)
theorem carry_v3_W9 (c : Dev nD) : W9 m ρ c (Proc.devRef .tc main_v3) = W3 m ρ c (Proc.devRef .tc main_v3) :=
  (W9_of_ne m ρ c main_v3 (by decide)).trans <| (W8_of_ne m ρ c main_v3 (by decide)).trans <|
    (W7_of m ρ c main_v3 (by decide)).trans <| (W6_of_ne m ρ c main_v3 (by decide)).trans <|
    (W5_of m ρ c main_v3 (by decide)).trans (carry_v3_W4 m ρ c)

/-! ## The index vector `main_v6`: written by the first host stretch, read by the scatters after regions 1 and 4 -/

theorem carry_v6_W6 (c : Dev nD) : W6 m ρ c (Proc.devRef .tc main_v6) = W3 m ρ c (Proc.devRef .tc main_v6) :=
  (W6_of_ne m ρ c main_v6 (by decide)).trans <| (W5_of m ρ c main_v6 (by decide)).trans (W4_of_ne m ρ c main_v6 (by decide))
theorem carry_v6_W11 (c : Dev nD) : W11 m ρ c (Proc.devRef .tc main_v6) = W3 m ρ c (Proc.devRef .tc main_v6) :=
  (W11_of_ne m ρ c main_v6 (by decide)).trans <| (W10_of m ρ c main_v6 (by decide)).trans <|
    (W9_of_ne m ρ c main_v6 (by decide)).trans <| (W8_of_ne m ρ c main_v6 (by decide)).trans <|
    (W7_of m ρ c main_v6 (by decide)).trans (carry_v6_W6 m ρ c)

/-! ## The edge weights `main_v29`: written by the third host stretch, read by regions 1 and 4 -/

theorem carry_v29_W5 (c : Dev nD) : W5 m ρ c (Proc.devRef .tc main_v29) = W3 m ρ c (Proc.devRef .tc main_v29) :=
  (W5_of m ρ c main_v29 (by decide)).trans (W4_of_ne m ρ c main_v29 (by decide))
theorem carry_v29_W10 (c : Dev nD) : W10 m ρ c (Proc.devRef .tc main_v29) = W3 m ρ c (Proc.devRef .tc main_v29) :=
  (W10_of m ρ c main_v29 (by decide)).trans <| (W9_of_ne m ρ c main_v29 (by decide)).trans <|
    (W8_of_ne m ρ c main_v29 (by decide)).trans <| (W7_of m ρ c main_v29 (by decide)).trans <|
    (W6_v29 m ρ c).trans (carry_v29_W5 m ρ c)

/-! ## The argument arrays: no item writes one, so where it is read it holds its launch contents -/

theorem carry_arg1_W0 (c : Dev nD) : W0 m ρ c (Proc.devRef .tc main_arg1) = m ((c : Thread nD τ).loc main_arg1) := rfl
theorem carry_arg0_W3 (c : Dev nD) : W3 m ρ c (Proc.devRef .tc main_arg0) = m ((c : Thread nD τ).loc main_arg0) :=
  (W3_of m ρ c main_arg0 (by decide)).trans <| (W2_of m ρ c main_arg0 (by decide)).trans <|
    (W1_of m ρ c main_arg0 (by decide)).trans rfl
theorem carry_arg2_W3 (c : Dev nD) : W3 m ρ c (Proc.devRef .tc main_arg2) = m ((c : Thread nD τ).loc main_arg2) :=
  (W3_of m ρ c main_arg2 (by decide)).trans <| (W2_of m ρ c main_arg2 (by decide)).trans <|
    (W1_of m ρ c main_arg2 (by decide)).trans rfl
theorem carry_arg3_W7 (c : Dev nD) : W7 m ρ c (Proc.devRef .tc main_arg3) = m ((c : Thread nD τ).loc main_arg3) :=
  (W7_of m ρ c main_arg3 (by decide)).trans <| (W6_of_ne m ρ c main_arg3 (by decide)).trans <|
    (W5_of m ρ c main_arg3 (by decide)).trans <| (W4_of_ne m ρ c main_arg3 (by decide)).trans <|
    (W3_of m ρ c main_arg3 (by decide)).trans <| (W2_of m ρ c main_arg3 (by decide)).trans <|
    (W1_of m ρ c main_arg3 (by decide)).trans rfl
theorem carry_arg4_W8 (c : Dev nD) : W8 m ρ c (Proc.devRef .tc main_arg4) = m ((c : Thread nD τ).loc main_arg4) :=
  (W8_of_ne m ρ c main_arg4 (by decide)).trans <|
    (W7_of m ρ c main_arg4 (by decide)).trans <| (W6_of_ne m ρ c main_arg4 (by decide)).trans <|
    (W5_of m ρ c main_arg4 (by decide)).trans <| (W4_of_ne m ρ c main_arg4 (by decide)).trans <|
    (W3_of m ρ c main_arg4 (by decide)).trans <| (W2_of m ρ c main_arg4 (by decide)).trans <|
    (W1_of m ρ c main_arg4 (by decide)).trans rfl
theorem carry_arg5_W12 (c : Dev nD) : W12 m ρ c (Proc.devRef .tc main_arg5) = m ((c : Thread nD τ).loc main_arg5) :=
  (W12_of m ρ c main_arg5 (by decide)).trans <| (W11_of_ne m ρ c main_arg5 (by decide)).trans <|
    (W10_of m ρ c main_arg5 (by decide)).trans <| (W9_of_ne m ρ c main_arg5 (by decide)).trans <|
    (W8_of_ne m ρ c main_arg5 (by decide)).trans <|
    (W7_of m ρ c main_arg5 (by decide)).trans <| (W6_of_ne m ρ c main_arg5 (by decide)).trans <|
    (W5_of m ρ c main_arg5 (by decide)).trans <| (W4_of_ne m ρ c main_arg5 (by decide)).trans <|
    (W3_of m ρ c main_arg5 (by decide)).trans <| (W2_of m ρ c main_arg5 (by decide)).trans <|
    (W1_of m ρ c main_arg5 (by decide)).trans rfl

end Cert.KernelIdeal.Hand

end
-- ==== Proof.KI.Val0.lean ====
/-
  Region 0 of @main at the ideal values: after its twenty write-backs the output array is the matrix product of the
  two input arrays, row i against column j summed over the 256 contraction indices. The body's one store is the
  product of the row block it loaded with the weights; the row blocks tile the output's rows, block t holding rows
  5000·t … 5000·t + 4999.
-/
import proofs.«173455_j62955630624873_1_alg».proof.Proof.KI.D0
import proofs.«173455_j62955630624873_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

theorem Val0_zero : (![0, 0] : Fin 2 → Nat) = fun _ => 0 := funext fun a => by fin_cases a <;> rfl

/-- The matrix product of two arrays, index by index: row `i 0` of the first against column `i 1` of the second. -/
def Val0_prod (a0 : Vec Ideal S100000x256 .f32) (a1 : Vec Ideal S256x64 .f32) : Vec Ideal S100000x64 .f32 :=
  fun i => ∑ k : Fin 256, a0 (ix2 (n0 := 100000) (i 0) k) * a1 (ix2 (n1 := 64) k (i 1))

theorem Val0_lhs_0 (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem Val0_lhs_1 (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
theorem Val0_rhs_0 (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
theorem Val0_rhs_1 (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- The body's store at an index: row `p` of the loaded block against column `q` of the weights. -/
theorem out0_2_apply (x0 : Vec Ideal S5000x256 .f32) (x1 : Vec Ideal S256x64 .f32) (p : Fin 5000) (q : Fin 64) :
    out0_2 (F := Ideal) x0 x1 (ix2 p q) = ∑ k : Fin 256, x0 (ix2 p k) * x1 (ix2 k q) := by
  unfold out0_2
  rw [View.canon_unit_zero Val0_zero]
  simp only [View.ld_unit_zero (S := S5000x256) Val0_zero, View.ld_unit_zero (S := S256x64) Val0_zero]
  unfold k0_pay1
  simp only [shapeCast_self, Ideal.matmul_constant_zero_apply]
  rw [← Equiv.sum_comp (contrEquiv1 dot_S5000x256_S256x64_S5000x64_1_0_0_1_n_n 256 rfl rfl).symm]
  refine Finset.sum_congr rfl fun k _ => ?_
  have hk := contrEquiv1_symm_val dot_S5000x256_S256x64_S5000x64_1_0_0_1_n_n 256 rfl rfl k
  have el : dot_S5000x256_S256x64_S5000x64_1_0_0_1_n_n.lhsIdx (ix2 p q) ((contrEquiv1 dot_S5000x256_S256x64_S5000x64_1_0_0_1_n_n 256 rfl rfl).symm k) = ix2 p k := funext fun a => Fin.ext (by
    match a with
    | ⟨0, _⟩ => exact Val0_lhs_0 _ _
    | ⟨1, _⟩ => exact (Val0_lhs_1 _ _).trans hk)
  have er : dot_S5000x256_S256x64_S5000x64_1_0_0_1_n_n.rhsIdx (ix2 p q) ((contrEquiv1 dot_S5000x256_S256x64_S5000x64_1_0_0_1_n_n 256 rfl rfl).symm k) = ix2 k q := funext fun a => Fin.ext (by
    match a with
    | ⟨0, _⟩ => exact (Val0_rhs_0 _ _).trans hk
    | ⟨1, _⟩ => exact Val0_rhs_1 _ _)
  rw [el, er]
  rfl

theorem Val0_ref_lhs_0 (i : S100000x64.Idx) (q : Cert.ReferenceIdeal.dot_S100000x256_S256x64_S100000x64_1_0_0_1_n_n.contr.Idx) :
    (Cert.ReferenceIdeal.dot_S100000x256_S256x64_S100000x64_1_0_0_1_n_n.lhsIdx i q 0).val = (i 0).val := by
  unfold DotDims.lhsIdx
  rw [dif_neg (show ¬(0 : Fin S100000x256.rank) ∈ Cert.ReferenceIdeal.dot_S100000x256_S256x64_S100000x64_1_0_0_1_n_n.lhsBatch by decide), dif_pos (show (0 : Fin S100000x256.rank) ∈ Cert.ReferenceIdeal.dot_S100000x256_S256x64_S100000x64_1_0_0_1_n_n.lhsNonContracting by decide)]
  rfl
theorem Val0_ref_lhs_1 (i : S100000x64.Idx) (q : Cert.ReferenceIdeal.dot_S100000x256_S256x64_S100000x64_1_0_0_1_n_n.contr.Idx) :
    (Cert.ReferenceIdeal.dot_S100000x256_S256x64_S100000x64_1_0_0_1_n_n.lhsIdx i q 1).val = (q ⟨0, by decide⟩).val :=
  Cert.ReferenceIdeal.dot_S100000x256_S256x64_S100000x64_1_0_0_1_n_n.lhsIdx_val_of_single rfl i q
theorem Val0_ref_rhs_0 (i : S100000x64.Idx) (q : Cert.ReferenceIdeal.dot_S100000x256_S256x64_S100000x64_1_0_0_1_n_n.contr.Idx) :
    (Cert.ReferenceIdeal.dot_S100000x256_S256x64_S100000x64_1_0_0_1_n_n.rhsIdx i q 0).val = (q ⟨0, by decide⟩).val :=
  Cert.ReferenceIdeal.dot_S100000x256_S256x64_S100000x64_1_0_0_1_n_n.rhsIdx_val_of_single rfl i q
theorem Val0_ref_rhs_1 (i : S100000x64.Idx) (q : Cert.ReferenceIdeal.dot_S100000x256_S256x64_S100000x64_1_0_0_1_n_n.contr.Idx) :
    (Cert.ReferenceIdeal.dot_S100000x256_S256x64_S100000x64_1_0_0_1_n_n.rhsIdx i q 1).val = (i 1).val := by
  unfold DotDims.rhsIdx
  rw [dif_neg (show ¬(1 : Fin S256x64.rank) ∈ Cert.ReferenceIdeal.dot_S100000x256_S256x64_S100000x64_1_0_0_1_n_n.rhsBatch by decide), dif_pos (show (1 : Fin S256x64.rank) ∈ Cert.ReferenceIdeal.dot_S100000x256_S256x64_S100000x64_1_0_0_1_n_n.rhsNonContracting by decide)]
  rfl

/-- The host's `dot_general` of the two arrays is the same sum, index by index. -/
theorem Val0_ref (a0 : Vec Ideal S100000x256 .f32) (a1 : Vec Ideal S256x64 .f32) :
    Val0_prod a0 a1 = Host.dotGeneral (F := Ideal) (φ₁ := .f32) (φ₂ := .f32) Cert.ReferenceIdeal.dot_S100000x256_S256x64_S100000x64_1_0_0_1_n_n none a0 a1 := by
  funext i
  obtain ⟨r, s, rfl⟩ : ∃ (r : Fin 100000) (s : Fin 64), i = ix2 r s := ⟨i 0, i 1, eq_ix2 i⟩
  refine Eq.trans ?_ (Ideal.dotGeneral_apply Cert.ReferenceIdeal.dot_S100000x256_S256x64_S100000x64_1_0_0_1_n_n none .single a0 a1 (ix2 r s)).symm
  rw [← Equiv.sum_comp (contrEquiv1 Cert.ReferenceIdeal.dot_S100000x256_S256x64_S100000x64_1_0_0_1_n_n 256 rfl rfl).symm]
  show ∑ k : Fin 256, a0 (ix2 r k) * a1 (ix2 k s) = _
  refine Finset.sum_congr rfl fun k _ => ?_
  have hk := contrEquiv1_symm_val Cert.ReferenceIdeal.dot_S100000x256_S256x64_S100000x64_1_0_0_1_n_n 256 rfl rfl k
  have el : Cert.ReferenceIdeal.dot_S100000x256_S256x64_S100000x64_1_0_0_1_n_n.lhsIdx (ix2 r s) ((contrEquiv1 Cert.ReferenceIdeal.dot_S100000x256_S256x64_S100000x64_1_0_0_1_n_n 256 rfl rfl).symm k) = ix2 r k := funext fun a => Fin.ext (by
    match a with
    | ⟨0, _⟩ => exact Val0_ref_lhs_0 _ _
    | ⟨1, _⟩ => exact (Val0_ref_lhs_1 _ _).trans hk)
  have er : Cert.ReferenceIdeal.dot_S100000x256_S256x64_S100000x64_1_0_0_1_n_n.rhsIdx (ix2 r s) ((contrEquiv1 Cert.ReferenceIdeal.dot_S100000x256_S256x64_S100000x64_1_0_0_1_n_n 256 rfl rfl).symm k) = ix2 k s := funext fun a => Fin.ext (by
    match a with
    | ⟨0, _⟩ => exact (Val0_ref_rhs_0 _ _).trans hk
    | ⟨1, _⟩ => exact Val0_ref_rhs_1 _ _)
  rw [el, er]

/-- The store of a row block: when the loaded block is rows `n·5000 …` of the first array and the second block is the
    second array, the store at `y` is the product at row `n·5000 + y 0`, column `y 1`. -/
theorem Val0_point (a0 : Vec Ideal S100000x256 .f32) (a1 : Vec Ideal S256x64 .f32)
    (x0 : Vec Ideal S5000x256 .f32) (x1 : Vec Ideal S256x64 .f32) (n : Nat)
    (h0 : ∀ (y : S5000x256.Idx) (i : S100000x256.Idx), (i 0).val = n * 5000 + (y 0).val → (i 1).val = (y 1).val → x0 y = a0 i)
    (h1 : x1 = a1) (y : S5000x64.Idx) (i : S100000x64.Idx)
    (hi0 : (i 0).val = n * 5000 + (y 0).val) (hi1 : (i 1).val = (y 1).val) :
    out0_2 (F := Ideal) x0 x1 y = Val0_prod a0 a1 i := by
  obtain ⟨p, q, rfl⟩ : ∃ (p : Fin 5000) (q : Fin 64), y = ix2 p q := ⟨y 0, y 1, eq_ix2 y⟩
  obtain ⟨r, s, rfl⟩ : ∃ (r : Fin 100000) (s : Fin 64), i = ix2 r s := ⟨i 0, i 1, eq_ix2 i⟩
  have hr : r.val = n * 5000 + p.val := hi0
  obtain rfl : s = q := Fin.ext hi1
  rw [out0_2_apply]
  show _ = ∑ k : Fin 256, a0 (ix2 r k) * a1 (ix2 k s)
  refine Finset.sum_congr rfl fun k _ => ?_
  rw [h0 (ix2 p k) (ix2 r k) hr rfl, h1]

/-- The printed index maps over the grid: point `t` takes row block `t` of the first input and of the output, and the
    whole second input. -/
theorem win0_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The first input's block at point `t` is rows `5000·t …` of its array. -/
theorem iblk0_0_apply (c : Dev nD) (t : Fin cfg0.N) (y : S5000x256.Idx) (i : S100000x256.Idx)
    (hi0 : (i 0).val = t.val * 5000 + (y 0).val) (hi1 : (i 1).val = (y 1).val) :
    (iblk0 V c 0 t : Vec Ideal S5000x256 .f32) y = (V c main_arg0 : Vec Ideal S100000x256 .f32) i := by
  obtain ⟨e0, e1, e2, e3, e4, e5⟩ := win0_facts t
  unfold iblk0
  rw [View.read_apply]
  show V c main_arg0 _ = V c main_arg0 i
  congr 1
  funext a
  apply Fin.ext
  match a with
  | ⟨0, _⟩ => show win0_0.index t (0 : Fin 2) * 5000 + 1 * (y 0).val = (i 0).val; rw [e0, hi0]; omega
  | ⟨1, _⟩ => show win0_0.index t (1 : Fin 2) * 256 + 1 * (y 1).val = (i 1).val; rw [e1, hi1]; omega

/-- The second input's block at every point is its whole array. -/
theorem iblk0_1_eq (c : Dev nD) (t : Fin cfg0.N) :
    (iblk0 V c 1 t : Vec Ideal S256x64 .f32) = (V c main_arg2 : Vec Ideal S256x64 .f32) := by
  obtain ⟨e0, e1, e2, e3, e4, e5⟩ := win0_facts t
  funext y
  unfold iblk0
  rw [View.read_apply]
  show V c main_arg2 _ = V c main_arg2 y
  congr 1
  funext a
  apply Fin.ext
  match a with
  | ⟨0, _⟩ => show win0_1.index t (0 : Fin 2) * 256 + 1 * (y 0).val = (y 0).val; rw [e2]; omega
  | ⟨1, _⟩ => show win0_1.index t (1 : Fin 2) * 64 + 1 * (y 1).val = (y 1).val; rw [e3]; omega

/-- What point `t` writes back is block `t` of the product of the two arrays as the region finds them. -/
theorem flush0_2_read (c : Dev nD) (t : Fin cfg0.N) :
    (dat0 (F := Ideal) V c).flushed 2 t = ((cfg0.win 2).blk t).view.read (Elt Ideal) (Val0_prod (V c main_arg0) (V c main_arg2)) := by
  show (cfg0.win 2).cut (grid0.coords t) ((dat0 V c).after 2 t) = _
  rw [after0_2]
  obtain ⟨e0, e1, e2, e3, e4, e5⟩ := win0_facts t
  funext j
  rw [View.read_apply]
  refine Val0_point (V c main_arg0) (V c main_arg2) (iblk0 V c 0 t) (iblk0 V c 1 t) t.val (iblk0_0_apply V c t) (iblk0_1_eq V c t) j _ ?_ ?_
  · show win0_2.index t (0 : Fin 2) * 5000 + 1 * (j 0).val = t.val * 5000 + (j 0).val; rw [e4]; omega
  · show win0_2.index t (1 : Fin 2) * 64 + 1 * (j 1).val = (j 1).val; rw [e5]; omega

/-- Every row of the output is in the block of the point its row block names. -/
theorem cover0_2_rows (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by rw [show cfg0.N = 20 from N_0]; omega⟩, rfl⟩
  obtain ⟨e0, e1, e2, e3, e4, e5⟩ := win0_facts t
  refine ⟨t, flush0_2 t, ?_⟩
  show i ∈ ((View.whole main_v30).slice (win0_2.rect t)).set
  rw [View.set_slice_whole, Rect.mem_set_unit]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 64 ≤ (i 1).val ∧ (i 1).val < win0_2.index t (1 : Fin 2) * 64 + 64; rw [e5]; omega

/-- The output array after the region: the product of the two input arrays. -/
theorem Val0_arr (c : Dev nD) : (dat0 (F := Ideal) V c).arrAt 2 cfg0.N = Val0_prod (V c main_arg0) (V c main_arg2) :=
  (dat0 V c).arrAt_eq_of_cover 2 (Val0_prod (V c main_arg0) (V c main_arg2)) (fun t _ => flush0_2_read V c t) cover0_2_rows

/-- THE VALUE of region 0: after its write-backs the output array is the host's matrix product of the two input arrays
    as the region finds them. -/
theorem final0 (c : Dev nD) :
    (dat0 (F := Ideal) V c).arrAt 2 cfg0.N = Host.dotGeneral (F := Ideal) (φ₁ := .f32) (φ₂ := .f32) Cert.ReferenceIdeal.dot_S100000x256_S256x64_S100000x64_1_0_0_1_n_n none (V c main_arg0) (V c main_arg2) :=
  (Val0_arr V c).trans (Val0_ref _ _)

end Cert.KernelIdeal.Hand

end
-- ==== Proof.KI.Val1.lean ====
/-
  Region 1 of @main (the per-edge scaling) at its value: after the region's 208 write-backs, the last one cut to the
  4,256 rows left of the array, the output array holds the row-wise product of the gathered rows and the per-edge
  factors — the first input read at an index times the second read at the index's row — which is how the host's
  program spells `h[src] * norm[:, None]`: the factors broadcast to a column, the column along the 64 lanes, the
  product taken entry by entry.

  How: the body's payload at an index (two casts of a shape to itself, the cast of the factors to a column, the column's
  broadcast along the lanes, the product); what the body leaves in the output's staging buffer on the rows the
  write-back moves (the two input buffers there hold their blocks' entries, whatever fills them out past the array's
  end); the three windows move with one index map and are cut alike, so each point writes back its block of ONE function
  of the two arrays; the blocks cover the array (row `r` is in block `r / 8192`).
-/
import proofs.«173455_j62955630624873_1_alg».proof.Proof.KI.D1
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

/-! ## The body's payload at an index -/

private theorem zero_off2 : (![0, 0] : Fin 2 → Nat) = fun _ => 0 := funext fun a => by fin_cases a <;> rfl
private theorem zero_off1 : (![0] : Fin 1 → Nat) = fun _ => 0 := funext fun a => by fin_cases a; rfl

/-- An `[a]` vector cast to the column `[a, 1]` reads, at `(i, u)`, the operand at `i`. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column's entry of row `p`. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's payload at row `r`, lane `j`: the gathered entry there times the row's factor. -/
theorem k1_pay1_at (v0 : Vec F S8192 .f32) (v2 : Vec F S8192x64 .f32) (r : Fin 8192) (j : Fin 64) :
    k1_pay1 v0 v2 (ix2 r j) = FloatOps.mulf (v2 (ix2 r j)) (v0 (ix1 r)) := by
  unfold k1_pay1
  show FloatOps.mulf (shapeCast S8192x64 v2 shapeCasts_S8192x64_S8192x64 (ix2 r j))
      (broadcastTo S8192x64 (shapeCast S8192x1 (shapeCast S8192 v0 shapeCasts_S8192_S8192) shapeCasts_S8192_S8192x1)
        broadcasts_S8192x1_S8192x64 (ix2 r j)) = _
  rw [shapeCast_self, shapeCast_self, broadcastTo_a1_ab_apply, shapeCast_a_a1_apply]

/-- The output's staging buffer after the body, at row `r`, lane `j`. -/
theorem out1_2_at (x0 : Vec F S8192x64 .f32) (x1 : Vec F S8192 .f32) (r : Fin 8192) (j : Fin 64) :
    out1_2 x0 x1 (ix2 r j) = FloatOps.mulf (x0 (ix2 r j)) (x1 (ix1 r)) := by
  unfold out1_2
  rw [View.canon_unit_zero zero_off2]
  simp only [View.ld_unit_zero (S := S8192x64) zero_off2, View.ld_unit_zero (S := S8192) zero_off1]
  exact k1_pay1_at _ _ r j

/-! ## What a point writes back -/

/-- A filled-out block read inside the part the transfer moves is the block's entry there. -/
private theorem fill_apply_of_lt {G : Pipeline.Grid} (w : Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Window.fill; rw [dif_pos ((w.moved_iff i j).mpr h)]

/-- The product of the gathered rows and the per-edge factors, index by index. -/
def out1_arr (a0 : S1700000x64.Idx → Elt F .f32) (a1 : S1700000.Idx → Elt F .f32) : S1700000x64.Idx → Elt F .f32 :=
  fun i => FloatOps.mulf (a0 i) (a1 (ix1 (n := 1700000) (i 0)))

variable (V : (c : Dev nD) → (b : Ref sig .tc) → Buf (Elt F) ((c : Thread nD τ).loc b))

/-- The gathered rows' staging buffer, inside the part the transfers move, holds the array's entries the output's
    block names (the two windows have one index map and are cut alike). -/
theorem fblk1_0_apply (c : Dev nD) (t : Fin cfg1.N) (y : ((cfg1.win 2).xblock (grid1.coords t)).Idx) :
    fblk1 V c 0 t (zfill1 0) ((cfg1.win 2).xinj (grid1.coords t) y) = V c main_v37 (((cfg1.win 2).blk t).view.emb y) := by
  unfold fblk1
  refine ((cfg1.win 0).fill_xinj (grid1.coords t) (zfill1 0) (iblk1 V c 0 t) y).trans ?_
  show V c main_v37 (((cfg1.win 0).blk t).view.emb y) = V c main_v37 (((cfg1.win 2).blk t).view.emb y)
  rfl

/-- The factors' staging buffer at a row the transfers move holds the factor of the output block's row. -/
theorem fblk1_1_apply (c : Dev nD) (t : Fin cfg1.N) (y : ((cfg1.win 2).xblock (grid1.coords t)).Idx) :
    fblk1 V c 1 t (zfill1 1) (ix1 ((cfg1.win 2).xinj (grid1.coords t) y 0))
      = V c main_v29 (ix1 (n := 1700000) (((cfg1.win 2).blk t).view.emb y 0)) := by
  unfold fblk1
  refine (fill_apply_of_lt (cfg1.win 1) (grid1.coords t) (zfill1 1) (iblk1 V c 1 t) _ (fun a => by
    match a with
    | ⟨0, _⟩ => exact (y 0).isLt)).trans ?_
  show V c main_v29 (((cfg1.win 1).blk t).view.emb _) = _
  congr 1
  funext a
  apply Fin.ext
  match a with
  | ⟨0, _⟩ => rfl

/-- WHAT POINT `t` WRITES BACK is block `t`, cut at the array's end, of the row-wise product. -/
theorem after1_2_cut (c : Dev nD) (t : Fin cfg1.N) :
    (dat1 V c).flushed 2 t = ((cfg1.win 2).blk t).view.read (Elt F) (out1_arr (V c main_v37) (V c main_v29)) := by
  show (cfg1.win 2).cut (grid1.coords t) ((dat1 V c).after 2 t) = _
  rw [after1_2]
  funext y
  show out1_2 (fblk1 V c 0 t (zfill1 0)) (fblk1 V c 1 t (zfill1 1)) ((cfg1.win 2).xinj (grid1.coords t) y)
    = out1_arr (V c main_v37) (V c main_v29) (((cfg1.win 2).blk t).view.emb y)
  refine (congrArg (out1_2 _ _) (eq_ix2 _)).trans ((out1_2_at _ _ _ _).trans ?_)
  unfold out1_arr
  rw [fblk1_1_apply V c t y]
  refine congrArg (fun z => FloatOps.mulf z _) ?_
  exact (congrArg (fblk1 V c 0 t (zfill1 0)) (eq_ix2 _).symm).trans (fblk1_0_apply V c t y)

/-! ## From blocks to the array -/

/-- The output's index map and cuts, decided over the grid: point `t` has block row `t`, all 64 lanes, and moves 8,192
    rows but for the last point, which moves the 4,256 rows left of the array. -/
theorem win1_2_facts : ∀ t : Fin cfg1.N, win1_2.index t (0 : Fin 2) = t.val ∧ win1_2.index t (1 : Fin 2) = 0
    ∧ win1_2.xsize (grid1.coords t) (0 : Fin 2) = (if t.val = 207 then 4256 else 8192)
    ∧ win1_2.xsize (grid1.coords t) (1 : Fin 2) = 64 :=
  (by decide +kernel : ∀ t : Fin grid1.N, _)

/-- An index of the array is in point `t`'s block iff each coordinate is in the cut block's range on its axis. -/
theorem win1_2_mem_blk (t : Fin cfg1.N) (i : S1700000x64.Idx) :
    i ∈ ((cfg1.win 2).blk t).view.set ↔ ∀ a : Fin 2, win1_2.index t a * S8192x64.size a ≤ (i a).val
      ∧ (i a).val < win1_2.index t a * S8192x64.size a + win1_2.xsize (grid1.coords t) a := by
  show i ∈ ((View.whole main_v38).slice (win1_2.rect t)).set ↔ _
  rw [View.set_slice_whole, Rect.mem_set_unit]
  exact Iff.rfl

/-- Every index of the array is in the block of the point its row names: row `r` is in block `r / 8192`, and the last
    block's rows stop where the array does (1,700,000 = 207 · 8,192 + 4,256). -/
theorem cover1_2_arr (i : S1700000x64.Idx) :
    ∃ t : Fin cfg1.N, (cfg1.win 2).flush t = true ∧ i ∈ ((cfg1.win 2).blk t).view.set := by
  have hi0 : (i 0).val < 1700000 := (i 0).isLt
  have hi1 : (i 1).val < 64 := (i 1).isLt
  have hN : cfg1.N = 208 := N_1
  have ht : (i 0).val / 8192 < cfg1.N := by rw [hN]; omega
  obtain ⟨e0, e1, e2, e3⟩ := win1_2_facts ⟨(i 0).val / 8192, ht⟩
  refine ⟨⟨(i 0).val / 8192, ht⟩, flush1_2 _, ?_⟩
  rw [win1_2_mem_blk]
  intro a
  match a with
  | ⟨0, _⟩ =>
    show win1_2.index ⟨(i 0).val / 8192, ht⟩ (0 : Fin 2) * 8192 ≤ (i 0).val
      ∧ (i 0).val < win1_2.index ⟨(i 0).val / 8192, ht⟩ (0 : Fin 2) * 8192 + win1_2.xsize (grid1.coords ⟨(i 0).val / 8192, ht⟩) (0 : Fin 2)
    rw [e0, e2]
    show (i 0).val / 8192 * 8192 ≤ (i 0).val
      ∧ (i 0).val < (i 0).val / 8192 * 8192 + (if (i 0).val / 8192 = 207 then 4256 else 8192)
    split <;> omega
  | ⟨1, _⟩ =>
    show win1_2.index ⟨(i 0).val / 8192, ht⟩ (1 : Fin 2) * 64 ≤ (i 1).val
      ∧ (i 1).val < win1_2.index ⟨(i 0).val / 8192, ht⟩ (1 : Fin 2) * 64 + win1_2.xsize (grid1.coords ⟨(i 0).val / 8192, ht⟩) (1 : Fin 2)
    rw [e1, e3]; omega

/-- THE ARRAY after the region's 208 write-backs: the row-wise product, every row of it. -/
theorem final1_blocks (c : Dev nD) : (dat1 V c).arrAt 2 cfg1.N = out1_arr (V c main_v37) (V c main_v29) :=
  (dat1 V c).arrAt_eq_of_cover 2 (out1_arr (V c main_v37) (V c main_v29)) (fun t _ => after1_2_cut V c t) cover1_2_arr

/-! ## The product as the host spells it -/

/-- The row-wise product is the entry-by-entry product with the factors broadcast to a column and the column along the
    lanes (`hb`: the second broadcast's side condition, whichever program's record proves it). -/
theorem out1_arr_eq (a0 : S1700000x64.Idx → Elt F .f32) (a1 : S1700000.Idx → Elt F .f32)
    (hb : S1700000x1.BroadcastsInDim S1700000x64 (![0, 1] : Fin 2 → Fin S1700000x64.rank)) :
    out1_arr a0 a1 = mulf (s := S1700000x64) (φ := .f32) a0
      (broadcastInDim S1700000x64 ![0, 1] hb (broadcastInDim S1700000x1 ![0] bcast_S1700000_S1700000x1_0 a1)) := by
  funext i
  unfold out1_arr
  show FloatOps.mulf (a0 i) (a1 (ix1 (n := 1700000) (i 0)))
    = FloatOps.mulf (a0 i) (broadcastInDim S1700000x64 ![0, 1] hb (broadcastInDim S1700000x1 ![0] bcast_S1700000_S1700000x1_0 a1) i)
  refine congrArg (FloatOps.mulf (a0 i)) (Eq.symm ?_)
  refine (broadcastInDim_apply _ hb _ i (ix2 (n0 := 1700000) (n1 := 1) (i 0) 0) (fun a => match a with
    | ⟨0, _⟩ => by show (i 0).val = if (1700000 : Nat) = 1 then 0 else (i 0).val; rw [if_neg (by decide)]
    | ⟨1, _⟩ => by show 0 = if (1 : Nat) = 1 then 0 else (i 1).val; rw [if_pos rfl])).trans ?_
  exact broadcastInDim_apply _ bcast_S1700000_S1700000x1_0 a1 _ (ix1 (n := 1700000) (i 0)) (fun a => match a with
    | ⟨0, _⟩ => by show (i 0).val = if (1700000 : Nat) = 1 then 0 else (i 0).val; rw [if_neg (by decide)])

/-- THE VALUE of region 1 at the extended reals: the output array after the region is the host's row-wise product of
    the region's two input arrays as it finds them. -/
theorem final1 (V : (c : Dev nD) → (b : Ref sig .tc) → Buf (Elt Ideal) ((c : Thread nD τ).loc b)) (c : Dev nD)
    (hb : S1700000x1.BroadcastsInDim S1700000x64 (![0, 1] : Fin 2 → Fin S1700000x64.rank)) :
    (dat1 (F := Ideal) V c).arrAt 2 cfg1.N = mulf (F := Ideal) (s := S1700000x64) (φ := .f32) (V c main_v37)
      (broadcastInDim S1700000x64 ![0, 1] hb (broadcastInDim S1700000x1 ![0] bcast_S1700000_S1700000x1_0 (V c main_v29))) :=
  (final1_blocks V c).trans (out1_arr_eq (V c main_v37) (V c main_v29) hb)

end Cert.KernelIdeal.Hand

end
-- ==== Proof.KI.Val2.lean ====
/-
  Region 2 of @main at the ideal floats: the array its twenty write-backs leave is the bias added to every row of the
  aggregate and the negative entries replaced by zero, index by index — the host's broadcast of the bias, its add and
  its maximum against a broadcast zero.
-/
import proofs.«173455_j62955630624873_1_alg».proof.Proof.KI.D2
import proofs.«173455_j62955630624873_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

theorem r2_hz : (![0, 0] : Fin 2 → Nat) = fun _ => 0 := funext fun a => by fin_cases a <;> rfl
theorem r2_hz1 : (![0] : Fin 1 → Nat) = fun _ => 0 := funext fun a => by fin_cases a; rfl

/-- The host's term: the bias broadcast over the rows, added, and the maximum against a broadcast zero. -/
abbrev out2_host (a : S100000x64.Idx → Elt Ideal .f32) (b : S64.Idx → Elt Ideal .f32) : S100000x64.Idx → Elt Ideal .f32 :=
  maximumf (addf a (broadcastInDim S100000x64 ![0, 1] Cert.ReferenceIdeal.Gen.bcast_S1x64_S100000x64_0_1 (broadcastInDim S1x64 ![1] Cert.ReferenceIdeal.Gen.bcast_S64_S1x64_1 b))) (broadcastInDim S100000x64 ![] bcast_S_S100000x64 (constant (F := Ideal) S_ .f32 0x00000000#32))

/-- The host's term at row `r`, column `q`: the entry plus the bias of its column, or zero if that is negative. -/
theorem out2_host_apply (a : S100000x64.Idx → Elt Ideal .f32) (b : S64.Idx → Elt Ideal .f32) (r : Fin 100000) (q : Fin 64) :
    out2_host a b (ix2 r q) = max (a (ix2 r q) + b (ix1 q)) (Ideal.ofBits .f32 0x00000000#32) := by
  show max (a (ix2 r q) + broadcastInDim S100000x64 ![0, 1] Cert.ReferenceIdeal.Gen.bcast_S1x64_S100000x64_0_1 (broadcastInDim S1x64 ![1] Cert.ReferenceIdeal.Gen.bcast_S64_S1x64_1 b) (ix2 r q))
      (broadcastInDim S100000x64 ![] bcast_S_S100000x64 (constant (F := Ideal) S_ .f32 0x00000000#32) (ix2 r q)) = _
  rw [broadcastInDim_apply _ Cert.ReferenceIdeal.Gen.bcast_S1x64_S100000x64_0_1 _ (ix2 r q) (ix2 (0 : Fin 1) q) (fun ax => match ax with
        | ⟨0, _⟩ => by show 0 = if (1 : Nat) = 1 then 0 else r.val; rw [if_pos rfl]
        | ⟨1, _⟩ => by show q.val = if (64 : Nat) = 1 then 0 else q.val; rw [if_neg (by decide)]),
      broadcastInDim_apply _ Cert.ReferenceIdeal.Gen.bcast_S64_S1x64_1 b (ix2 (0 : Fin 1) q) (ix1 q) (fun ax => match ax with
        | ⟨0, _⟩ => by show q.val = if (64 : Nat) = 1 then 0 else q.val; rw [if_neg (by decide)]),
      broadcastInDim_apply _ bcast_S_S100000x64 _ (ix2 r q) ix0 (fun ax => ax.elim0)]
  rfl

/-- The body's payload at row `p`, column `q` of its block: the same of the block's entry and the bias. -/
theorem k2_pay1_apply (x0 : Vec Ideal S5000x64 .f32) (x1 : Vec Ideal S64 .f32) (p : Fin 5000) (q : Fin 64) :
    k2_pay1 x0 x1 (ix2 p q) = max (x0 (ix2 p q) + x1 (ix1 q)) (Ideal.ofBits .f32 0x00000000#32) := by
  unfold k2_pay1
  show max (shapeCast S5000x64 x0 shapeCasts_S5000x64_S5000x64 (ix2 p q)
      + broadcastTo S5000x64 (shapeCast S1x64 x1 shapeCasts_S64_S1x64) broadcasts_S1x64_S5000x64 (ix2 p q)) _ = _
  rw [shapeCast_self, broadcastTo_1b_ab_apply, shapeCast_a_1a_apply]
  rfl

/-- What the body leaves in the output's staging buffer, at an index: its one whole store of the payload. -/
theorem out2_2_apply (x0 : Vec Ideal S5000x64 .f32) (x1 : Vec Ideal S64 .f32) (p : Fin 5000) (q : Fin 64) :
    out2_2 x0 x1 (ix2 p q) = max (x0 (ix2 p q) + x1 (ix1 q)) (Ideal.ofBits .f32 0x00000000#32) := by
  unfold out2_2
  rw [View.canon_unit_zero r2_hz]
  simp only [View.ld_unit_zero (S := S5000x64) r2_hz, View.ld_unit_zero (S := S64) r2_hz1]
  exact k2_pay1_apply x0 x1 p q

/-- The printed index maps over the grid: the row windows are at block row `t`, column block 0; the bias at block 0. -/
theorem win2_idx : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- The row window's block at point `t` is rows `5000 t … 5000 t + 4999` of the aggregate. -/
theorem iblk2_0_apply (c : Dev nD) (t : Fin cfg2.N) (p : Fin 5000) (q : Fin 64) (r : Fin 100000) (hr : r.val = t.val * 5000 + p.val) :
    (iblk2 V c 0 t : Vec Ideal S5000x64 .f32) (ix2 p q) = (V c main_v41 : S100000x64.Idx → Elt Ideal .f32) (ix2 r q) := by
  obtain ⟨e0, e1, e2, e3, e4⟩ := win2_idx t
  unfold iblk2
  rw [View.read_apply]
  show V c main_v41 _ = V c main_v41 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 64 + 1 * q.val = q.val; rw [e1]; omega

/-- The bias window's block is the bias, at every point. -/
theorem iblk2_1_apply (c : Dev nD) (t : Fin cfg2.N) (q : Fin 64) :
    (iblk2 V c 1 t : Vec Ideal S64 .f32) (ix1 q) = (V c main_arg3 : S64.Idx → Elt Ideal .f32) (ix1 q) := by
  obtain ⟨e0, e1, e2, e3, e4⟩ := win2_idx t
  unfold iblk2
  rw [View.read_apply]
  show V c main_arg3 _ = V c main_arg3 _
  congr 1
  funext a
  apply Fin.ext
  match a with
  | ⟨0, _⟩ => show win2_1.index t (0 : Fin 1) * 64 + 1 * q.val = q.val; rw [e2]; omega

/-- WHAT POINT `t` WRITES BACK is block `t` of the host's term of the aggregate and the bias as the region finds them. -/
theorem flush2_2_eq (c : Dev nD) (t : Fin cfg2.N) :
    (dat2 (F := Ideal) V c).flushed 2 t = ((cfg2.win 2).blk t).view.read (Elt Ideal) (out2_host (V c main_v41) (V c main_arg3)) := by
  show (cfg2.win 2).cut (grid2.coords t) ((dat2 V c).after 2 t) = _
  rw [after2_2]
  obtain ⟨e0, e1, e2, e3, e4⟩ := win2_idx t
  have ht : t.val < 20 := Nat.lt_of_lt_of_eq t.isLt (show cfg2.N = 20 from N_2)
  funext j
  have hj0 : (j 0).val < 5000 := (j 0).isLt
  have hj1 : (j 1).val < 64 := (j 1).isLt
  have hr : t.val * 5000 + (j 0).val < 100000 := by omega
  have ex : (cfg2.win 2).xinj (grid2.coords t) j = ix2 (⟨(j 0).val, hj0⟩ : Fin 5000) (⟨(j 1).val, hj1⟩ : Fin 64) :=
    funext fun a => match a with | ⟨0, _⟩ => rfl | ⟨1, _⟩ => rfl
  have ei : ((cfg2.win 2).blk t).view.emb j = ix2 (⟨t.val * 5000 + (j 0).val, hr⟩ : Fin 100000) (⟨(j 1).val, hj1⟩ : Fin 64) := by
    funext a
    apply Fin.ext
    match a with
    | ⟨0, _⟩ => show win2_2.index t (0 : Fin 2) * 5000 + 1 * (j 0).val = t.val * 5000 + (j 0).val; rw [e3]; omega
    | ⟨1, _⟩ => show win2_2.index t (1 : Fin 2) * 64 + 1 * (j 1).val = (j 1).val; rw [e4]; omega
  show out2_2 (iblk2 V c 0 t) (iblk2 V c 1 t) ((cfg2.win 2).xinj (grid2.coords t) j) = out2_host (V c main_v41) (V c main_arg3) (((cfg2.win 2).blk t).view.emb j)
  rw [ex, ei]
  refine (out2_2_apply (iblk2 V c 0 t) (iblk2 V c 1 t) ⟨(j 0).val, hj0⟩ ⟨(j 1).val, hj1⟩).trans ?_
  refine Eq.trans ?_ (out2_host_apply (V c main_v41) (V c main_arg3) ⟨t.val * 5000 + (j 0).val, hr⟩ ⟨(j 1).val, hj1⟩).symm
  rw [iblk2_0_apply V c t ⟨(j 0).val, hj0⟩ ⟨(j 1).val, hj1⟩ ⟨t.val * 5000 + (j 0).val, hr⟩ rfl, iblk2_1_apply V c t ⟨(j 1).val, hj1⟩]

/-- An index of the array is in point `t`'s block iff each coordinate is in the block's range on its axis. -/
theorem win2_2_mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v42).slice (win2_2.rect t)).set ↔ _
  rw [View.set_slice_whole, Rect.mem_set_unit]
  exact Iff.rfl

/-- Row `r` of the array is in the block of point `r / 5000`: the twenty blocks tile it. -/
theorem cover2_rows (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_2 _, ?_⟩
  rw [win2_2_mem_blk]
  obtain ⟨e0, e1, e2, e3, e4⟩ := win2_idx ⟨(i 0).val / 5000, by rw [hN]; omega⟩
  intro a
  match a with
  | ⟨0, _⟩ =>
    show win2_2.index _ (0 : Fin 2) * 5000 ≤ (i 0).val ∧ (i 0).val < win2_2.index _ (0 : Fin 2) * 5000 + 5000
    rw [e3]; show (i 0).val / 5000 * 5000 ≤ (i 0).val ∧ (i 0).val < (i 0).val / 5000 * 5000 + 5000; omega
  | ⟨1, _⟩ =>
    show win2_2.index _ (1 : Fin 2) * 64 ≤ (i 1).val ∧ (i 1).val < win2_2.index _ (1 : Fin 2) * 64 + 64
    rw [e4]; omega

/-- THE ARRAY after region 2's twenty write-backs: the host's bias-add and ReLU of the aggregate. -/
theorem final2 (c : Dev nD) :
    (dat2 (F := Ideal) V c).arrAt 2 cfg2.N = maximumf (addf (V c main_v41) (broadcastInDim S100000x64 ![0, 1] Cert.ReferenceIdeal.Gen.bcast_S1x64_S100000x64_0_1 (broadcastInDim S1x64 ![1] Cert.ReferenceIdeal.Gen.bcast_S64_S1x64_1 (V c main_arg3)))) (broadcastInDim S100000x64 ![] bcast_S_S100000x64 (constant (F := Ideal) S_ .f32 0x00000000#32)) :=
  (dat2 (F := Ideal) V c).arrAt_eq_of_cover 2 (out2_host (V c main_v41) (V c main_arg3)) (fun t _ => flush2_2_eq V c t) (cover2_rows)

end Cert.KernelIdeal.Hand

end
-- ==== Proof.KI.Val3.lean ====
/-
  Region 3 of @main at the ideal values: after its twenty write-backs the output array is the matrix product of the
  two input arrays, row i against column j summed over the 64 contraction indices. The body's one store is the
  product of the row block it loaded with the weights; the row blocks tile the output's rows, block t holding rows
  5000·t … 5000·t + 4999.
-/
import proofs.«173455_j62955630624873_1_alg».proof.Proof.KI.D3
import proofs.«173455_j62955630624873_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

theorem Val3_zero : (![0, 0] : Fin 2 → Nat) = fun _ => 0 := funext fun a => by fin_cases a <;> rfl

/-- The matrix product of two arrays, index by index: row `i 0` of the first against column `i 1` of the second. -/
def Val3_prod (a0 : Vec Ideal S100000x64 .f32) (a1 : Vec Ideal S64x64 .f32) : Vec Ideal S100000x64 .f32 :=
  fun i => ∑ k : Fin 64, a0 (ix2 (n0 := 100000) (i 0) k) * a1 (ix2 (n1 := 64) k (i 1))

theorem Val3_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem Val3_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem Val3_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem Val3_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's store at an index: row `p` of the loaded block against column `q` of the weights. -/
theorem out3_2_apply (x0 : Vec Ideal S5000x64 .f32) (x1 : Vec Ideal S64x64 .f32) (p : Fin 5000) (q : Fin 64) :
    out3_2 (F := Ideal) x0 x1 (ix2 p q) = ∑ k : Fin 64, x0 (ix2 p k) * x1 (ix2 k q) := by
  unfold out3_2
  rw [View.canon_unit_zero Val3_zero]
  simp only [View.ld_unit_zero (S := S5000x64) Val3_zero, View.ld_unit_zero (S := S64x64) Val3_zero]
  unfold k3_pay1
  simp only [shapeCast_self, Ideal.matmul_constant_zero_apply]
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact Val3_lhs_0 _ _
    | ⟨1, _⟩ => exact (Val3_lhs_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (Val3_rhs_0 _ _).trans hk
    | ⟨1, _⟩ => exact Val3_rhs_1 _ _)
  rw [el, er]
  rfl

theorem Val3_ref_lhs_0 (i : S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin S100000x64.rank) ∈ Cert.ReferenceIdeal.dot_S100000x64_S64x64_S100000x64_1_0_0_1_n_n.lhsBatch by decide), dif_pos (show (0 : Fin S100000x64.rank) ∈ Cert.ReferenceIdeal.dot_S100000x64_S64x64_S100000x64_1_0_0_1_n_n.lhsNonContracting by decide)]
  rfl
theorem Val3_ref_lhs_1 (i : S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem Val3_ref_rhs_0 (i : S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem Val3_ref_rhs_1 (i : S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin S64x64.rank) ∈ Cert.ReferenceIdeal.dot_S100000x64_S64x64_S100000x64_1_0_0_1_n_n.rhsBatch by decide), dif_pos (show (1 : Fin S64x64.rank) ∈ Cert.ReferenceIdeal.dot_S100000x64_S64x64_S100000x64_1_0_0_1_n_n.rhsNonContracting by decide)]
  rfl

/-- The host's `dot_general` of the two arrays is the same sum, index by index. -/
theorem Val3_ref (a0 : Vec Ideal S100000x64 .f32) (a1 : Vec Ideal S64x64 .f32) :
    Val3_prod a0 a1 = Host.dotGeneral (F := Ideal) (φ₁ := .f32) (φ₂ := .f32) Cert.ReferenceIdeal.dot_S100000x64_S64x64_S100000x64_1_0_0_1_n_n none a0 a1 := by
  funext i
  obtain ⟨r, s, rfl⟩ : ∃ (r : Fin 100000) (s : Fin 64), i = ix2 r s := ⟨i 0, i 1, eq_ix2 i⟩
  refine Eq.trans ?_ (Ideal.dotGeneral_apply Cert.ReferenceIdeal.dot_S100000x64_S64x64_S100000x64_1_0_0_1_n_n none .single a0 a1 (ix2 r s)).symm
  rw [← Equiv.sum_comp (contrEquiv1 Cert.ReferenceIdeal.dot_S100000x64_S64x64_S100000x64_1_0_0_1_n_n 64 rfl rfl).symm]
  show ∑ k : Fin 64, a0 (ix2 r k) * a1 (ix2 k s) = _
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 r s) ((contrEquiv1 Cert.ReferenceIdeal.dot_S100000x64_S64x64_S100000x64_1_0_0_1_n_n 64 rfl rfl).symm k) = ix2 r k := funext fun a => Fin.ext (by
    match a with
    | ⟨0, _⟩ => exact Val3_ref_lhs_0 _ _
    | ⟨1, _⟩ => exact (Val3_ref_lhs_1 _ _).trans hk)
  have er : Cert.ReferenceIdeal.dot_S100000x64_S64x64_S100000x64_1_0_0_1_n_n.rhsIdx (ix2 r s) ((contrEquiv1 Cert.ReferenceIdeal.dot_S100000x64_S64x64_S100000x64_1_0_0_1_n_n 64 rfl rfl).symm k) = ix2 k s := funext fun a => Fin.ext (by
    match a with
    | ⟨0, _⟩ => exact (Val3_ref_rhs_0 _ _).trans hk
    | ⟨1, _⟩ => exact Val3_ref_rhs_1 _ _)
  rw [el, er]

/-- The store of a row block: when the loaded block is rows `n·5000 …` of the first array and the second block is the
    second array, the store at `y` is the product at row `n·5000 + y 0`, column `y 1`. -/
theorem Val3_point (a0 : Vec Ideal S100000x64 .f32) (a1 : Vec Ideal S64x64 .f32)
    (x0 : Vec Ideal S5000x64 .f32) (x1 : Vec Ideal S64x64 .f32) (n : Nat)
    (h0 : ∀ (y : S5000x64.Idx) (i : S100000x64.Idx), (i 0).val = n * 5000 + (y 0).val → (i 1).val = (y 1).val → x0 y = a0 i)
    (h1 : x1 = a1) (y : S5000x64.Idx) (i : S100000x64.Idx)
    (hi0 : (i 0).val = n * 5000 + (y 0).val) (hi1 : (i 1).val = (y 1).val) :
    out3_2 (F := Ideal) x0 x1 y = Val3_prod a0 a1 i := by
  obtain ⟨p, q, rfl⟩ : ∃ (p : Fin 5000) (q : Fin 64), y = ix2 p q := ⟨y 0, y 1, eq_ix2 y⟩
  obtain ⟨r, s, rfl⟩ : ∃ (r : Fin 100000) (s : Fin 64), i = ix2 r s := ⟨i 0, i 1, eq_ix2 i⟩
  have hr : r.val = n * 5000 + p.val := hi0
  obtain rfl : s = q := Fin.ext hi1
  rw [out3_2_apply]
  show _ = ∑ k : Fin 64, a0 (ix2 r k) * a1 (ix2 k s)
  refine Finset.sum_congr rfl fun k _ => ?_
  rw [h0 (ix2 p k) (ix2 r k) hr rfl, h1]

/-- The printed index maps over the grid: point `t` takes row block `t` of the first input and of the output, and the
    whole second input. -/
theorem win3_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- The first input's block at point `t` is rows `5000·t …` of its array. -/
theorem iblk3_0_apply (c : Dev nD) (t : Fin cfg3.N) (y : S5000x64.Idx) (i : S100000x64.Idx)
    (hi0 : (i 0).val = t.val * 5000 + (y 0).val) (hi1 : (i 1).val = (y 1).val) :
    (iblk3 V c 0 t : Vec Ideal S5000x64 .f32) y = (V c main_v42 : Vec Ideal S100000x64 .f32) i := by
  obtain ⟨e0, e1, e2, e3, e4, e5⟩ := win3_facts t
  unfold iblk3
  rw [View.read_apply]
  show V c main_v42 _ = V c main_v42 i
  congr 1
  funext a
  apply Fin.ext
  match a with
  | ⟨0, _⟩ => show win3_0.index t (0 : Fin 2) * 5000 + 1 * (y 0).val = (i 0).val; rw [e0, hi0]; omega
  | ⟨1, _⟩ => show win3_0.index t (1 : Fin 2) * 64 + 1 * (y 1).val = (i 1).val; rw [e1, hi1]; omega

/-- The second input's block at every point is its whole array. -/
theorem iblk3_1_eq (c : Dev nD) (t : Fin cfg3.N) :
    (iblk3 V c 1 t : Vec Ideal S64x64 .f32) = (V c main_arg4 : Vec Ideal S64x64 .f32) := by
  obtain ⟨e0, e1, e2, e3, e4, e5⟩ := win3_facts t
  funext y
  unfold iblk3
  rw [View.read_apply]
  show V c main_arg4 _ = V c main_arg4 y
  congr 1
  funext a
  apply Fin.ext
  match a with
  | ⟨0, _⟩ => show win3_1.index t (0 : Fin 2) * 64 + 1 * (y 0).val = (y 0).val; rw [e2]; omega
  | ⟨1, _⟩ => show win3_1.index t (1 : Fin 2) * 64 + 1 * (y 1).val = (y 1).val; rw [e3]; omega

/-- What point `t` writes back is block `t` of the product of the two arrays as the region finds them. -/
theorem flush3_2_read (c : Dev nD) (t : Fin cfg3.N) :
    (dat3 (F := Ideal) V c).flushed 2 t = ((cfg3.win 2).blk t).view.read (Elt Ideal) (Val3_prod (V c main_v42) (V c main_arg4)) := by
  show (cfg3.win 2).cut (grid3.coords t) ((dat3 V c).after 2 t) = _
  rw [after3_2]
  obtain ⟨e0, e1, e2, e3, e4, e5⟩ := win3_facts t
  funext j
  rw [View.read_apply]
  refine Val3_point (V c main_v42) (V c main_arg4) (iblk3 V c 0 t) (iblk3 V c 1 t) t.val (iblk3_0_apply V c t) (iblk3_1_eq V c t) j _ ?_ ?_
  · show win3_2.index t (0 : Fin 2) * 5000 + 1 * (j 0).val = t.val * 5000 + (j 0).val; rw [e4]; omega
  · show win3_2.index t (1 : Fin 2) * 64 + 1 * (j 1).val = (j 1).val; rw [e5]; omega

/-- Every row of the output is in the block of the point its row block names. -/
theorem cover3_2_rows (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ : ∃ t : Fin cfg3.N, t.val = (i 0).val / 5000 :=
    ⟨⟨(i 0).val / 5000, by rw [show cfg3.N = 20 from N_3]; omega⟩, rfl⟩
  obtain ⟨e0, e1, e2, e3, e4, e5⟩ := win3_facts t
  refine ⟨t, flush3_2 t, ?_⟩
  show i ∈ ((View.whole main_v43).slice (win3_2.rect t)).set
  rw [View.set_slice_whole, Rect.mem_set_unit]
  intro a
  match a with
  | ⟨0, _⟩ => show win3_2.index t (0 : Fin 2) * 5000 ≤ (i 0).val ∧ (i 0).val < win3_2.index t (0 : Fin 2) * 5000 + 5000; rw [e4, ht]; omega
  | ⟨1, _⟩ => show win3_2.index t (1 : Fin 2) * 64 ≤ (i 1).val ∧ (i 1).val < win3_2.index t (1 : Fin 2) * 64 + 64; rw [e5]; omega

/-- The output array after the region: the product of the two input arrays. -/
theorem Val3_arr (c : Dev nD) : (dat3 (F := Ideal) V c).arrAt 2 cfg3.N = Val3_prod (V c main_v42) (V c main_arg4) :=
  (dat3 V c).arrAt_eq_of_cover 2 (Val3_prod (V c main_v42) (V c main_arg4)) (fun t _ => flush3_2_read V c t) cover3_2_rows

/-- THE VALUE of region 3: after its write-backs the output array is the host's matrix product of the two input arrays
    as the region finds them. -/
theorem final3 (c : Dev nD) :
    (dat3 (F := Ideal) V c).arrAt 2 cfg3.N = Host.dotGeneral (F := Ideal) (φ₁ := .f32) (φ₂ := .f32) Cert.ReferenceIdeal.dot_S100000x64_S64x64_S100000x64_1_0_0_1_n_n none (V c main_v42) (V c main_arg4) :=
  (Val3_arr V c).trans (Val3_ref _ _)

end Cert.KernelIdeal.Hand

end
-- ==== Proof.KI.Val4.lean ====
/-
  Region 4 of @main (the per-edge scaling) at its value: after the region's 208 write-backs, the last one cut to the
  4,256 rows left of the array, the output array holds the row-wise product of the gathered rows and the per-edge
  factors — the first input read at an index times the second read at the index's row — which is how the host's
  program spells `h[src] * norm[:, None]`: the factors broadcast to a column, the column along the 64 lanes, the
  product taken entry by entry.

  How: the body's payload at an index (two casts of a shape to itself, the cast of the factors to a column, the column's
  broadcast along the lanes, the product); what the body leaves in the output's staging buffer on the rows the
  write-back moves (the two input buffers there hold their blocks' entries, whatever fills them out past the array's
  end); the three windows move with one index map and are cut alike, so each point writes back its block of ONE function
  of the two arrays; the blocks cover the array (row `r` is in block `r / 8192`).
-/
import proofs.«173455_j62955630624873_1_alg».proof.Proof.KI.D4
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

/-! ## The body's payload at an index -/

private theorem zero_off2 : (![0, 0] : Fin 2 → Nat) = fun _ => 0 := funext fun a => by fin_cases a <;> rfl
private theorem zero_off1 : (![0] : Fin 1 → Nat) = fun _ => 0 := funext fun a => by fin_cases a; rfl

/-- An `[a]` vector cast to the column `[a, 1]` reads, at `(i, u)`, the operand at `i`. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column's entry of row `p`. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's payload at row `r`, lane `j`: the gathered entry there times the row's factor. -/
theorem k4_pay1_at (v0 : Vec F S8192 .f32) (v2 : Vec F S8192x64 .f32) (r : Fin 8192) (j : Fin 64) :
    k4_pay1 v0 v2 (ix2 r j) = FloatOps.mulf (v2 (ix2 r j)) (v0 (ix1 r)) := by
  unfold k4_pay1
  show FloatOps.mulf (shapeCast S8192x64 v2 shapeCasts_S8192x64_S8192x64 (ix2 r j))
      (broadcastTo S8192x64 (shapeCast S8192x1 (shapeCast S8192 v0 shapeCasts_S8192_S8192) shapeCasts_S8192_S8192x1)
        broadcasts_S8192x1_S8192x64 (ix2 r j)) = _
  rw [shapeCast_self, shapeCast_self, broadcastTo_a1_ab_apply, shapeCast_a_a1_apply]

/-- The output's staging buffer after the body, at row `r`, lane `j`. -/
theorem out4_2_at (x0 : Vec F S8192x64 .f32) (x1 : Vec F S8192 .f32) (r : Fin 8192) (j : Fin 64) :
    out4_2 x0 x1 (ix2 r j) = FloatOps.mulf (x0 (ix2 r j)) (x1 (ix1 r)) := by
  unfold out4_2
  rw [View.canon_unit_zero zero_off2]
  simp only [View.ld_unit_zero (S := S8192x64) zero_off2, View.ld_unit_zero (S := S8192) zero_off1]
  exact k4_pay1_at _ _ r j

/-! ## What a point writes back -/

/-- A filled-out block read inside the part the transfer moves is the block's entry there. -/
private theorem fill_apply_of_lt {G : Pipeline.Grid} (w : Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Window.fill; rw [dif_pos ((w.moved_iff i j).mpr h)]

/-- The product of the gathered rows and the per-edge factors, index by index. -/
def out4_arr (a0 : S1700000x64.Idx → Elt F .f32) (a1 : S1700000.Idx → Elt F .f32) : S1700000x64.Idx → Elt F .f32 :=
  fun i => FloatOps.mulf (a0 i) (a1 (ix1 (n := 1700000) (i 0)))

variable (V : (c : Dev nD) → (b : Ref sig .tc) → Buf (Elt F) ((c : Thread nD τ).loc b))

/-- The gathered rows' staging buffer, inside the part the transfers move, holds the array's entries the output's
    block names (the two windows have one index map and are cut alike). -/
theorem fblk4_0_apply (c : Dev nD) (t : Fin cfg4.N) (y : ((cfg4.win 2).xblock (grid4.coords t)).Idx) :
    fblk4 V c 0 t (zfill4 0) ((cfg4.win 2).xinj (grid4.coords t) y) = V c main_v50 (((cfg4.win 2).blk t).view.emb y) := by
  unfold fblk4
  refine ((cfg4.win 0).fill_xinj (grid4.coords t) (zfill4 0) (iblk4 V c 0 t) y).trans ?_
  show V c main_v50 (((cfg4.win 0).blk t).view.emb y) = V c main_v50 (((cfg4.win 2).blk t).view.emb y)
  rfl

/-- The factors' staging buffer at a row the transfers move holds the factor of the output block's row. -/
theorem fblk4_1_apply (c : Dev nD) (t : Fin cfg4.N) (y : ((cfg4.win 2).xblock (grid4.coords t)).Idx) :
    fblk4 V c 1 t (zfill4 1) (ix1 ((cfg4.win 2).xinj (grid4.coords t) y 0))
      = V c main_v29 (ix1 (n := 1700000) (((cfg4.win 2).blk t).view.emb y 0)) := by
  unfold fblk4
  refine (fill_apply_of_lt (cfg4.win 1) (grid4.coords t) (zfill4 1) (iblk4 V c 1 t) _ (fun a => by
    match a with
    | ⟨0, _⟩ => exact (y 0).isLt)).trans ?_
  show V c main_v29 (((cfg4.win 1).blk t).view.emb _) = _
  congr 1
  funext a
  apply Fin.ext
  match a with
  | ⟨0, _⟩ => rfl

/-- WHAT POINT `t` WRITES BACK is block `t`, cut at the array's end, of the row-wise product. -/
theorem after4_2_cut (c : Dev nD) (t : Fin cfg4.N) :
    (dat4 V c).flushed 2 t = ((cfg4.win 2).blk t).view.read (Elt F) (out4_arr (V c main_v50) (V c main_v29)) := by
  show (cfg4.win 2).cut (grid4.coords t) ((dat4 V c).after 2 t) = _
  rw [after4_2]
  funext y
  show out4_2 (fblk4 V c 0 t (zfill4 0)) (fblk4 V c 1 t (zfill4 1)) ((cfg4.win 2).xinj (grid4.coords t) y)
    = out4_arr (V c main_v50) (V c main_v29) (((cfg4.win 2).blk t).view.emb y)
  refine (congrArg (out4_2 _ _) (eq_ix2 _)).trans ((out4_2_at _ _ _ _).trans ?_)
  unfold out4_arr
  rw [fblk4_1_apply V c t y]
  refine congrArg (fun z => FloatOps.mulf z _) ?_
  exact (congrArg (fblk4 V c 0 t (zfill4 0)) (eq_ix2 _).symm).trans (fblk4_0_apply V c t y)

/-! ## From blocks to the array -/

/-- The output's index map and cuts, decided over the grid: point `t` has block row `t`, all 64 lanes, and moves 8,192
    rows but for the last point, which moves the 4,256 rows left of the array. -/
theorem win4_2_facts : ∀ t : Fin cfg4.N, win4_2.index t (0 : Fin 2) = t.val ∧ win4_2.index t (1 : Fin 2) = 0
    ∧ win4_2.xsize (grid4.coords t) (0 : Fin 2) = (if t.val = 207 then 4256 else 8192)
    ∧ win4_2.xsize (grid4.coords t) (1 : Fin 2) = 64 :=
  (by decide +kernel : ∀ t : Fin grid4.N, _)

/-- An index of the array is in point `t`'s block iff each coordinate is in the cut block's range on its axis. -/
theorem win4_2_mem_blk (t : Fin cfg4.N) (i : S1700000x64.Idx) :
    i ∈ ((cfg4.win 2).blk t).view.set ↔ ∀ a : Fin 2, win4_2.index t a * S8192x64.size a ≤ (i a).val
      ∧ (i a).val < win4_2.index t a * S8192x64.size a + win4_2.xsize (grid4.coords t) a := by
  show i ∈ ((View.whole main_v51).slice (win4_2.rect t)).set ↔ _
  rw [View.set_slice_whole, Rect.mem_set_unit]
  exact Iff.rfl

/-- Every index of the array is in the block of the point its row names: row `r` is in block `r / 8192`, and the last
    block's rows stop where the array does (1,700,000 = 207 · 8,192 + 4,256). -/
theorem cover4_2_arr (i : S1700000x64.Idx) :
    ∃ t : Fin cfg4.N, (cfg4.win 2).flush t = true ∧ i ∈ ((cfg4.win 2).blk t).view.set := by
  have hi0 : (i 0).val < 1700000 := (i 0).isLt
  have hi1 : (i 1).val < 64 := (i 1).isLt
  have hN : cfg4.N = 208 := N_4
  have ht : (i 0).val / 8192 < cfg4.N := by rw [hN]; omega
  obtain ⟨e0, e1, e2, e3⟩ := win4_2_facts ⟨(i 0).val / 8192, ht⟩
  refine ⟨⟨(i 0).val / 8192, ht⟩, flush4_2 _, ?_⟩
  rw [win4_2_mem_blk]
  intro a
  match a with
  | ⟨0, _⟩ =>
    show win4_2.index ⟨(i 0).val / 8192, ht⟩ (0 : Fin 2) * 8192 ≤ (i 0).val
      ∧ (i 0).val < win4_2.index ⟨(i 0).val / 8192, ht⟩ (0 : Fin 2) * 8192 + win4_2.xsize (grid4.coords ⟨(i 0).val / 8192, ht⟩) (0 : Fin 2)
    rw [e0, e2]
    show (i 0).val / 8192 * 8192 ≤ (i 0).val
      ∧ (i 0).val < (i 0).val / 8192 * 8192 + (if (i 0).val / 8192 = 207 then 4256 else 8192)
    split <;> omega
  | ⟨1, _⟩ =>
    show win4_2.index ⟨(i 0).val / 8192, ht⟩ (1 : Fin 2) * 64 ≤ (i 1).val
      ∧ (i 1).val < win4_2.index ⟨(i 0).val / 8192, ht⟩ (1 : Fin 2) * 64 + win4_2.xsize (grid4.coords ⟨(i 0).val / 8192, ht⟩) (1 : Fin 2)
    rw [e1, e3]; omega

/-- THE ARRAY after the region's 208 write-backs: the row-wise product, every row of it. -/
theorem final4_blocks (c : Dev nD) : (dat4 V c).arrAt 2 cfg4.N = out4_arr (V c main_v50) (V c main_v29) :=
  (dat4 V c).arrAt_eq_of_cover 2 (out4_arr (V c main_v50) (V c main_v29)) (fun t _ => after4_2_cut V c t) cover4_2_arr

/-! ## The product as the host spells it -/

/-- The row-wise product is the entry-by-entry product with the factors broadcast to a column and the column along the
    lanes (`hb`: the second broadcast's side condition, whichever program's record proves it). -/
theorem out4_arr_eq (a0 : S1700000x64.Idx → Elt F .f32) (a1 : S1700000.Idx → Elt F .f32)
    (hb : S1700000x1.BroadcastsInDim S1700000x64 (![0, 1] : Fin 2 → Fin S1700000x64.rank)) :
    out4_arr a0 a1 = mulf (s := S1700000x64) (φ := .f32) a0
      (broadcastInDim S1700000x64 ![0, 1] hb (broadcastInDim S1700000x1 ![0] bcast_S1700000_S1700000x1_0 a1)) := by
  funext i
  unfold out4_arr
  show FloatOps.mulf (a0 i) (a1 (ix1 (n := 1700000) (i 0)))
    = FloatOps.mulf (a0 i) (broadcastInDim S1700000x64 ![0, 1] hb (broadcastInDim S1700000x1 ![0] bcast_S1700000_S1700000x1_0 a1) i)
  refine congrArg (FloatOps.mulf (a0 i)) (Eq.symm ?_)
  refine (broadcastInDim_apply _ hb _ i (ix2 (n0 := 1700000) (n1 := 1) (i 0) 0) (fun a => match a with
    | ⟨0, _⟩ => by show (i 0).val = if (1700000 : Nat) = 1 then 0 else (i 0).val; rw [if_neg (by decide)]
    | ⟨1, _⟩ => by show 0 = if (1 : Nat) = 1 then 0 else (i 1).val; rw [if_pos rfl])).trans ?_
  exact broadcastInDim_apply _ bcast_S1700000_S1700000x1_0 a1 _ (ix1 (n := 1700000) (i 0)) (fun a => match a with
    | ⟨0, _⟩ => by show (i 0).val = if (1700000 : Nat) = 1 then 0 else (i 0).val; rw [if_neg (by decide)])

/-- THE VALUE of region 4 at the extended reals: the output array after the region is the host's row-wise product of
    the region's two input arrays as it finds them. -/
theorem final4 (V : (c : Dev nD) → (b : Ref sig .tc) → Buf (Elt Ideal) ((c : Thread nD τ).loc b)) (c : Dev nD)
    (hb : S1700000x1.BroadcastsInDim S1700000x64 (![0, 1] : Fin 2 → Fin S1700000x64.rank)) :
    (dat4 (F := Ideal) V c).arrAt 2 cfg4.N = mulf (F := Ideal) (s := S1700000x64) (φ := .f32) (V c main_v50)
      (broadcastInDim S1700000x64 ![0, 1] hb (broadcastInDim S1700000x1 ![0] bcast_S1700000_S1700000x1_0 (V c main_v29))) :=
  (final4_blocks V c).trans (out4_arr_eq (V c main_v50) (V c main_v29) hb)

end Cert.KernelIdeal.Hand

end
-- ==== Proof.KI.Val5.lean ====
/-
  Region 5 of @main at the ideal floats: the array its twenty write-backs leave is the bias added to every row of the
  aggregate and the negative entries replaced by zero, index by index — the host's broadcast of the bias, its add and
  its maximum against a broadcast zero.
-/
import proofs.«173455_j62955630624873_1_alg».proof.Proof.KI.D5
import proofs.«173455_j62955630624873_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

theorem r5_hz : (![0, 0] : Fin 2 → Nat) = fun _ => 0 := funext fun a => by fin_cases a <;> rfl
theorem r5_hz1 : (![0] : Fin 1 → Nat) = fun _ => 0 := funext fun a => by fin_cases a; rfl

/-- The host's term: the bias broadcast over the rows, added, and the maximum against a broadcast zero. -/
abbrev out5_host (a : S100000x64.Idx → Elt Ideal .f32) (b : S64.Idx → Elt Ideal .f32) : S100000x64.Idx → Elt Ideal .f32 :=
  maximumf (addf a (broadcastInDim S100000x64 ![0, 1] Cert.ReferenceIdeal.Gen.bcast_S1x64_S100000x64_0_1 (broadcastInDim S1x64 ![1] Cert.ReferenceIdeal.Gen.bcast_S64_S1x64_1 b))) (broadcastInDim S100000x64 ![] bcast_S_S100000x64 (constant (F := Ideal) S_ .f32 0x00000000#32))

/-- The host's term at row `r`, column `q`: the entry plus the bias of its column, or zero if that is negative. -/
theorem out5_host_apply (a : S100000x64.Idx → Elt Ideal .f32) (b : S64.Idx → Elt Ideal .f32) (r : Fin 100000) (q : Fin 64) :
    out5_host a b (ix2 r q) = max (a (ix2 r q) + b (ix1 q)) (Ideal.ofBits .f32 0x00000000#32) := by
  show max (a (ix2 r q) + broadcastInDim S100000x64 ![0, 1] Cert.ReferenceIdeal.Gen.bcast_S1x64_S100000x64_0_1 (broadcastInDim S1x64 ![1] Cert.ReferenceIdeal.Gen.bcast_S64_S1x64_1 b) (ix2 r q))
      (broadcastInDim S100000x64 ![] bcast_S_S100000x64 (constant (F := Ideal) S_ .f32 0x00000000#32) (ix2 r q)) = _
  rw [broadcastInDim_apply _ Cert.ReferenceIdeal.Gen.bcast_S1x64_S100000x64_0_1 _ (ix2 r q) (ix2 (0 : Fin 1) q) (fun ax => match ax with
        | ⟨0, _⟩ => by show 0 = if (1 : Nat) = 1 then 0 else r.val; rw [if_pos rfl]
        | ⟨1, _⟩ => by show q.val = if (64 : Nat) = 1 then 0 else q.val; rw [if_neg (by decide)]),
      broadcastInDim_apply _ Cert.ReferenceIdeal.Gen.bcast_S64_S1x64_1 b (ix2 (0 : Fin 1) q) (ix1 q) (fun ax => match ax with
        | ⟨0, _⟩ => by show q.val = if (64 : Nat) = 1 then 0 else q.val; rw [if_neg (by decide)]),
      broadcastInDim_apply _ bcast_S_S100000x64 _ (ix2 r q) ix0 (fun ax => ax.elim0)]
  rfl

/-- The body's payload at row `p`, column `q` of its block: the same of the block's entry and the bias. -/
theorem k5_pay1_apply (x0 : Vec Ideal S5000x64 .f32) (x1 : Vec Ideal S64 .f32) (p : Fin 5000) (q : Fin 64) :
    k5_pay1 x0 x1 (ix2 p q) = max (x0 (ix2 p q) + x1 (ix1 q)) (Ideal.ofBits .f32 0x00000000#32) := by
  unfold k5_pay1
  show max (shapeCast S5000x64 x0 shapeCasts_S5000x64_S5000x64 (ix2 p q)
      + broadcastTo S5000x64 (shapeCast S1x64 x1 shapeCasts_S64_S1x64) broadcasts_S1x64_S5000x64 (ix2 p q)) _ = _
  rw [shapeCast_self, broadcastTo_1b_ab_apply, shapeCast_a_1a_apply]
  rfl

/-- What the body leaves in the output's staging buffer, at an index: its one whole store of the payload. -/
theorem out5_2_apply (x0 : Vec Ideal S5000x64 .f32) (x1 : Vec Ideal S64 .f32) (p : Fin 5000) (q : Fin 64) :
    out5_2 x0 x1 (ix2 p q) = max (x0 (ix2 p q) + x1 (ix1 q)) (Ideal.ofBits .f32 0x00000000#32) := by
  unfold out5_2
  rw [View.canon_unit_zero r5_hz]
  simp only [View.ld_unit_zero (S := S5000x64) r5_hz, View.ld_unit_zero (S := S64) r5_hz1]
  exact k5_pay1_apply x0 x1 p q

/-- The printed index maps over the grid: the row windows are at block row `t`, column block 0; the bias at block 0. -/
theorem win5_idx : ∀ t : Fin cfg5.N, win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

/-- The row window's block at point `t` is rows `5000 t … 5000 t + 4999` of the aggregate. -/
theorem iblk5_0_apply (c : Dev nD) (t : Fin cfg5.N) (p : Fin 5000) (q : Fin 64) (r : Fin 100000) (hr : r.val = t.val * 5000 + p.val) :
    (iblk5 V c 0 t : Vec Ideal S5000x64 .f32) (ix2 p q) = (V c main_v54 : S100000x64.Idx → Elt Ideal .f32) (ix2 r q) := by
  obtain ⟨e0, e1, e2, e3, e4⟩ := win5_idx t
  unfold iblk5
  rw [View.read_apply]
  show V c main_v54 _ = V c main_v54 _
  congr 1
  funext a
  apply Fin.ext
  match a with
  | ⟨0, _⟩ => show win5_0.index t (0 : Fin 2) * 5000 + 1 * p.val = r.val; rw [e0, hr]; omega
  | ⟨1, _⟩ => show win5_0.index t (1 : Fin 2) * 64 + 1 * q.val = q.val; rw [e1]; omega

/-- The bias window's block is the bias, at every point. -/
theorem iblk5_1_apply (c : Dev nD) (t : Fin cfg5.N) (q : Fin 64) :
    (iblk5 V c 1 t : Vec Ideal S64 .f32) (ix1 q) = (V c main_arg5 : S64.Idx → Elt Ideal .f32) (ix1 q) := by
  obtain ⟨e0, e1, e2, e3, e4⟩ := win5_idx t
  unfold iblk5
  rw [View.read_apply]
  show V c main_arg5 _ = V c main_arg5 _
  congr 1
  funext a
  apply Fin.ext
  match a with
  | ⟨0, _⟩ => show win5_1.index t (0 : Fin 1) * 64 + 1 * q.val = q.val; rw [e2]; omega

/-- WHAT POINT `t` WRITES BACK is block `t` of the host's term of the aggregate and the bias as the region finds them. -/
theorem flush5_2_eq (c : Dev nD) (t : Fin cfg5.N) :
    (dat5 (F := Ideal) V c).flushed 2 t = ((cfg5.win 2).blk t).view.read (Elt Ideal) (out5_host (V c main_v54) (V c main_arg5)) := by
  show (cfg5.win 2).cut (grid5.coords t) ((dat5 V c).after 2 t) = _
  rw [after5_2]
  obtain ⟨e0, e1, e2, e3, e4⟩ := win5_idx t
  have ht : t.val < 20 := Nat.lt_of_lt_of_eq t.isLt (show cfg5.N = 20 from N_5)
  funext j
  have hj0 : (j 0).val < 5000 := (j 0).isLt
  have hj1 : (j 1).val < 64 := (j 1).isLt
  have hr : t.val * 5000 + (j 0).val < 100000 := by omega
  have ex : (cfg5.win 2).xinj (grid5.coords t) j = ix2 (⟨(j 0).val, hj0⟩ : Fin 5000) (⟨(j 1).val, hj1⟩ : Fin 64) :=
    funext fun a => match a with | ⟨0, _⟩ => rfl | ⟨1, _⟩ => rfl
  have ei : ((cfg5.win 2).blk t).view.emb j = ix2 (⟨t.val * 5000 + (j 0).val, hr⟩ : Fin 100000) (⟨(j 1).val, hj1⟩ : Fin 64) := by
    funext a
    apply Fin.ext
    match a with
    | ⟨0, _⟩ => show win5_2.index t (0 : Fin 2) * 5000 + 1 * (j 0).val = t.val * 5000 + (j 0).val; rw [e3]; omega
    | ⟨1, _⟩ => show win5_2.index t (1 : Fin 2) * 64 + 1 * (j 1).val = (j 1).val; rw [e4]; omega
  show out5_2 (iblk5 V c 0 t) (iblk5 V c 1 t) ((cfg5.win 2).xinj (grid5.coords t) j) = out5_host (V c main_v54) (V c main_arg5) (((cfg5.win 2).blk t).view.emb j)
  rw [ex, ei]
  refine (out5_2_apply (iblk5 V c 0 t) (iblk5 V c 1 t) ⟨(j 0).val, hj0⟩ ⟨(j 1).val, hj1⟩).trans ?_
  refine Eq.trans ?_ (out5_host_apply (V c main_v54) (V c main_arg5) ⟨t.val * 5000 + (j 0).val, hr⟩ ⟨(j 1).val, hj1⟩).symm
  rw [iblk5_0_apply V c t ⟨(j 0).val, hj0⟩ ⟨(j 1).val, hj1⟩ ⟨t.val * 5000 + (j 0).val, hr⟩ rfl, iblk5_1_apply V c t ⟨(j 1).val, hj1⟩]

/-- An index of the array is in point `t`'s block iff each coordinate is in the block's range on its axis. -/
theorem win5_2_mem_blk (t : Fin cfg5.N) (i : S100000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v55).slice (win5_2.rect t)).set ↔ _
  rw [View.set_slice_whole, Rect.mem_set_unit]
  exact Iff.rfl

/-- Row `r` of the array is in the block of point `r / 5000`: the twenty blocks tile it. -/
theorem cover5_rows (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hN : cfg5.N = 20 := N_5
  refine ⟨⟨(i 0).val / 5000, by rw [hN]; omega⟩, flush5_2 _, ?_⟩
  rw [win5_2_mem_blk]
  obtain ⟨e0, e1, e2, e3, e4⟩ := win5_idx ⟨(i 0).val / 5000, by rw [hN]; omega⟩
  intro a
  match a with
  | ⟨0, _⟩ =>
    show win5_2.index _ (0 : Fin 2) * 5000 ≤ (i 0).val ∧ (i 0).val < win5_2.index _ (0 : Fin 2) * 5000 + 5000
    rw [e3]; show (i 0).val / 5000 * 5000 ≤ (i 0).val ∧ (i 0).val < (i 0).val / 5000 * 5000 + 5000; omega
  | ⟨1, _⟩ =>
    show win5_2.index _ (1 : Fin 2) * 64 ≤ (i 1).val ∧ (i 1).val < win5_2.index _ (1 : Fin 2) * 64 + 64
    rw [e4]; omega

/-- THE ARRAY after region 5's twenty write-backs: the host's bias-add and ReLU of the aggregate. -/
theorem final5 (c : Dev nD) :
    (dat5 (F := Ideal) V c).arrAt 2 cfg5.N = maximumf (addf (V c main_v54) (broadcastInDim S100000x64 ![0, 1] Cert.ReferenceIdeal.Gen.bcast_S1x64_S100000x64_0_1 (broadcastInDim S1x64 ![1] Cert.ReferenceIdeal.Gen.bcast_S64_S1x64_1 (V c main_arg5)))) (broadcastInDim S100000x64 ![] bcast_S_S100000x64 (constant (F := Ideal) S_ .f32 0x00000000#32)) :=
  (dat5 (F := Ideal) V c).arrAt_eq_of_cover 2 (out5_host (V c main_v54) (V c main_arg5)) (fun t _ => flush5_2_eq V c t) (cover5_rows)

end Cert.KernelIdeal.Hand

end
-- ==== Proof.RefSide.lean ====
import proofs.«173455_j62955630624873_1_alg».proof.Proof.RefRunP
import proofs.«173455_j62955630624873_1_alg».proof.Proof.RefReadP
-- ==== Proof.KI.Bridge.lean ====
/-
  The bridge at the ideal instance: the kernel program's result is the reference's composed term of the same arguments.
  The reference's term is read stage by stage (one function of the arguments per operation); the kernel side is read
  boundary by boundary of @main: the host stretches before the first kernel leave the two index vectors (the edge list
  with the self loops appended) and the symmetric normalisation of the edges; then, for each layer, the matrix product
  (a kernel), the gather of its rows along the source indices (host), the scaling by the edge weights (a kernel), the
  scatter-add along the destination indices (host), and the bias with the rectifier (a kernel). Each boundary's value
  is the reference's stage of the same name applied to the launch contents of the arguments; the reference computes
  the normalisation a second time for the second layer, by the same operations.
-/
import proofs.«173455_j62955630624873_1_alg».proof.Proof.KI.Fold
import proofs.«173455_j62955630624873_1_alg».proof.Proof.KI.Carry
import proofs.«173455_j62955630624873_1_alg».proof.Proof.KI.Val0
import proofs.«173455_j62955630624873_1_alg».proof.Proof.KI.Val1
import proofs.«173455_j62955630624873_1_alg».proof.Proof.KI.Val2
import proofs.«173455_j62955630624873_1_alg».proof.Proof.KI.Val3
import proofs.«173455_j62955630624873_1_alg».proof.Proof.KI.Val4
import proofs.«173455_j62955630624873_1_alg».proof.Proof.KI.Val5
import proofs.«173455_j62955630624873_1_alg».proof.Proof.RefSide

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.ReferenceIdeal.ReadP

/-! ## The host stretches before the first kernel, from any contents: the two index vectors and the edge weights
    are the reference's stages of the edge-list argument -/

section Pre
set_option maxHeartbeats 4000000 in
/-- The source indices with the self loops appended. -/
theorem pre_v3 (X : Valuation τ sig (Elt F)) :
    StableHlo.after hostOps0_2 (StableHlo.after hostOps0_1 (StableHlo.after hostOps0 X)) (Proc.devRef .tc main_v3)
      = val_main_v3 (F := F) (X (Proc.devRef .tc main_arg1)) := by
  after_results_simp
  rfl
set_option maxHeartbeats 4000000 in
/-- The destination indices with the self loops appended. -/
theorem pre_v6 (X : Valuation τ sig (Elt F)) :
    StableHlo.after hostOps0_2 (StableHlo.after hostOps0_1 (StableHlo.after hostOps0 X)) (Proc.devRef .tc main_v6)
      = val_main_v6 (F := F) (X (Proc.devRef .tc main_arg1)) := by
  after_results_simp
  rfl
set_option maxHeartbeats 4000000 in
/-- The edge weights: the inverse square roots of the two end points' degrees, multiplied. -/
theorem pre_v29 (X : Valuation τ sig (Elt F)) :
    StableHlo.after hostOps0_2 (StableHlo.after hostOps0_1 (StableHlo.after hostOps0 X)) (Proc.devRef .tc main_v29)
      = val_main_v29 (F := F) (X (Proc.devRef .tc main_arg1)) := by
  after_results_simp
  rfl
end Pre

section Host
variable (m : (ℓ : Loc nD τ sig) → Buf (Elt F) ℓ) (ρ : Dev nD → PrngReg)

theorem K3_v3 (c : Dev nD) : W3 m ρ c (Proc.devRef .tc main_v3) = val_main_v3 (F := F) (m ((c : Thread nD τ).loc main_arg1)) :=
  pre_v3 (W0 m ρ c)
theorem K3_v6 (c : Dev nD) : W3 m ρ c (Proc.devRef .tc main_v6) = val_main_v6 (F := F) (m ((c : Thread nD τ).loc main_arg1)) :=
  pre_v6 (W0 m ρ c)
theorem K3_v29 (c : Dev nD) : W3 m ρ c (Proc.devRef .tc main_v29) = val_main_v29 (F := F) (m ((c : Thread nD τ).loc main_arg1)) :=
  pre_v29 (W0 m ρ c)
end Host

/-! ## The boundaries after the first kernel, at the ideal instance: each value is the reference's stage of the arguments -/
section Chain
variable (m : (ℓ : Loc nD τ sig) → Buf (Elt Ideal) ℓ) (ρ : Dev nD → PrngReg)

/-- Layer 1's product of the features with the weights. -/
theorem K4_v30 (c : Dev nD) : W4 m ρ c (Proc.devRef .tc main_v30)
    = val_main_v30 (F := Ideal) (m ((c : Thread nD τ).loc main_arg0)) (m ((c : Thread nD τ).loc main_arg2)) := by
  refine (W4_arr m ρ c 2).trans ((final0 (V3 m ρ) c).trans ?_)
  dsimp only [V3]
  rw [carry_arg0_W3, carry_arg2_W3]
  rfl

/-- Its rows gathered along the source indices (wrapped as a gather wraps a negative index). -/
theorem K5_v37 (c : Dev nD) : W5 m ρ c (Proc.devRef .tc main_v37)
    = val_main_v37 (F := Ideal) (m ((c : Thread nD τ).loc main_arg0)) (m ((c : Thread nD τ).loc main_arg1)) (m ((c : Thread nD τ).loc main_arg2)) := by
  show StableHlo.after hostOps1 (W4 m ρ c) (Proc.devRef .tc main_v37) = _
  after_results
  rw [K4_v30, carry_v3_W4, K3_v3]
  rfl

/-- Each gathered row scaled by its edge's weight. -/
theorem K6_v38 (c : Dev nD) : W6 m ρ c (Proc.devRef .tc main_v38)
    = val_main_v40 (F := Ideal) (m ((c : Thread nD τ).loc main_arg0)) (m ((c : Thread nD τ).loc main_arg1)) (m ((c : Thread nD τ).loc main_arg2)) := by
  refine (W6_arr m ρ c 2).trans ((final1 (V5 m ρ) c Cert.ReferenceIdeal.Gen.bcast_S1700000x1_S1700000x64_0_1).trans ?_)
  dsimp only [V5]
  rw [K5_v37, carry_v29_W5, K3_v29]
  rfl

/-- The scaled rows added up along the destination indices. -/
theorem K7_v41 (c : Dev nD) : W7 m ρ c (Proc.devRef .tc main_v41)
    = val_main_v43 (F := Ideal) (m ((c : Thread nD τ).loc main_arg0)) (m ((c : Thread nD τ).loc main_arg1)) (m ((c : Thread nD τ).loc main_arg2)) := by
  show StableHlo.after hostOps2 (W6 m ρ c) (Proc.devRef .tc main_v41) = _
  after_results
  rw [K6_v38, carry_v6_W6, K3_v6]
  rfl

/-- Layer 1's output: the sums plus the bias, negative entries set to zero. -/
theorem K8_v42 (c : Dev nD) : W8 m ρ c (Proc.devRef .tc main_v42)
    = val_main_v47 (F := Ideal) (m ((c : Thread nD τ).loc main_arg0)) (m ((c : Thread nD τ).loc main_arg1)) (m ((c : Thread nD τ).loc main_arg2)) (m ((c : Thread nD τ).loc main_arg3)) := by
  refine (W8_arr m ρ c 2).trans ((final2 (V7 m ρ) c).trans ?_)
  dsimp only [V7]
  rw [K7_v41, carry_arg3_W7]
  rfl

/-- Layer 2's product of layer 1's output with the second weights. -/
theorem K9_v43 (c : Dev nD) : W9 m ρ c (Proc.devRef .tc main_v43)
    = val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W9_arr m ρ c 2).trans ((final3 (V8 m ρ) c).trans ?_)
  dsimp only [V8]
  rw [K8_v42, carry_arg4_W8]
  rfl

/-- Its rows gathered along the source indices. -/
theorem K10_v50 (c : Dev nD) : W10 m ρ c (Proc.devRef .tc main_v50)
    = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps4 (W9 m ρ c) (Proc.devRef .tc main_v50) = _
  after_results
  rw [K9_v43, carry_v3_W9, K3_v3]
  rfl

/-- Each gathered row scaled by its edge's weight (the reference computes the weights again, by the same operations). -/
theorem K11_v51 (c : Dev nD) : W11 m ρ c (Proc.devRef .tc main_v51)
    = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W11_arr m ρ c 2).trans ((final4 (V10 m ρ) c Cert.ReferenceIdeal.Gen.bcast_S1700000x1_S1700000x64_0_1).trans ?_)
  dsimp only [V10]
  rw [K10_v50, carry_v29_W10, K3_v29]
  rfl

/-- The scaled rows added up along the destination indices. -/
theorem K12_v54 (c : Dev nD) : W12 m ρ c (Proc.devRef .tc main_v54)
    = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps5 (W11 m ρ c) (Proc.devRef .tc main_v54) = _
  after_results
  rw [K11_v51, carry_v6_W11, K3_v6]
  rfl

/-- Layer 2's output: the sums plus the bias, negative entries set to zero. -/
theorem K13_v55 (c : Dev nD) : W13 m ρ c (Proc.devRef .tc main_v55)
    = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W13_arr m ρ c 2).trans ((final5 (V12 m ρ) c).trans ?_)
  dsimp only [V12]
  rw [K12_v54, carry_arg5_W12]
  rfl
end Chain

/-! ## The bridge: from memories that agree on the arguments, the reference's result term is the kernel program's last
    boundary read at its result buffer -/

theorem bridge (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ)
    (hagree : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5))
    (c : Dev nD) :
    Cert.ReferenceIdeal.ValueP.res_main_v88 m' c = W13 (F := Ideal) m ρ c (Proc.devRef .tc main_v55) := by
  obtain ⟨h0, h1, h2, h3, h4, h5⟩ := hagree c
  rw [val_main_v88_eq, h0, h1, h2, h3, h4, h5]
  exact (K13_v55 m ρ c).symm

end Cert.KernelIdeal.Hand

end
-- ==== Proof.lean ====
/-
  The certificate of a two-layer graph convolution: x ↦ relu(Â (relu(Â (x W1) + b1) W2) + b2), with Â the
  symmetrically normalised adjacency (self-loops added) given as an edge list. The kernel program runs the two dense
  products, the per-edge scaling and the bias-and-ReLU epilogues as six pipelined kernel regions around the host's
  gathers and scatter-adds; the reference is the same composition of host operations. At the ideal instance a change
  of float format is the identity and a matrix product into a zero accumulator is the host's product, so region by
  region the kernel's arrays are the reference's stages (KI/Val0 … Val5), and the two results are one function of the
  arguments (KI/Bridge). The frames: the run of @main written once for any float family (KI/Run) and read at both
  instances; the reference's frame is its run with the result dropped. The ideal pass rewrote nothing, so
  `preserves` is `True`.
-/
import proofs.«173455_j62955630624873_1_alg».proof.Defs
import proofs.«173455_j62955630624873_1_alg».proof.Proof.Gen.Kernel
import proofs.«173455_j62955630624873_1_alg».proof.Proof.Gen.KernelIdeal
import proofs.«173455_j62955630624873_1_alg».proof.Proof.Gen.ReferenceIdeal
import proofs.«173455_j62955630624873_1_alg».proof.Proof.Gen.Pre_finite_inputs
import proofs.«173455_j62955630624873_1_alg».proof.Proof.K.Run
import proofs.«173455_j62955630624873_1_alg».proof.Proof.KI.Run
import proofs.«173455_j62955630624873_1_alg».proof.Proof.KI.Bridge
import proofs.«173455_j62955630624873_1_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the kernel's last boundary contents at the result: the kernel by its run, the reference
    because its composed term of the (agreeing) arguments is that array. -/
theorem algebraic : Cert.algebraic_KernelIdeal_ReferenceIdeal := by
  intro m ρ m' ρ' _ hagree
  refine ⟨fun c => Cert.KernelIdeal.Hand.W13 (F := Ideal) m ρ c (Proc.devRef .tc Cert.KernelIdeal.main_v55),
    Cert.KernelIdeal.Hand.result (F := Ideal) m ρ, ?_⟩
  exact (θ_run Cert.ReferenceIdeal.defs _ _).mono
    (fun _ h c => ⟨(h c).1.trans (Cert.KernelIdeal.Hand.bridge m ρ m' hagree c), (h c).2⟩)
    (Cert.ReferenceIdeal.ValueP.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
